-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x1 : Shape := ⟨2, ![16, 1]⟩
abbrev S16x16x16x128 : Shape := ⟨4, ![16, 16, 16, 128]⟩
abbrev S16x16x8192x128 : Shape := ⟨4, ![16, 16, 8192, 128]⟩
abbrev S_ : Shape := ⟨0, ![]⟩

class Facts : Prop where
  bcast_S_S16x16x16x128 : S_.BroadcastsInDim S16x16x16x128 (![] : Fin 0 → Fin S16x16x16x128.rank)
  reducesTo_S16x16x16x128_S_d0_1_2_3 : S16x16x16x128.ReducesTo [0, 1, 2, 3] S_
  h_S_ : 0 < S_.numel
  bcast_S_S16x16x8192x128 : S_.BroadcastsInDim S16x16x8192x128 (![] : Fin 0 → Fin S16x16x8192x128.rank)
  reducesTo_S16x16x8192x128_S_d0_1_2_3 : S16x16x8192x128.ReducesTo [0, 1, 2, 3] S_
  bcast_S_S16x1 : S_.BroadcastsInDim S16x1 (![] : Fin 0 → Fin S16x1.rank)
  reducesTo_S16x1_S_d0_1 : S16x1.ReducesTo [0, 1] S_

variable [Facts]

def fn_part1 {F : FTy → Type} [FloatOps F] (main_arg1 : IVec S16x1 32) (main_v15 : IVec S_ 1) (main_c_5 : IVec S_ 32) : IVec S_ 1 :=
  let main_v16 : IVec S16x1 32 := broadcastInDim S16x1 ![] bcast_S_S16x1 main_c_5
  let main_v17 : IVec S16x1 1 := cmpi .sge main_arg1 main_v16
  let main_c_6 : IVec S_ 32 := constantI S_ 32 16#32
  let main_v18 : IVec S16x1 32 := broadcastInDim S16x1 ![] bcast_S_S16x1 main_c_6
  let main_v19 : IVec S16x1 1 := cmpi .slt main_arg1 main_v18
  let main_v20 : IVec S16x1 1 := andi main_v17 main_v19
  let main_c_7 : IVec S_ 1 := constantI S_ 1 1#1
  let main_v21 : IVec S_ 1 := (fun x v => Host.reduce IntOp.andi x v reducesTo_S16x1_S_d0_1 h_S_) main_v20 main_c_7
  let main_v22 : IVec S_ 1 := andi main_v15 main_v21
  main_v22

def fn {F : FTy → Type} [FloatOps F] (main_arg0 : IVec S16x1 32) (main_arg1 : IVec S16x1 32) (main_arg2 : FVec F S16x16x16x128 .f32) (main_arg3 : FVec F S16x16x8192x128 .f32) : IVec S_ 1 :=
  let main_v0 : FVec F S16x16x16x128 .f32 := Host.absf main_arg2
  let main_cst : FVec F S_ .f32 := constant S_ .f32 0x7F800000#32
  let main_v1 : FVec F S16x16x16x128 .f32 := broadcastInDim S16x16x16x128 ![] bcast_S_S16x16x16x128 main_cst
  let main_v2 : IVec S16x16x16x128 1 := cmpf .olt main_v0 main_v1
  let main_c : IVec S_ 1 := constantI S_ 1 1#1
  let main_v3 : IVec S_ 1 := (fun x v => Host.reduce IntOp.andi x v reducesTo_S16x16x16x128_S_d0_1_2_3 h_S_) main_v2 main_c
  let main_v4 : FVec F S16x16x8192x128 .f32 := Host.absf main_arg3
  let main_cst_0 : FVec F S_ .f32 := constant S_ .f32 0x7F800000#32
  let main_v5 : FVec F S16x16x8192x128 .f32 := broadcastInDim S16x16x8192x128 ![] bcast_S_S16x16x8192x128 main_cst_0
  let main_v6 : IVec S16x16x8192x128 1 := cmpf .olt main_v4 main_v5
  let main_c_1 : IVec S_ 1 := constantI S_ 1 1#1
  let main_v7 : IVec S_ 1 := (fun x v => Host.reduce IntOp.andi x v reducesTo_S16x16x8192x128_S_d0_1_2_3 h_S_) main_v6 main_c_1
  let main_v8 : IVec S_ 1 := andi main_v3 main_v7
  let main_c_2 : IVec S_ 32 := constantI S_ 32 0#32
  let main_v9 : IVec S16x1 32 := broadcastInDim S16x1 ![] bcast_S_S16x1 main_c_2
  let main_v10 : IVec S16x1 1 := cmpi .sge main_arg0 main_v9
  let main_c_3 : IVec S_ 32 := constantI S_ 32 8176#32
  let main_v11 : IVec S16x1 32 := broadcastInDim S16x1 ![] bcast_S_S16x1 main_c_3
  let main_v12 : IVec S16x1 1 := cmpi .sle main_arg0 main_v11
  let main_v13 : IVec S16x1 1 := andi main_v10 main_v12
  let main_c_4 : IVec S_ 1 := constantI S_ 1 1#1
  let main_v14 : IVec S_ 1 := (fun x v => Host.reduce IntOp.andi x v reducesTo_S16x1_S_d0_1 h_S_) main_v13 main_c_4
  let main_v15 : IVec S_ 1 := andi main_v8 main_v14
  let main_c_5 : IVec S_ 32 := constantI S_ 32 0#32
  fn_part1 (F := F) main_arg1 main_v15 main_c_5
-- ==== Kernel.lean ====
abbrev S16x1 : Shape := ⟨2, ![16, 1]⟩
abbrev S16x16x16x128 : Shape := ⟨4, ![16, 16, 16, 128]⟩
abbrev S16x16x8192x128 : Shape := ⟨4, ![16, 16, 8192, 128]⟩
abbrev S_ : Shape := ⟨0, ![]⟩
abbrev S16 : Shape := ⟨1, ![16]⟩
abbrev S16x8192x16x128 : Shape := ⟨4, ![16, 8192, 16, 128]⟩
abbrev S1x16x512x128 : Shape := ⟨4, ![1, 16, 512, 128]⟩
abbrev S1x512x16x128 : Shape := ⟨4, ![1, 512, 16, 128]⟩
abbrev S1x16x16x128 : Shape := ⟨4, ![1, 16, 16, 128]⟩
abbrev S1 : Shape := ⟨1, ![1]⟩

abbrev nBuf : Space → Nat
  | .hbm => 23
  | .vmem => 6
  | .smem => 2
  | _ => 0

abbrev bufTy : (tb : Table) → Fin (tcTables nBuf tb) → BufTy
  | .hbm, ⟨0, _⟩ => ⟨S16x1, .i32⟩
  | .hbm, ⟨1, _⟩ => ⟨S16x1, .i32⟩
  | .hbm, ⟨2, _⟩ => ⟨S16x16x16x128, .f32⟩
  | .hbm, ⟨3, _⟩ => ⟨S16x16x8192x128, .f32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S16x1, .i32⟩
  | .hbm, ⟨8, _⟩ => ⟨S16x1, .i32⟩
  | .hbm, ⟨9, _⟩ => ⟨S_, .i32⟩
  | .hbm, ⟨10, _⟩ => ⟨S16x1, .i32⟩
  | .hbm, ⟨11, _⟩ => ⟨S16x1, .i32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S16x1, .i32⟩
  | .hbm, ⟨16, _⟩ => ⟨S16x1, .i32⟩
  | .hbm, ⟨17, _⟩ => ⟨S_, .i32⟩
  | .hbm, ⟨18, _⟩ => ⟨S16x1, .i32⟩
  | .hbm, ⟨19, _⟩ => ⟨S16x1, .i32⟩
  | .hbm, ⟨20, _⟩ => ⟨S16x16x16x128, .f32⟩
  | .hbm, ⟨21, _⟩ => ⟨S16x8192x16x128, .f32⟩
  | .hbm, ⟨22, _⟩ => ⟨S16x8192x16x128, .f32⟩
  | .local _ .vmem, ⟨0, _⟩ => ⟨S1x16x512x128, .f32⟩
  | .local _ .vmem, ⟨1, _⟩ => ⟨S1x16x512x128, .f32⟩
  | .local _ .vmem, ⟨2, _⟩ => ⟨S1x512x16x128, .f32⟩
  | .local _ .vmem, ⟨3, _⟩ => ⟨S1x512x16x128, .f32⟩
  | .local _ .vmem, ⟨4, _⟩ => ⟨S1x16x16x128, .f32⟩
  | .local _ .vmem, ⟨5, _⟩ => ⟨S1x16x16x128, .f32⟩
  | .local _ .smem, ⟨0, _⟩ => ⟨S16, .i32⟩
  | .local _ .smem, ⟨1, _⟩ => ⟨S16, .i32⟩
  | _, _ => ⟨S16x1, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_c : Ref sig .tc := ⟨.hbm, 4, rfl⟩
abbrev main_call0_c_0 : Ref sig .tc := ⟨.hbm, 5, rfl⟩
abbrev main_call0_call0_v0 : Ref sig .tc := ⟨.hbm, 6, rfl⟩
abbrev main_call0_call0_v1 : Ref sig .tc := ⟨.hbm, 7, rfl⟩
abbrev main_call0_call0_v2 : Ref sig .tc := ⟨.hbm, 8, rfl⟩
abbrev main_call0_call0_v3 : Ref sig .tc := ⟨.hbm, 9, rfl⟩
abbrev main_call0_call0_v4 : Ref sig .tc := ⟨.hbm, 10, rfl⟩
abbrev main_call0_v0 : Ref sig .tc := ⟨.hbm, 11, rfl⟩
abbrev main_call0_c_1 : Ref sig .tc := ⟨.hbm, 12, rfl⟩
abbrev main_call0_c_2 : Ref sig .tc := ⟨.hbm, 13, rfl⟩
abbrev main_call0_call1_v0 : Ref sig .tc := ⟨.hbm, 14, rfl⟩
abbrev main_call0_call1_v1 : Ref sig .tc := ⟨.hbm, 15, rfl⟩
abbrev main_call0_call1_v2 : Ref sig .tc := ⟨.hbm, 16, rfl⟩
abbrev main_call0_call1_v3 : Ref sig .tc := ⟨.hbm, 17, rfl⟩
abbrev main_call0_call1_v4 : Ref sig .tc := ⟨.hbm, 18, rfl⟩
abbrev main_call0_v2 : Ref sig .tc := ⟨.hbm, 19, rfl⟩
abbrev main_call0_v4 : Ref sig .tc := ⟨.hbm, 20, rfl⟩
abbrev main_call0_v5 : Ref sig .tc := ⟨.hbm, 21, rfl⟩
abbrev main_v0 : Ref sig .tc := ⟨.hbm, 22, rfl⟩
abbrev main_call0_v1 : Ref sig .tc := ⟨.smem, 0, rfl⟩
abbrev main_call0_v3 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5

abbrev nD : Nat := 1
abbrev τ : Topo := Topo.v7x

variable {F : FTy → Type} [FloatOps F]

abbrev grid0 : Pipeline.Grid := ⟨2, ![16, 16], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x16x512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x16x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev grid1 : Pipeline.Grid := ⟨1, ![16], ![false]⟩

abbrev pre1 : Pipeline.Prefetch sig := ⟨2, ![main_call0_v1.idx, main_call0_v3.idx], fun | 0 => main_call0_v1.names | 1 => main_call0_v3.names | ⟨_ + 2, h⟩ => absurd h (Nat.not_lt.2 (Nat.le_add_left _ _)), fun | 0 => rfl | 1 => rfl | ⟨_ + 2, h⟩ => absurd h (Nat.not_lt.2 (Nat.le_add_left _ _))⟩

def k1_off1 (i : grid1.Coords) : Fin 1 → Nat :=
  let arg0 : BitVec 32 := BitVec.ofNat 32 (i 0).val
  let v0 : Index := Scalar.indexCast arg0
  ![v0.toNat]
def k1_off2 (v1 : BitVec 32) (v3 : BitVec 32) : Fin 4 → Nat :=
  let c0_i32 : BitVec 32 := 0#32
  let c0_i32_0 : BitVec 32 := 0#32
  ![v3.toNat, v1.toNat, 0, 0]

def k1_chk1 (v1 : BitVec 32) (v3 : BitVec 32) : Prop :=
  (∀ a, (k1_off2 v1 v3) a + S1x16x16x128.size a ≤ S16x8192x16x128.size a)
instance k1_chk1.dec : ∀ (v1 : BitVec 32) (v3 : BitVec 32), Decidable (k1_chk1 v1 v3) := fun v1 v3 => decidable_of_iff' _ (Iff.of_eq (k1_chk1.eq_1 v1 v3))
theorem k1_off2_inb : ∀ (v1 : BitVec 32) (v3 : BitVec 32) (k1_hw1 : k1_chk1 v1 v3), ∀ a, (k1_off2 v1 v3) a + S1x16x16x128.size a ≤ S16x8192x16x128.size a := fun v1 v3 k1_hw1 => k1_hw1

def cc1_transform_0 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage1_0 : Fin 2 → Memref sig .tc .vmem S1x16x16x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

class Facts₀ : Prop where
  bcast_S_S16x1 : S_.BroadcastsInDim S16x1 (![] : Fin 0 → Fin S16x1.rank)
  shapeCasts_S16x1_S16 : S16x1.ShapeCasts S16
  transposes_S16x16x16x128_S16x16x16x128_0_2_1_3 : S16x16x16x128.Transposes [0, 2, 1, 3] S16x16x16x128
  inb_S1x16x512x128_S1x16x512x128_0_0_0_0 : ∀ a, (![0, 0, 0, 0] : Fin 4 → Nat) a + S1x16x512x128.size a ≤ S1x16x512x128.size a
  h_S1x16x512x128 : 0 < S1x16x512x128.numel
  transposes_S1x16x512x128_p0_2_1_3_S1x512x16x128 : S1x16x512x128.Transposes [0, 2, 1, 3] S1x512x16x128
  inb_S1x512x16x128_S1x512x16x128_0_0_0_0 : ∀ a, (![0, 0, 0, 0] : Fin 4 → Nat) a + S1x512x16x128.size a ≤ S1x512x16x128.size a
  h_S1x512x16x128 : 0 < S1x512x16x128.numel
  numel1_S1 : S1.numel = 1
  hcc1_scratch0 : 6 + S_.numel ≤ 7
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x16x512x128.size a ≤ S16x16x8192x128.size a
  hwx0_0 : ∀ i : grid0.Coords, EltTy.bits .f32 = 32 ∨ (Rect.block (s := S16x16x8192x128) S1x16x512x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x16x128.size a ≤ S16x8192x16x128.size a
  hwx0_1 : ∀ i : grid0.Coords, EltTy.bits .f32 = 32 ∨ (Rect.block (s := S16x8192x16x128) S1x512x16x128.size (cc0_transform_1 i) (hinb0_1 i)).WholeWords (EltTy.packing .f32)
  hrank1 : 0 < grid1.rank
  k1_off1_inb : ∀ i : grid1.Coords, ∀ a, (k1_off1 i) a + S1.size a ≤ S16.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x16x16x128.size a ≤ S16x16x16x128.size a
  hwx1_0 : ∀ i : grid1.Coords, EltTy.bits .f32 = 32 ∨ (Rect.block (s := S16x16x16x128) S1x16x16x128.size (cc1_transform_0 i) (hinb1_0 i)).WholeWords (EltTy.packing .f32)

variable [Facts₀]

abbrev cc1_scratch0 : DmaSems sig S_ := SemArray.consecutive 6 S_ hcc1_scratch0

abbrev win0_0 : Pipeline.Window sig grid0 :=
  Pipeline.Window.ofSpec (Memref.whole main_arg3) S1x16x512x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v5) S1x512x16x128.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev spec1_0 : Pipeline.WinSpec sig grid1.rank :=
  Pipeline.WinSpec.ofSpec (Memref.whole main_call0_v4) S1x16x16x128.size reads1_0 false false 2 stage1_0 sem1_0 nbuf1_0 hstage1_0

abbrev spec1 : Fin 1 → Pipeline.WinSpec sig grid1.rank := fun | 0 => spec1_0 | ⟨_ + 1, h⟩ => absurd h (Nat.not_lt.2 (Nat.le_add_left _ _))
theorem hcount1 : ∀ w, grid1.bufCount (spec1 w).reads (spec1 w).sync = (spec1 w).nbuf := fun | 0 => nbuf1_0 | ⟨_ + 1, h⟩ => absurd h (Nat.not_lt.2 (Nat.le_add_left _ _))
abbrev ix1 (pf : pre1.Contents (Elt F)) : (w : Fin 1) → grid1.Coords → Fin (spec1 w).shape.rank → Nat := fun | 0 => cc1_transform_0 | ⟨_ + 1, h⟩ => absurd h (Nat.not_lt.2 (Nat.le_add_left _ _))
theorem hreads1 : ∀ (pf : pre1.Contents (Elt F)) w (i i' : grid1.Coords), (∀ a, (spec1 w).reads a = true → i a = i' a) → ix1 pf w i = ix1 pf w i' := fun pf => fun | 0 => hreads1_0 | ⟨_ + 1, h⟩ => absurd h (Nat.not_lt.2 (Nat.le_add_left _ _))
def ok1 (_ : pre1.Contents (Elt F)) : Prop :=
  True
instance (pf : pre1.Contents (Elt F)) : Decidable (ok1 pf) := decidable_of_iff' _ (Iff.of_eq (ok1.eq_1 pf))
theorem hinb1 : ∀ (pf : pre1.Contents (Elt F)), ok1 pf → ∀ w (i : grid1.Coords) a, (ix1 pf w i a + 1) * (spec1 w).size a ≤ (spec1 w).shape.size a :=
  fun _ _ => fun | 0 => hinb1_0 | ⟨_ + 1, h⟩ => absurd h (Nat.not_lt.2 (Nat.le_add_left _ _))
theorem hwx1 : ∀ (pf : pre1.Contents (Elt F)) (hok : ok1 pf) w (i : grid1.Coords), (spec1 w).elt.bits = 32 ∨ (Rect.block (spec1 w).size (ix1 pf w i) (hinb1 pf hok w i)).WholeWords (spec1 w).elt.packing :=
  fun _ _ => fun | 0 => hwx1_0 | ⟨_ + 1, h⟩ => absurd h (Nat.not_lt.2 (Nat.le_add_left _ _))

class Facts : Prop extends Facts₀ where
  harr1 : ∀ w, (spec1 w).arr.IsWhole

variable [Facts]
-- ==== ReferenceIdeal.lean ====
abbrev S16x1 : Shape := ⟨2, ![16, 1]⟩
abbrev S16x16x16x128 : Shape := ⟨4, ![16, 16, 16, 128]⟩
abbrev S16x16x8192x128 : Shape := ⟨4, ![16, 16, 8192, 128]⟩
abbrev S16 : Shape := ⟨1, ![16]⟩
abbrev S1x16 : Shape := ⟨2, ![1, 16]⟩
abbrev S16x16 : Shape := ⟨2, ![16, 16]⟩
abbrev S16x8192x16x128 : Shape := ⟨4, ![16, 8192, 16, 128]⟩
abbrev S_ : Shape := ⟨0, ![]⟩
abbrev S16x16x1 : Shape := ⟨3, ![16, 16, 1]⟩
abbrev S16x16x2 : Shape := ⟨3, ![16, 16, 2]⟩

abbrev nBuf : Space → Nat
  | .hbm => 30
  | .vmem => 0
  | .smem => 0
  | _ => 0

abbrev bufTy : (tb : Table) → Fin (tcTables nBuf tb) → BufTy
  | .hbm, ⟨0, _⟩ => ⟨S16x1, .i32⟩
  | .hbm, ⟨1, _⟩ => ⟨S16x1, .i32⟩
  | .hbm, ⟨2, _⟩ => ⟨S16x16x16x128, .f32⟩
  | .hbm, ⟨3, _⟩ => ⟨S16x16x8192x128, .f32⟩
  | .hbm, ⟨4, _⟩ => ⟨S16, .i32⟩
  | .hbm, ⟨5, _⟩ => ⟨S1x16, .i32⟩
  | .hbm, ⟨6, _⟩ => ⟨S16x16, .i32⟩
  | .hbm, ⟨7, _⟩ => ⟨S16x16, .i32⟩
  | .hbm, ⟨8, _⟩ => ⟨S16x16, .i32⟩
  | .hbm, ⟨9, _⟩ => ⟨S16x8192x16x128, .f32⟩
  | .hbm, ⟨10, _⟩ => ⟨S16x16x16x128, .f32⟩
  | .hbm, ⟨11, _⟩ => ⟨S_, .i32⟩
  | .hbm, ⟨12, _⟩ => ⟨S16x1, .i32⟩
  | .hbm, ⟨13, _⟩ => ⟨S16x1, .i1⟩
  | .hbm, ⟨14, _⟩ => ⟨S_, .i32⟩
  | .hbm, ⟨15, _⟩ => ⟨S16x1, .i32⟩
  | .hbm, ⟨16, _⟩ => ⟨S16x1, .i32⟩
  | .hbm, ⟨17, _⟩ => ⟨S16x1, .i32⟩
  | .hbm, ⟨18, _⟩ => ⟨S_, .i32⟩
  | .hbm, ⟨19, _⟩ => ⟨S16x16, .i32⟩
  | .hbm, ⟨20, _⟩ => ⟨S16x16, .i1⟩
  | .hbm, ⟨21, _⟩ => ⟨S_, .i32⟩
  | .hbm, ⟨22, _⟩ => ⟨S16x16, .i32⟩
  | .hbm, ⟨23, _⟩ => ⟨S16x16, .i32⟩
  | .hbm, ⟨24, _⟩ => ⟨S16x16, .i32⟩
  | .hbm, ⟨25, _⟩ => ⟨S16x16, .i32⟩
  | .hbm, ⟨26, _⟩ => ⟨S16x16x1, .i32⟩
  | .hbm, ⟨27, _⟩ => ⟨S16x16x1, .i32⟩
  | .hbm, ⟨28, _⟩ => ⟨S16x16x2, .i32⟩
  | .hbm, ⟨29, _⟩ => ⟨S16x8192x16x128, .f32⟩
  | _, _ => ⟨S16x1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c : Ref sig .tc := ⟨.hbm, 11, rfl⟩
abbrev main_v7 : Ref sig .tc := ⟨.hbm, 12, rfl⟩
abbrev main_v8 : Ref sig .tc := ⟨.hbm, 13, rfl⟩
abbrev main_c_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_c_1 : Ref sig .tc := ⟨.hbm, 18, rfl⟩
abbrev main_v12 : Ref sig .tc := ⟨.hbm, 19, rfl⟩
abbrev main_v13 : Ref sig .tc := ⟨.hbm, 20, rfl⟩
abbrev main_c_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩

abbrev nD : Nat := 1
abbrev τ : Topo := Topo.v7x

variable {F : FTy → Type} [FloatOps F]

class Facts₀ : Prop where
  bcast_S16_S1x16_1 : S16.BroadcastsInDim S1x16 (![1] : Fin 1 → Fin S1x16.rank)
  bcast_S1x16_S16x16_0_1 : S1x16.BroadcastsInDim S16x16 (![0, 1] : Fin 2 → Fin S16x16.rank)
  bcast_S16x1_S16x16_0_1 : S16x1.BroadcastsInDim S16x16 (![0, 1] : Fin 2 → Fin S16x16.rank)
  transposes_S16x16x8192x128_S16x8192x16x128_0_2_1_3 : S16x16x8192x128.Transposes [0, 2, 1, 3] S16x8192x16x128
  transposes_S16x16x16x128_S16x16x16x128_0_2_1_3 : S16x16x16x128.Transposes [0, 2, 1, 3] S16x16x16x128
  bcast_S_S16x1 : S_.BroadcastsInDim S16x1 (![] : Fin 0 → Fin S16x1.rank)
  bcast_S_S16x16 : S_.BroadcastsInDim S16x16 (![] : Fin 0 → Fin S16x16.rank)
  bcast_S16x16_S16x16x1_0_1 : S16x16.BroadcastsInDim S16x16x1 (![0, 1] : Fin 2 → Fin S16x16x1.rank)
  concatenates_S16x16x1_S16x16x1_S16x16x2_d2 : Shape.Concatenates [S16x16x1, S16x16x1] S16x16x2 2
  scatter_S16x8192x16x128_S16x16x2_S16x16x16x128_23_01_01_2_wf : ScatterDims.WF S16x8192x16x128 S16x16x2 S16x16x16x128 [2, 3] [0, 1] [0, 1] 2

variable [Facts₀]

def scatter_S16x8192x16x128_S16x16x2_S16x16x16x128_23_01_01_2 : ScatterDims S16x8192x16x128 S16x16x2 S16x16x16x128 where
  updateWindowDims := [2, 3]
  insertedWindowDims := [0, 1]
  scatterDimsToOperandDims := [0, 1]
  indexVectorDim := 2
  wf := scatter_S16x8192x16x128_S16x16x2_S16x16x16x128_23_01_01_2_wf

class Facts : Prop extends Facts₀ where

variable [Facts]
-- ==== Proof.Spec.lean ====
/-
  The common specification of the two programs' results.

  The result array, of shape (16, 8192, 16, 128), starts as the head/sequence transpose of `past`
  (shape (16, 16, 8192, 128)) and then takes sixteen writes, in the order b = 0, …, 15: write `b` puts the
  sixteen rows of the transposed new keys of batch entry `b` at rows `cache b … cache b + 15` of batch row
  `batch b`.  A later write overwrites an earlier one where they overlap.  `G cache batch key past n` is the
  array after the first `n` writes; the result is `G … 16`.
-/
import Idealize.ShloMosaic.Lib.ValueIdx

namespace Cert.Spec

open Idealize.ShloMosaic Idealize.ShloMosaic.ValueIdx

/-- The result's shape, `past`'s and `key`'s. -/
abbrev SOut : Shape := ⟨4, ![16, 8192, 16, 128]⟩
abbrev SPast : Shape := ⟨4, ![16, 16, 8192, 128]⟩
abbrev SKey : Shape := ⟨4, ![16, 16, 16, 128]⟩

/-- Result index `i = (B, S, h, d)` is touched by write `b`: it lies in batch row `batch b`, at one of the
    sixteen sequence positions from `cache b` on. -/
def Hit (cache batch : Fin 16 → Nat) (b : Fin 16) (i : SOut.Idx) : Prop :=
  (i 0).val = batch b ∧ cache b ≤ (i 1).val ∧ (i 1).val < cache b + 16

instance (cache batch : Fin 16 → Nat) (b : Fin 16) (i : SOut.Idx) : Decidable (Hit cache batch b i) := by
  unfold Hit; infer_instance

/-- Where result index `(B, S, h, d)` reads `past`: `(B, h, S, d)`. -/
def pastIdx (i : SOut.Idx) : SPast.Idx := ix4 (i 0) (i 2) (i 1) (i 3)

/-- Where a result index `(B, S, h, d)` touched by write `b` reads `key`: `(b, h, S - cache b, d)`. -/
def keyIdx (cache : Fin 16 → Nat) (b : Fin 16) (i : SOut.Idx) : SKey.Idx :=
  ix4 b (i 2) ⟨((i 1).val - cache b) % 16, Nat.mod_lt _ (by decide)⟩ (i 3)

/-- The array after the first `n` writes. -/
def G {α : Type} (cache batch : Fin 16 → Nat) (key : SKey.Idx → α) (past : SPast.Idx → α) : Nat → SOut.Idx → α
  | 0, i => past (pastIdx i)
  | n + 1, i =>
    if h : n < 16 then
      if Hit cache batch ⟨n, h⟩ i then key (keyIdx cache ⟨n, h⟩ i) else G cache batch key past n i
    else G cache batch key past n i

theorem G_zero {α : Type} (cache batch : Fin 16 → Nat) (key : SKey.Idx → α) (past : SPast.Idx → α) (i : SOut.Idx) :
    G cache batch key past 0 i = past (pastIdx i) := rfl

theorem G_succ {α : Type} (cache batch : Fin 16 → Nat) (key : SKey.Idx → α) (past : SPast.Idx → α) (n : Nat) (h : n < 16)
    (i : SOut.Idx) :
    G cache batch key past (n + 1) i
      = if Hit cache batch ⟨n, h⟩ i then key (keyIdx cache ⟨n, h⟩ i) else G cache batch key past n i := by
  show (if h : n < 16 then _ else _) = _
  rw [dif_pos h]

/-- The writes depend on the tables only through their values. -/
theorem G_congr {α : Type} {cache cache' batch batch' : Fin 16 → Nat} (hc : ∀ b, cache b = cache' b) (hb : ∀ b, batch b = batch' b)
    (key : SKey.Idx → α) (past : SPast.Idx → α) (n : Nat) :
    G cache batch key past n = G cache' batch' key past n := by
  have e1 : cache = cache' := funext hc
  have e2 : batch = batch' := funext hb
  rw [e1, e2]

end Cert.Spec
-- ==== Proof.K_R0.lean ====
/-
  The first kernel region: a (16, 16)-point pipeline whose body reads one (1, 16, 512, 128) block of `past`
  and writes its head/sequence transpose as one (1, 512, 16, 128) block of the intermediate array.
  Stated at a parameter `V`, the buffers' contents when the region is entered.
-/
import proofs.«430957_j66529043415042_3_alg».proof.Proof.Gen.Kernel.Launch
import proofs.«430957_j66529043415042_3_alg».proof.Proof.Gen.Kernel.Skeleton
import proofs.«430957_j66529043415042_3_alg».proof.Proof.Gen.Kernel.Points
import proofs.«430957_j66529043415042_3_alg».proof.Proof.Spec
import Idealize.ShloMosaic.Lib.Pipeline.FrameBody
import Idealize.ShloMosaic.Lib.Pipeline.Frame
import Idealize.ShloMosaic.Lib.Pipeline.Value
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The rectangles the body's accesses go through: each whole block. -/
abbrev rIn0 : Rect S1x16x512x128 := Rect.unit (s := S1x16x512x128) ![0, 0, 0, 0] S1x16x512x128.size inb_S1x16x512x128_S1x16x512x128_0_0_0_0
abbrev rOut0 : Rect S1x512x16x128 := Rect.unit (s := S1x512x16x128) ![0, 0, 0, 0] S1x512x16x128.size inb_S1x512x16x128_S1x512x16x128_0_0_0_0

/-- What the body leaves in the output block's buffer: its one store, the transpose of the input block. -/
def out0_1 (x0 : Vec F S1x16x512x128 .f32) : Vec F S1x512x16x128 .f32 :=
  View.canon [⟨rOut0, k0_pay1 (View.ld x0 rIn0)⟩]

/-- The body's one store is of the whole output block, so every index of the block lies under it. -/
theorem cover0_1 (p0 : Vec F S1x512x16x128 .f32) (y : S1x512x16x128.Idx) :
    ∃ pc ∈ ([⟨rOut0, p0⟩] : List (View.Piece (Elt F) S1x512x16x128 .f32)), y ∈ pc.1.set :=
  View.cover_of_tiled [⟨rOut0, p0⟩] S1x512x16x128.size (by rfl) y

/-- The body on whole staging memrefs: the input's at `x0`, the output's at anything; it ends with the input's
    as it was and the output's at `out0_1 x0`. -/
theorem sound_kernel0 (c : Dev nD) (E : Set ℕ) (i : grid0.Coords) (arg2 : Memref sig .tc .vmem S1x16x512x128 .f32) (harg2 : arg2.IsWhole)
    (arg3 : Memref sig .tc .vmem S1x512x16x128 .f32) (harg3 : arg3.IsWhole) (x0 : Vec F S1x16x512x128 .f32) (K : PUnit → sProp 𝕄) :
    iprop(owns (c : Thread nD τ) arg2 fullShare x0 ∗ (∃ d, owns (c : Thread nD τ) arg3 fullShare d)
        ∗ (iprop(owns (c : Thread nD τ) arg2 fullShare x0 ∗ owns (c : Thread nD τ) arg3 fullShare (out0_1 x0)) -∗ K ⟨⟩))
      ⊢ wp frame (wpE (defs₀ (F := F)) Variants.none c none) E (cc0__transpose_copy_kernel i arg2 harg2 arg3 harg3) K := by
  simp only [cc0__transpose_copy_kernel_eq_skeleton]; unfold cc0__transpose_copy_kernel_skel
  unfold owns
  iintro ⟨⟨%f0, %hf0, H0⟩, ⟨%d1, %f1, %hf1, H1⟩, Hk⟩
  subst hf0
  subst hf1
  -- the two loads read the input block and the output block's old contents; the store overwrites the latter whole
  sl_exec
  sl_step
  iapply Hk
  isplitl [H0]
  · iexists f0; isplitr; · ipureintro; rfl
    iexact H0
  iexists _; isplitr
  swap; · iexact H1
  ipureintro
  exact View.read_writes_eq_canon _ _ _ (cover0_1 _)

/-- The proof data of the first pipeline on core `c`: the arrays as the region finds them; after the body the
    input's buffer at its block and the output's at the transposed block; the scoped rest and the generator
    register untouched; nothing owed; full shares. -/
def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => out0_1 (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]

/-- The input window is fetched at every point, so its staging buffer holds the point's block of the input array
    when the body is called. -/
theorem before0_0 (c : Dev nD) (t : Fin cfg0.N) (d) : (dat0 V c).before 0 t d = iblk0 V c 0 t := by
  rw [Dat.before_fetched (dat0 V c) 0 t (fetch0_0 t)]
  unfold Dat.fetched Dat.blockOf iblk0
  rw [A_eq0]
  -- the window's blocks are never clipped, so the fetch fills the whole buffer
  rfl

/-- What the body is called with at point `t`: the invariant, the core's debts, and both staging buffers, the
    input's at the point's block, the output's at whatever it held. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- What it returns: the same invariant and debts, the input's buffer unchanged, the output's at the transposed block. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

/-- The body at any point: the input's buffer holds its block, so the body's triple applies; the invariant and
    the debts are not read and pass through. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ (grid0.coords t) _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The body obligation of the first pipeline, at every point. -/
theorem body_obligation0 (c : Dev nD) : BodyObligation (dat0 (F := F) V c) (defs₀ (F := F)) Variants.none () Set.univ := fun t => by
  rw [bigSep_W0, bigSep_W0]
  exact sound_body0 V c t

/-- The input array is left as the region found it. -/
theorem arrAt0_in (c : Dev nD) : (dat0 V c).arrAt 0 cfg0.N = V c (Pipeline.arrRef spec0 0) := by
  rw [(dat0 V c).arrAt_in 0 rfl _]
  exact A_eq0 V c 0

/-! ## From the blocks to the array -/

open Idealize.ShloMosaic.ValueIdx in
/-- The transposed block at `(a, s, h, d)` is the input block at `(a, h, s, d)`: the permutation swaps the two
    middle axes. -/
theorem transposed_block_apply (x : Vec F S1x16x512x128 .f32) (a : Fin 1) (s : Fin 512) (h : Fin 16) (d : Fin 128) :
    k0_pay1 x (ix4 a s h d) = x (ix4 a h s d) := by
  unfold k0_pay1
  exact transpose_apply _ _ _ _ _ (fun b => match b with
    | ⟨0, _⟩ => rfl | ⟨1, _⟩ => rfl | ⟨2, _⟩ => rfl | ⟨3, _⟩ => rfl)

theorem zero_off4 : (![0, 0, 0, 0] : Fin 4 → Nat) = fun _ => 0 := funext fun a => by fin_cases a <;> rfl

/-- The whole output array as one function of the input array: index `(B, S, h, d)` reads `(B, h, S, d)`. -/
abbrev transposedPast (c : Dev nD) : S16x8192x16x128.Idx → Elt F .f32 :=
  fun i => (V c main_arg3 : S16x16x8192x128.Idx → Elt F .f32) (Cert.Spec.pastIdx i)

/-- The two windows' block indices over the grid: point `(b, s)` reads input block `(b, 0, s, 0)` and writes
    output block `(b, s, 0, 0)`, both indices below sixteen. -/
theorem index_facts : ∀ t : Fin cfg0.N,
    win0_0.index t (0 : Fin 4) = win0_1.index t (0 : Fin 4) ∧ win0_0.index t (1 : Fin 4) = 0
    ∧ win0_0.index t (2 : Fin 4) = win0_1.index t (1 : Fin 4) ∧ win0_0.index t (3 : Fin 4) = 0
    ∧ win0_1.index t (2 : Fin 4) = 0 ∧ win0_1.index t (3 : Fin 4) = 0
    ∧ win0_1.index t (0 : Fin 4) ≤ 15 ∧ win0_1.index t (1 : Fin 4) ≤ 15 :=
  (by decide +kernel : ∀ t : Fin grid0.N, _)

/-- Every output block `(q0, q1, 0, 0)` is some point's. -/
theorem index_onto : ∀ (q0 q1 : Fin 16), ∃ t : Fin cfg0.N, win0_1.index t = ![q0.val, q1.val, 0, 0] :=
  (by decide +kernel : ∀ (q0 q1 : Fin 16), ∃ t : Fin grid0.N, win0_1.index t = ![q0.val, q1.val, 0, 0])

open Idealize.ShloMosaic.ValueIdx in
/-- What point `t` writes back is its block of the transposed input array: rows `512 s … 512 s + 511` of batch
    `b`, each read at the input's swapped index. -/
theorem flushed_eq (c : Dev nD) (t : Fin cfg0.N) :
    (dat0 V c).flushed 1 t = ((cfg0.win 1).blk t).view.read (Elt F) (transposedPast V c) := by
  show (cfg0.win 1).cut (grid0.coords t) ((dat0 V c).after 1 t) = _
  rw [after0_1]
  unfold out0_1
  rw [View.canon_unit_zero zero_off4]
  simp only [View.ld_unit_zero (S := S1x16x512x128) zero_off4]
  obtain ⟨e0, e1, e2, e3, e4, e5, -, -⟩ := index_facts t
  funext j
  obtain ⟨a, s, h, d, rfl⟩ : ∃ (a : Fin 1) (s : Fin 512) (h : Fin 16) (d : Fin 128), j = ix4 a s h d :=
    ⟨j 0, j 1, j 2, j 3, eq_ix4 j⟩
  refine (transposed_block_apply (iblk0 V c 0 t) a s h d).trans ?_
  show V c main_arg3 (((cfg0.win 0).blk t).view.emb (ix4 a h s d))
      = V c main_arg3 (Cert.Spec.pastIdx (((cfg0.win 1).blk t).view.emb (ix4 a s h d)))
  refine congrArg _ (funext fun b => Fin.ext ?_)
  have ha : a.val = 0 := by omega
  match b with
  | ⟨0, _⟩ => show win0_0.index t (0 : Fin 4) * 1 + 1 * a.val = win0_1.index t (0 : Fin 4) * 1 + 1 * a.val; omega
  | ⟨1, _⟩ => show win0_0.index t (1 : Fin 4) * 16 + 1 * h.val = win0_1.index t (2 : Fin 4) * 16 + 1 * h.val; omega
  | ⟨2, _⟩ => show win0_0.index t (2 : Fin 4) * 512 + 1 * s.val = win0_1.index t (1 : Fin 4) * 512 + 1 * s.val; omega
  | ⟨3, _⟩ => show win0_0.index t (3 : Fin 4) * 128 + 1 * d.val = win0_1.index t (3 : Fin 4) * 128 + 1 * d.val; omega

/-- An index of the output array lies in point `t`'s block iff each coordinate is in the block's range. -/
theorem mem_blk (t : Fin cfg0.N) (i : S16x8192x16x128.Idx) :
    i ∈ ((cfg0.win 1).blk t).view.set ↔ ∀ a : Fin 4, win0_1.index t a * S1x512x16x128.size a ≤ (i a).val
      ∧ (i a).val < win0_1.index t a * S1x512x16x128.size a + S1x512x16x128.size a := by
  show i ∈ ((View.whole main_call0_v5).slice (win0_1.rect t)).set ↔ _
  rw [View.set_slice_whole, Rect.mem_set_unit]
  exact Iff.rfl

/-- The output's blocks fill its array: index `(B, S, h, d)` lies in the block of the point with block index
    `(B, S / 512, 0, 0)`. -/
theorem blocks_cover (i : S16x8192x16x128.Idx) :
    ∃ t : Fin cfg0.N, (cfg0.win 1).flush t = true ∧ i ∈ ((cfg0.win 1).blk t).view.set := by
  have hi0 : (i 0).val < 16 := (i 0).isLt
  have hi1 : (i 1).val < 8192 := (i 1).isLt
  have hi2 : (i 2).val < 16 := (i 2).isLt
  have hi3 : (i 3).val < 128 := (i 3).isLt
  obtain ⟨t, ht⟩ := index_onto ⟨(i 0).val, hi0⟩ ⟨(i 1).val / 512, by omega⟩
  have q0 : win0_1.index t (0 : Fin 4) = (i 0).val := congrFun ht 0
  have q1 : win0_1.index t (1 : Fin 4) = (i 1).val / 512 := congrFun ht 1
  have q2 : win0_1.index t (2 : Fin 4) = 0 := congrFun ht 2
  have q3 : win0_1.index t (3 : Fin 4) = 0 := congrFun ht 3
  refine ⟨t, flush0_1 t, ?_⟩
  rw [mem_blk]
  intro a
  match a with
  | ⟨0, _⟩ => show win0_1.index t (0 : Fin 4) * 1 ≤ (i 0).val ∧ (i 0).val < win0_1.index t (0 : Fin 4) * 1 + 1; omega
  | ⟨1, _⟩ => show win0_1.index t (1 : Fin 4) * 512 ≤ (i 1).val ∧ (i 1).val < win0_1.index t (1 : Fin 4) * 512 + 512; omega
  | ⟨2, _⟩ => show win0_1.index t (2 : Fin 4) * 16 ≤ (i 2).val ∧ (i 2).val < win0_1.index t (2 : Fin 4) * 16 + 16; omega
  | ⟨3, _⟩ => show win0_1.index t (3 : Fin 4) * 128 ≤ (i 3).val ∧ (i 3).val < win0_1.index t (3 : Fin 4) * 128 + 128; omega

/-- So after the last point the output array is the transposed input array. -/
theorem out_array_eq (c : Dev nD) : (dat0 V c).arrAt 1 cfg0.N = transposedPast V c :=
  (dat0 V c).arrAt_eq_of_cover 1 (transposedPast V c) (fun t _ => flushed_eq V c t) blocks_cover

/-- After the region the output array is the transpose of the input array: result index `(B, S, h, d)` holds
    the input's element `(B, h, S, d)`. -/
theorem arrAt0_out (c : Dev nD) (i : S16x8192x16x128.Idx) :
    ((dat0 V c).arrAt 1 cfg0.N : S16x8192x16x128.Idx → Elt F .f32) i
      = (V c main_arg3 : S16x16x8192x128.Idx → Elt F .f32) (Cert.Spec.pastIdx i) := by
  exact congrFun (out_array_eq V c) i

end Cert.Kernel.Hand

end
-- ==== Proof.K_R1.lean ====
/-
  The second kernel region: a sixteen-point pipeline whose body, at point `b`, reads two words from the index
  tables — the cache position and the batch row of batch entry `b` — and copies the staged (1, 16, 16, 128) block
  of transposed new keys into the result array's window of sixteen sequence rows starting at that position in that
  batch row, waiting for the copy before it returns.  Nothing is in flight between points, so the invariant between
  points is the result array whole at the contents the points so far have left, beside the tables and the copy's
  semaphore at zero.  Stated at a parameter `V` (the buffers' contents when the region is entered) and at the
  tables' contents `a1`, under the hypothesis that the tables' words name windows inside the array.
-/
import proofs.«430957_j66529043415042_3_alg».proof.Proof.Gen.Kernel.Launch
import proofs.«430957_j66529043415042_3_alg».proof.Proof.Gen.Kernel.Skeleton
import proofs.«430957_j66529043415042_3_alg».proof.Proof.Gen.Kernel.Points
import Idealize.ShloMosaic.Lib.Pipeline.FrameBody
import Idealize.ShloMosaic.Lib.Pipeline.Frame
import Idealize.ShloMosaic.Lib.Transfers
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- Memref `M`'s buffer on core `c`: its contents type, and it held whole at `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

/-- The two index tables (cache positions, batch rows) and the result array, as the body is handed them. -/
abbrev tbM0 : Memref sig .tc .smem S16 .i32 := Memref.whole main_call0_v1
abbrev tbM1 : Memref sig .tc .smem S16 .i32 := Memref.whole main_call0_v3
abbrev outM : Memref sig .tc .hbm S16x8192x16x128 .f32 := Memref.whole main_v0

/-- The word a table holds at the grid point's row. -/
abbrev wordAt (i : grid1.Coords) {c : Dev nD} (M : Memref sig .tc .smem S16 .i32) (t : Bf (F := F) c M) : Elt F .i32 :=
  M.view.readAt (Elt F) (Rect.unit (s := S16) (k1_off1 i) S1.size (k1_off1_inb i)).toLoadRect t (Shape.Idx.first (numel1_S1.symm ▸ Nat.one_pos))

/-- The window of the result array the body writes: sixteen sequence rows from `w0` on, in batch row `w1`. -/
abbrev dstM (w0 w1 : BitVec 32) (h : k1_chk1 w0 w1) : Memref sig .tc .hbm S1x16x16x128 .f32 :=
  outM.slice (Rect.unit (s := S16x8192x16x128) (k1_off2 w0 w1) S1x16x16x128.size (k1_off2_inb w0 w1 h)) (fun _ => rfl)

/-- The result array after one grid point: the block written into that window. -/
def step1 {c : Dev nD} (w0 w1 : BitVec 32) (h : k1_chk1 w0 w1) (fv : Bf (F := F) c outM) (x : Vec F S1x16x16x128 .f32) : Bf (F := F) c outM :=
  (dstM w0 w1 h).view.write (Elt F) fv x Finset.univ

set_option maxHeartbeats 1000000 in
/-- The body at one grid point: from the staged key block at `x0`, the tables at `t0`, `t1` (whose words at the
    point satisfy the window's in-range condition), the result array whole at `fv`, the copy's semaphore at zero: it
    ends with the block copied into the window the tables' words name, everything else as it was. -/
theorem kernelRun1 (c : Dev nD) (i : grid1.Coords) (arg3 : Memref sig .tc .vmem S1x16x16x128 .f32) (harg3 : arg3.IsWhole)
    (x0 : Vec F S1x16x16x128 .f32) (t0 : Bf (F := F) c tbM0) (t1 : Bf (F := F) c tbM1) (fv : Bf (F := F) c outM)
    (hchk : k1_chk1 (wordAt i tbM0 t0) (wordAt i tbM1 t1)) (W : Waits sig Unit) (K : PUnit → sProp 𝕄) :
    iprop(owns (c : Thread nD τ) arg3 fullShare x0 ∗ pt c tbM0 t0 ∗ pt c tbM1 t1 ∗ pt c outM fv
        ∗ semVal ((c : Thread nD τ), SemLoc.dma (6 : DmaSem sig)) 0 ∗ owes (c : Thread nD τ) 0 W
        ∗ (iprop(owns (c : Thread nD τ) arg3 fullShare x0 ∗ pt c tbM0 t0 ∗ pt c tbM1 t1
            ∗ pt c outM (step1 (wordAt i tbM0 t0) (wordAt i tbM1 t1) hchk fv x0)
            ∗ semVal ((c : Thread nD τ), SemLoc.dma (6 : DmaSem sig)) 0 ∗ (∃ W', owes (c : Thread nD τ) 0 W')) -∗ K ⟨⟩))
      ⊢ wp frame (wpE (defs₀ (F := F)) Variants.none c none) Set.univ
          (cc1_kernel i tbM0 (Memref.isWhole_whole _) tbM1 (Memref.isWhole_whole _) arg3 harg3 outM (Memref.isWhole_whole _) outM (Memref.isWhole_whole _) cc1_scratch0) K := by
  simp only [cc1_kernel_eq_skeleton]; unfold cc1_kernel_skel
  unfold owns
  iintro ⟨⟨%f0, %hf0, H0⟩, HT0, HT1, Hv, Hs, HO, Hk⟩
  subst hf0
  sl_exec (disch := sl_exact hchk)
  sl_step
  iapply Hk
  isplitl [H0]; · iexists f0; isplitr; (· ipureintro; rfl); iexact H0
  isplitl [HT0]; · iexact HT0
  isplitl [HT1]; · iexact HT1
  isplitl [Hv]; · iexact Hv
  isplitl [Hs]; · iexact Hs
  iexists _; iexact HO

/-! ## The second region's proof data, at a parameter `V` (the buffers' contents when the region is entered) and
    at the tables' contents `a1` -/

section Region1

variable (V : (c : Dev nD) → (b : Ref sig .tc) → Buf (Elt F) ((c : Thread nD τ).loc b))
variable (a1 : (pcfg1 (F := F)).Adm)

/-- The tables' contents, as the body's memrefs hold them. -/
abbrev tb0 (c : Dev nD) : Bf (F := F) c tbM0 := a1.1 0
abbrev tb1 (c : Dev nD) : Bf (F := F) c tbM1 := a1.1 1

/-- The tables' words name a window inside the result array, at every grid point. -/
def TblOk : Prop := ∀ (c : Dev nD) (i : grid1.Coords), k1_chk1 (wordAt i tbM0 (tb0 a1 c)) (wordAt i tbM1 (tb1 a1 c))

/-- The staged key block at point `t`, read off the staged keys' array as the region finds it. -/
def iblk1 (c : Dev nD) (w : Fin (cfg1 a1).W) (t : Fin (cfg1 a1).N) : (((cfg1 a1).win w).xblock ((cfg1 a1).grid.coords t)).Idx → Elt F ((cfg1 a1).win w).elt :=
  (((cfg1 a1).win w).blk t).view.read (Elt F) (V c (Pipeline.arrRef spec1 w))

variable (hT : TblOk a1)

/-- The result array after the first `n` grid points: point `n` writes its key block into the window its
    tables' words name, over what the points before left. -/
def acc (c : Dev nD) : Nat → Bf (F := F) c outM
  | 0 => V c main_v0
  | n + 1 =>
    if h : n < (cfg1 a1).N then
      step1 (wordAt (grid1.coords ⟨n, h⟩) tbM0 (tb0 a1 c)) (wordAt (grid1.coords ⟨n, h⟩) tbM1 (tb1 a1 c)) (hT c _) (acc c n) (iblk1 V a1 c 0 ⟨n, h⟩)
    else acc c n

theorem acc_succ (c : Dev nD) (t : Fin (cfg1 a1).N) :
    acc V a1 hT c (t.val + 1)
      = step1 (wordAt (grid1.coords t) tbM0 (tb0 a1 c)) (wordAt (grid1.coords t) tbM1 (tb1 a1 c)) (hT c _) (acc V a1 hT c t.val) (iblk1 V a1 c 0 t) := by
  show (if h : t.val < (cfg1 a1).N then _ else _) = _
  rw [dif_pos t.isLt]

/-- The kernel's own semaphore: the one its copy completes on. -/
abbrev osem1 : Fin 1 → SemLoc sig := fun j => (![SemLoc.dma 6] : Fin 1 → SemLoc sig) j
theorem ownSemFacts1 : Pipeline.OwnSemFacts spec1 osem1 := by decide
theorem ownSems01_eq (c : Dev nD) :
    (Pipeline.ownSems0 (Ix := Unit) (Name := ℕ) (U := Pipeline.UD sig nD τ) (Lvl := ℕ) (Val := Elt F) (τ := τ) osem1 c : sProp 𝕄)
      = iprop(semVal ((c : Thread nD τ), SemLoc.dma 6) 0) := by
  rw [Pipeline.ownSems0_eq_of_list c osem1 [0] (by decide) (by decide)]; rfl

/-- The tables held whole, table by table. -/
theorem prefHeld1_eq (c : Dev nD) :
    (Pipeline.prefHeld (Ix := Unit) (Name := ℕ) (U := Pipeline.UD sig nD τ) (Lvl := ℕ) pre1 c (fun _ => fullShare) a1.1 : sProp 𝕄)
      = iprop(pt c tbM0 (tb0 a1 c) ∗ pt c tbM1 (tb1 a1 c)) := by
  unfold Pipeline.prefHeld
  rw [show (Finset.univ : Finset (Fin 2)) = insert (0 : Fin 2) {(1 : Fin 2)} from by decide,
    bigSep_insert (by decide), bigSep_singleton]
  rfl

/-- The invariant between grid points: the tables, the result array at what the points so far left, the copy's
    semaphore at zero, the scoped buffers of the other region untouched. -/
def Φ1 (c : Dev nD) (n : Nat) : sProp 𝕄 :=
  iprop(pt c tbM0 (tb0 a1 c) ∗ pt c tbM1 (tb1 a1 c) ∗ pt c outM (acc V a1 hT c n)
    ∗ semVal ((c : Thread nD τ), SemLoc.dma (6 : DmaSem sig)) 0
    ∗ Pipeline.scopedRest (Ix := Unit) (Name := ℕ) (U := Pipeline.UD sig nD τ) (Lvl := ℕ) (Val := Elt F) spec1 c)

/-- The proof data of the second pipeline on core `c`. -/
def dat1 (c : Dev nD) : Dat τ (Elt F) Unit ℕ (Pipeline.UD sig nD τ) ℕ (cfg1 a1) c where
  A w := V c (Pipeline.arrRef spec1 w)
  after w t := match w with
    | ⟨0, _⟩ => iblk1 V a1 c 0 t
  Φ t := Φ1 V a1 hT c t.val
  q _ := fullShare
  owed _ := 0

theorem A_eq1 (c : Dev nD) (w : Fin (cfg1 a1).W) : (dat1 V a1 hT c).A w = V c (Pipeline.arrRef spec1 w) := by
  dsimp only [dat1]
theorem after1_0 (c : Dev nD) (t : Fin (cfg1 a1).N) : (dat1 V a1 hT c).after 0 t = iblk1 V a1 c 0 t := rfl

/-- The staged keys' buffer holds the point's block when the body runs. -/
theorem before1_0 (c : Dev nD) (t : Fin (cfg1 a1).N) (d) : (dat1 V a1 hT c).before 0 t d = iblk1 V a1 c 0 t :=
  ((dat1 V a1 hT c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)

end Region1

section Region1b

variable (V : (c : Dev nD) → (b : Ref sig .tc) → Buf (Elt F) ((c : Thread nD τ).loc b))
variable (a1 : (pcfg1 (F := F)).Adm) (hT : TblOk a1)

/-- The staged keys' current buffer at point `t`, and the body as the pipeline calls it there. -/
abbrev ms1_0 (t : Fin (cfg1 a1).N) : Memref sig .tc .vmem S1x16x16x128 .f32 := spec1_0.stage ((cfg1 a1).slots t 0)
abbrev hs1_0 (t : Fin (cfg1 a1).N) : (ms1_0 a1 t).IsWhole := hstage1_0 (((cfg1 a1).slots t 0).cast nbuf1_0)
abbrev bodyAt1 (t : Fin (cfg1 a1).N) : Prog (TpuEff nD τ sig (Elt F) Λ₀ .tc) PUnit :=
  cc1_kernel (grid1.coords t) tbM0 (Memref.isWhole_whole _) tbM1 (Memref.isWhole_whole _) (ms1_0 a1 t) (hs1_0 a1 t)
    outM (Memref.isWhole_whole _) outM (Memref.isWhole_whole _) cc1_scratch0

/-- What the body is called with at point `t`, and what it returns. -/
def bodyPre1 (c : Dev nD) (t : Fin (cfg1 a1).N) : sProp 𝕄 :=
  iprop((dat1 V a1 hT c).Φ t.castSucc ∗ (dat1 V a1 hT c).owesAt () t.castSucc
    ∗ (∃ d, owns (c : Thread nD τ) (ms1_0 a1 t) fullShare ((dat1 V a1 hT c).before 0 t d)))
def bodyPost1 (c : Dev nD) (t : Fin (cfg1 a1).N) : sProp 𝕄 :=
  iprop((dat1 V a1 hT c).Φ t.succ ∗ (dat1 V a1 hT c).owesAt () t.succ
    ∗ owns (c : Thread nD τ) (ms1_0 a1 t) fullShare ((dat1 V a1 hT c).after 0 t))

/-- The body at any point: the invariant hands it the tables, the result array and its semaphore; the run writes
    the point's block; the invariant is restored at the next count. -/
theorem sound_body1 (c : Dev nD) (t : Fin (cfg1 a1).N) :
    bodyPre1 V a1 hT c t ⊢ wp frame (wpE (defs₀ (F := F)) Variants.none c none) Set.univ (bodyAt1 a1 t) (fun _ => bodyPost1 V a1 hT c t) := by
  unfold bodyPre1 bodyPost1 bodyAt1
  simp only [before1_0]
  rw [after1_0]
  rw [show (dat1 V a1 hT c).Φ t.castSucc = Φ1 V a1 hT c t.val from rfl, show (dat1 V a1 hT c).Φ t.succ = Φ1 V a1 hT c (t.val + 1) from rfl]
  unfold Φ1 Dat.owesAt Pipeline.owesWithin
  rw [show (dat1 V a1 hT c).owed t.castSucc = 0 from rfl, show (dat1 V a1 hT c).owed t.succ = 0 from rfl, acc_succ]
  iintro ⟨⟨HT0, HT1, Hv, Hs, Hr⟩, ⟨%W, -, HO⟩, ⟨%d0, H0⟩⟩
  iapply (kernelRun1 c (grid1.coords t) (ms1_0 a1 t) (hs1_0 a1 t) (iblk1 V a1 c 0 t) (tb0 a1 c) (tb1 a1 c) (acc V a1 hT c t.val) (hT c _) W _)
  isplitl [H0]; · iexact H0
  isplitl [HT0]; · iexact HT0
  isplitl [HT1]; · iexact HT1
  isplitl [Hv]; · iexact Hv
  isplitl [Hs]; · iexact Hs
  isplitl [HO]; · iexact HO
  iintro ⟨H0, HT0, HT1, Hv, Hs, ⟨%W', HO⟩⟩
  isplitl [HT0 HT1 Hv Hs Hr]
  · isplitl [HT0]; · iexact HT0
    isplitl [HT1]; · iexact HT1
    isplitl [Hv]; · iexact Hv
    isplitl [Hs]; · iexact Hs
    iexact Hr
  isplitl [HO]
  · iexists W'; isplitr; · ipureintro; exact fun _ _ => Or.inl trivial
    iexact HO
  iexact H0

/-- The body obligation of the second pipeline, at every point. -/
theorem body_obligation1 (c : Dev nD) : BodyObligation (dat1 (F := F) V a1 hT c) (defs₀ (F := F)) Variants.none () Set.univ := fun t => by
  rw [bigSep_W1, bigSep_W1]
  exact sound_body1 V a1 hT c t

end Region1b

end Cert.Kernel.Hand

end
-- ==== Proof.Clamp.lean ====
/-
  Clamping an index word into `[0, hi]` (signed): the value is in range, and a word already in range is unchanged.
-/
import Idealize.ShloMosaic.PureOps

namespace Cert.Clamp

open Idealize.ShloMosaic

/-- `min(hi, max(lo, w))` over signed 32-bit words. -/
def clamp (lo hi w : BitVec 32) : BitVec 32 := IntOp.minsi hi (IntOp.maxsi lo w)

/-- The signed reading of a 32-bit word: its natural value below 2³¹, that value less 2³² from 2³¹ on. -/
private theorem toInt_cases (w : BitVec 32) :
    (w.toNat < 2 ^ 31 ∧ w.toInt = (w.toNat : Int)) ∨ (2 ^ 31 ≤ w.toNat ∧ w.toInt = (w.toNat : Int) - 2 ^ 32) := by
  have := w.isLt
  rw [BitVec.toInt_eq_toNat_cond]
  split <;> omega

private theorem toInt_zero : (0#32 : BitVec 32).toInt = 0 := by decide

/-- The signed maximum with zero: the word itself when it is nonnegative, zero otherwise. -/
private theorem maxsi_zero (w : BitVec 32) :
    (0 ≤ w.toInt ∧ IntOp.maxsi 0#32 w = w) ∨ (w.toInt < 0 ∧ IntOp.maxsi 0#32 w = 0#32) := by
  unfold IntOp.maxsi
  by_cases h : w.toInt < 0
  · right
    refine ⟨h, if_pos ?_⟩
    simp only [BitVec.slt, decide_eq_true_eq, toInt_zero]; exact h
  · left
    refine ⟨by omega, if_neg ?_⟩
    simp only [BitVec.slt, decide_eq_true_eq, toInt_zero]; exact h

/-- The signed minimum with a bound: the bound when it is strictly below the word, the word otherwise. -/
private theorem minsi_cases (hi m : BitVec 32) :
    (hi.toInt < m.toInt ∧ IntOp.minsi hi m = hi) ∨ (m.toInt ≤ hi.toInt ∧ IntOp.minsi hi m = m) := by
  unfold IntOp.minsi
  by_cases h : hi.toInt < m.toInt
  · left
    refine ⟨h, if_pos ?_⟩
    simp only [BitVec.slt, decide_eq_true_eq]; exact h
  · right
    refine ⟨by omega, if_neg ?_⟩
    simp only [BitVec.slt, decide_eq_true_eq]; exact h

/-- A word clamped into `[0, hi]` is, as a natural, at most `hi`. -/
theorem clamp_le (hi : BitVec 32) (hhi : hi.toNat < 2 ^ 31) (w : BitVec 32) : (clamp 0#32 hi w).toNat ≤ hi.toNat := by
  unfold clamp
  rcases toInt_cases hi with ⟨_, hh⟩ | ⟨hh, _⟩
  · rcases maxsi_zero w with ⟨hw0, hm⟩ | ⟨_, hm⟩
    · rw [hm]
      rcases minsi_cases hi w with ⟨_, e⟩ | ⟨hle, e⟩
      · rw [e]
      · rw [e]
        rcases toInt_cases w with ⟨_, hw⟩ | ⟨_, hw⟩ <;> omega
    · rw [hm]
      rcases minsi_cases hi 0#32 with ⟨_, e⟩ | ⟨_, e⟩
      · rw [e]
      · rw [e]; simp
  · omega

/-- A word already in `[0, hi]` (read signed) is left as it is. -/
theorem clamp_id (hi : BitVec 32) (hhi : hi.toNat < 2 ^ 31) (w : BitVec 32) (h0 : 0 ≤ w.toInt) (h1 : w.toInt ≤ hi.toNat) :
    clamp 0#32 hi w = w := by
  unfold clamp
  rcases maxsi_zero w with ⟨_, hm⟩ | ⟨hneg, _⟩
  · rw [hm]
    rcases minsi_cases hi w with ⟨hlt, _⟩ | ⟨_, e⟩
    · rcases toInt_cases hi with ⟨_, hh⟩ | ⟨hh, _⟩ <;> omega
    · exact e
  · omega

/-- A nonnegative signed word is its natural value. -/
theorem toInt_eq_toNat (w : BitVec 32) (h0 : 0 ≤ w.toInt) : w.toInt = (w.toNat : Int) := by
  rcases toInt_cases w with ⟨_, hw⟩ | ⟨_, hw⟩
  · exact hw
  · have := w.isLt; omega

end Cert.Clamp
-- ==== Proof.K_Tables.lean ====
/-
  What the host operations before the first region leave in the buffers the regions read: the two index tables
  are the cache positions clamped into [0, 8176] and the batch rows clamped into [0, 15]; the staged keys are the
  head/sequence transpose of `key`; `past` is untouched.
-/
import proofs.«430957_j66529043415042_3_alg».proof.Proof.Gen.Kernel.Regions
import proofs.«430957_j66529043415042_3_alg».proof.Proof.Clamp
import Idealize.ShloMosaic.Lib.ValueIdx
import Idealize.ShloMosaic.Lib.Pipeline.Value
import Idealize.ShloMosaic.Lib.StableHlo.Run

noncomputable section

namespace Cert.Kernel.Hand

open Cert.Kernel Cert.Kernel.Gen
open Idealize.ShloMosaic Idealize.ShloMosaic.TcCoe Idealize.ShloMosaic.ValueIdx Idealize.SL.Sem

variable {F : FTy → Type} [FloatOps F]

variable (m : (ℓ : Loc nD τ sig) → Buf (Elt F) ℓ)

/-- The cache-position table: row `j` is `cache_id[j, 0]` clamped into [0, 8176]. -/
theorem V1_cacheTbl (c : Dev nD) (j : S16.Idx) :
    (V1 m c main_call0_v1 : S16.Idx → BitVec 32) j
      = Cert.Clamp.clamp 0#32 8176#32 ((m ((c : Thread nD τ).loc main_arg0) : S16x1.Idx → BitVec 32) (ix2 (j 0) 0)) := by
  have e : (V1 m c main_call0_v1 : S16.Idx → BitVec 32)
      = shapeCast S16 (minsi (broadcastInDim S16x1 ![] bcast_S_S16x1 (constantI S_ 32 8176#32))
          (maxsi (broadcastInDim S16x1 ![] bcast_S_S16x1 (constantI S_ 32 0#32))
            (m ((c : Thread nD τ).loc main_arg0) : S16x1.Idx → BitVec 32))) shapeCasts_S16x1_S16 := by
    dsimp only [V1, V0, hostOps0]; after_results; rfl
  refine (congrFun e j).trans ?_
  refine (shapeCast_apply _ shapeCasts_S16x1_S16 j (ix2 (j 0) 0) ?_).trans ?_
  · rw [Shape.rowMajor_val_two, Shape.rowMajor_val_one]
    show (j 0).val * 1 + 0 = (j 0).val
    omega
  · rfl

/-- The batch-row table: row `j` is `batch_id[j, 0]` clamped into [0, 15]. -/
theorem V1_batchTbl (c : Dev nD) (j : S16.Idx) :
    (V1 m c main_call0_v3 : S16.Idx → BitVec 32) j
      = Cert.Clamp.clamp 0#32 15#32 ((m ((c : Thread nD τ).loc main_arg1) : S16x1.Idx → BitVec 32) (ix2 (j 0) 0)) := by
  have e : (V1 m c main_call0_v3 : S16.Idx → BitVec 32)
      = shapeCast S16 (minsi (broadcastInDim S16x1 ![] bcast_S_S16x1 (constantI S_ 32 15#32))
          (maxsi (broadcastInDim S16x1 ![] bcast_S_S16x1 (constantI S_ 32 0#32))
            (m ((c : Thread nD τ).loc main_arg1) : S16x1.Idx → BitVec 32))) shapeCasts_S16x1_S16 := by
    dsimp only [V1, V0, hostOps0]; after_results; rfl
  refine (congrFun e j).trans ?_
  refine (shapeCast_apply _ shapeCasts_S16x1_S16 j (ix2 (j 0) 0) ?_).trans ?_
  · rw [Shape.rowMajor_val_two, Shape.rowMajor_val_one]
    show (j 0).val * 1 + 0 = (j 0).val
    omega
  · rfl

/-- The staged keys: element `(b, s, h, d)` is `key[b, h, s, d]`. -/
theorem V1_keyT (c : Dev nD) (i : S16x16x16x128.Idx) :
    (V1 m c main_call0_v4 : S16x16x16x128.Idx → Elt F .f32) i
      = (m ((c : Thread nD τ).loc main_arg2) : S16x16x16x128.Idx → Elt F .f32) (ix4 (i 0) (i 2) (i 1) (i 3)) := by
  have e : (V1 m c main_call0_v4 : S16x16x16x128.Idx → Elt F .f32)
      = transpose S16x16x16x128 [0, 2, 1, 3] (m ((c : Thread nD τ).loc main_arg2) : S16x16x16x128.Idx → Elt F .f32)
          transposes_S16x16x16x128_S16x16x16x128_0_2_1_3 := by
    dsimp only [V1, V0, hostOps0]; after_results; rfl
  refine (congrFun e i).trans ?_
  exact transpose_apply [0, 2, 1, 3] _ transposes_S16x16x16x128_S16x16x16x128_0_2_1_3 i (ix4 (i 0) (i 2) (i 1) (i 3))
    (fun b => match b with
      | ⟨0, _⟩ => rfl
      | ⟨1, _⟩ => rfl
      | ⟨2, _⟩ => rfl
      | ⟨3, _⟩ => rfl)

/-- `past` reaches the first region as launched. -/
theorem V1_past (c : Dev nD) : V1 m c main_arg3 = m ((c : Thread nD τ).loc main_arg3) :=
  (V1_of m c main_arg3 (by decide)).trans rfl

end Cert.Kernel.Hand

end
-- ==== Proof.K_Vals.lean ====
/-
  The valuations the two regions are entered at, the index tables' contents when the second region is entered,
  and the tables' words as naturals.
-/
import proofs.«430957_j66529043415042_3_alg».proof.Proof.K_R0
import proofs.«430957_j66529043415042_3_alg».proof.Proof.K_R1
import proofs.«430957_j66529043415042_3_alg».proof.Proof.K_Tables
import proofs.«430957_j66529043415042_3_alg».proof.Proof.Gen.Kernel.Regions

noncomputable section

namespace Cert.Kernel.Hand

open Cert.Kernel Cert.Kernel.Gen
open Idealize.ShloMosaic Idealize.ShloMosaic.TcCoe Idealize.ShloMosaic.ValueIdx
open Idealize.SL.Sem
open Idealize.ShloMosaic.Pipeline (Dat)

variable {F : FTy → Type} [FloatOps F]

variable (m : (ℓ : Loc nD τ sig) → Buf (Elt F) ℓ)

/-- The buffers when the first region is entered: after the host prologue. -/
abbrev Ve1 : (c : Dev nD) → (b : Ref sig .tc) → Buf (Elt F) ((c : Thread nD τ).loc b) := fun c b => V1 m c b

/-- What the first region leaves in the intermediate array. -/
def arr0 (c : Dev nD) : Buf (Elt F) ((c : Thread nD τ).loc main_call0_v5) := (dat0 (Ve1 m) c).arrAt 1 cfg0.N

/-- The regions' results with the first region's only: the intermediate array after it. -/
def outs2 : Outs (F := F) := fun _ r c =>
  Function.update (V1 m c) (Proc.devRef .tc main_call0_v5) (arr0 m c) (Proc.devRef .tc r)

/-- The buffers when the second region is entered. -/
abbrev Ve3 : (c : Dev nD) → (b : Ref sig .tc) → Buf (Elt F) ((c : Thread nD τ).loc b) := fun c b => V3 m (outs2 m) c b

/-- The index tables' contents when the second region is entered. -/
def tbl : pre1.Contents (Elt F) := fun j => Ve3 m (0 : Dev nD) (pre1.ref j)
def adm1 : (pcfg1 (F := F)).Adm := ⟨tbl m, trivial⟩

/-- The tables' words as naturals: the clamped cache position and batch row of batch entry `b`. -/
def cacheN (c : Dev nD) (b : Fin 16) : Nat :=
  (Cert.Clamp.clamp 0#32 8176#32 ((m ((c : Thread nD τ).loc main_arg0) : S16x1.Idx → BitVec 32) (ix2 b 0))).toNat
def batchN (c : Dev nD) (b : Fin 16) : Nat :=
  (Cert.Clamp.clamp 0#32 15#32 ((m ((c : Thread nD τ).loc main_arg1) : S16x1.Idx → BitVec 32) (ix2 b 0))).toNat

end Cert.Kernel.Hand

end
-- ==== Proof.K_TblOk.lean ====
/-
  The index tables' words name windows inside the result array: a clamped cache position is at most 8176, so
  its sixteen rows end by row 8192; a clamped batch row is at most 15.
-/
import proofs.«430957_j66529043415042_3_alg».proof.Proof.K_Vals

noncomputable section

namespace Cert.Kernel.Hand

open Cert.Kernel Cert.Kernel.Gen
open Idealize.ShloMosaic Idealize.ShloMosaic.TcCoe Idealize.ShloMosaic.ValueIdx
open Idealize.SL.Sem

variable {F : FTy → Type} [FloatOps F]

variable (m : (ℓ : Loc nD τ sig) → Buf (Elt F) ℓ)

/-- The one index of the unit rectangle at offset `k` of a sixteen-entry table is entry `k`. -/
theorem unit_idx_eq (k : Fin 16) (off : Fin 1 → Nat) (hoff : off 0 = k.val) (inb : ∀ a, off a + S1.size a ≤ S16.size a)
    (h1 : 0 < S1.numel) : (Rect.unit (s := S16) off S1.size inb).idx (Shape.Idx.first h1) = ValueIdx.ix1 k := by
  funext a
  match a with
  | ⟨0, _⟩ =>
    apply Fin.ext
    show off 0 + 1 * (Shape.Idx.first h1 (0 : Fin 1)).val = k.val
    have h : (Shape.Idx.first h1 (0 : Fin 1)).val = 0 := rfl
    rw [h, hoff]; omega

/-- The offset the body reads the tables at is the grid coordinate: a coordinate below 16 is its own 32-bit word's value. -/
theorem off1_zero (i : grid1.Coords) : k1_off1 i 0 = (i 0).val := by
  have h : (i 0).val < 16 := (i 0).isLt
  show (BitVec.ofNat 32 (i 0).val).toNat = (i 0).val
  rw [BitVec.toNat_ofNat]; omega

/-- Whatever the cache table holds, its word at grid point `i` is its entry `i 0`. -/
theorem wordAt0_apply (c : Dev nD) (i : grid1.Coords) (t : Bf (F := F) c tbM0) :
    wordAt i tbM0 t = (t : S16.Idx → BitVec 32) (ValueIdx.ix1 ⟨(i 0).val, (i 0).isLt⟩) :=
  congrArg (t : S16.Idx → BitVec 32)
    (unit_idx_eq ⟨(i 0).val, (i 0).isLt⟩ (k1_off1 i) (off1_zero i) (k1_off1_inb i) (numel1_S1.symm ▸ Nat.one_pos))

/-- Whatever the batch table holds, its word at grid point `i` is its entry `i 0`. -/
theorem wordAt1_apply (c : Dev nD) (i : grid1.Coords) (t : Bf (F := F) c tbM1) :
    wordAt i tbM1 t = (t : S16.Idx → BitVec 32) (ValueIdx.ix1 ⟨(i 0).val, (i 0).isLt⟩) :=
  congrArg (t : S16.Idx → BitVec 32)
    (unit_idx_eq ⟨(i 0).val, (i 0).isLt⟩ (k1_off1 i) (off1_zero i) (k1_off1_inb i) (numel1_S1.symm ▸ Nat.one_pos))

/-- The cache table as the second region finds it is the one the host prologue left: neither the first region nor
    the host stretch between the regions writes it. -/
theorem tb0_eq : tb0 (adm1 m) (0 : Dev nD) = V1 m 0 main_call0_v1 := by
  unfold tb0 adm1 tbl
  dsimp only [Ve3]
  exact (V3_of m (outs2 m) 0 main_call0_v1 (by decide)).trans (V2_of m (outs2 m) 0 main_call0_v1 (by decide))

/-- Likewise the batch table. -/
theorem tb1_eq : tb1 (adm1 m) (0 : Dev nD) = V1 m 0 main_call0_v3 := by
  unfold tb1 adm1 tbl
  dsimp only [Ve3]
  exact (V3_of m (outs2 m) 0 main_call0_v3 (by decide)).trans (V2_of m (outs2 m) 0 main_call0_v3 (by decide))

/-- The cache table's word at grid point `i` is the clamped cache position of batch entry `i 0`. -/
theorem word0_eq (c : Dev nD) (i : grid1.Coords) :
    wordAt i tbM0 (tb0 (adm1 m) c) = Cert.Clamp.clamp 0#32 8176#32 ((m ((c : Thread nD τ).loc main_arg0) : S16x1.Idx → BitVec 32) (ix2 ⟨(i 0).val, (i 0).isLt⟩ 0)) := by
  obtain rfl : c = 0 := Subsingleton.elim _ _
  refine (wordAt0_apply 0 i _).trans ?_
  refine (congrFun (tb0_eq m) _).trans ?_
  exact V1_cacheTbl m 0 (ValueIdx.ix1 ⟨(i 0).val, (i 0).isLt⟩)

/-- The batch table's word at grid point `i` is the clamped batch row of batch entry `i 0`. -/
theorem word1_eq (c : Dev nD) (i : grid1.Coords) :
    wordAt i tbM1 (tb1 (adm1 m) c) = Cert.Clamp.clamp 0#32 15#32 ((m ((c : Thread nD τ).loc main_arg1) : S16x1.Idx → BitVec 32) (ix2 ⟨(i 0).val, (i 0).isLt⟩ 0)) := by
  obtain rfl : c = 0 := Subsingleton.elim _ _
  refine (wordAt1_apply 0 i _).trans ?_
  refine (congrFun (tb1_eq m) _).trans ?_
  exact V1_batchTbl m 0 (ValueIdx.ix1 ⟨(i 0).val, (i 0).isLt⟩)

/-- A cache position at most 8176 and a batch row at most 15 name a (1, 16, 16, 128) window inside the
    (16, 8192, 16, 128) array. -/
theorem chk_of_le (w0 w1 : BitVec 32) (h0 : w0.toNat ≤ 8176) (h1 : w1.toNat ≤ 15) : k1_chk1 w0 w1 := by
  intro a
  match a with
  | ⟨0, _⟩ => show w1.toNat + 1 ≤ 16; omega
  | ⟨1, _⟩ => show w0.toNat + 16 ≤ 8192; omega
  | ⟨2, _⟩ => show 0 + 16 ≤ 16; omega
  | ⟨3, _⟩ => show 0 + 128 ≤ 128; omega

/-- Every window the tables name lies inside the result array. -/
theorem tblOk : TblOk (adm1 m) := by
  unfold TblOk
  intro c i
  have e0 : (8176#32 : BitVec 32).toNat = 8176 := by decide
  have e1 : (15#32 : BitVec 32).toNat = 15 := by decide
  refine chk_of_le _ _ ?_ ?_
  · rw [word0_eq m c i]
    have h := Cert.Clamp.clamp_le 8176#32 (by decide) ((m ((c : Thread nD τ).loc main_arg0) : S16x1.Idx → BitVec 32) (ix2 ⟨(i 0).val, (i 0).isLt⟩ 0))
    rw [e0] at h; exact h
  · rw [word1_eq m c i]
    have h := Cert.Clamp.clamp_le 15#32 (by decide) ((m ((c : Thread nD τ).loc main_arg1) : S16x1.Idx → BitVec 32) (ix2 ⟨(i 0).val, (i 0).isLt⟩ 0))
    rw [e1] at h; exact h

end Cert.Kernel.Hand

end
-- ==== Proof.K_Run.lean ====
/-
  The whole program's run: the host prologue, the first region (the transposing copy of `past` into the
  intermediate array), the host copy of that array into the result's buffer, and the second region (the sixteen
  block writes into the result).  Between two items every unscoped buffer is held whole at a valuation — the launch
  contents, then what each host stretch computes, then what each region leaves in the one buffer it writes — and
  the end reads the result's buffer and the argument arrays off the last valuation.
-/
import proofs.«430957_j66529043415042_3_alg».proof.Proof.K_Vals
import proofs.«430957_j66529043415042_3_alg».proof.Proof.K_TblOk
import proofs.«430957_j66529043415042_3_alg».proof.Proof.K_RunCond
import Idealize.ShloMosaic.Lib.Pipeline.RegionsLoop

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## What the regions leave, and the proof data family -/

/-- What the second region leaves in the result's buffer: the array after all sixteen points. -/
def fin1 (c : Dev nD) : Buf (Elt F) ((c : Thread nD τ).loc main_v0) := acc (Ve3 m) (adm1 m) (tblOk m) c (cfg1 (adm1 m)).N

/-- The regions' results: the intermediate array after the first region, the result array after the second. -/
def outs : Outs (F := F) := fun J r c =>
  if J = 4 then Function.update (V3 m (outs2 m) c) (Proc.devRef .tc main_v0) (fin1 m c) (Proc.devRef .tc r)
  else outs2 m J r c

theorem outs_at2 (c : Dev nD) : outs m 2 main_call0_v5 c = outs2 m 2 main_call0_v5 c := by
  unfold outs; exact if_neg (by decide)
theorem outs2_v5 (c : Dev nD) : outs2 m 2 main_call0_v5 c = arr0 m c := by
  unfold outs2; exact Function.update_self ..
theorem outs_2 (c : Dev nD) : outs m 2 main_call0_v5 c = arr0 m c := (outs_at2 m c).trans (outs2_v5 m c)
theorem outs_4 (c : Dev nD) : outs m 4 main_v0 c = fin1 m c := by
  unfold outs; rw [if_pos rfl]; exact Function.update_self ..

/-- The valuations before the second region do not depend on what the second region leaves. -/
theorem V2_outs (c : Dev nD) : V2 m (outs m) c = V2 m (outs2 m) c := by
  dsimp only [V2]; rw [outs_at2]
theorem V3_outs (c : Dev nD) : V3 m (outs m) c = V3 m (outs2 m) c := by
  dsimp only [V3]; rw [V2_outs]

/-- The tables' admissible contents, per pipeline. -/
abbrev adm : (p : Fin 2) → (pcfgs (F := F) p).Adm
  | ⟨0, _⟩ => cfg0.toPCfg_adm
  | ⟨1, _⟩ => adm1 m

/-- Every pipeline's proof data, each at its region's entry contents. -/
def pdats : (p : Fin 2) → (c : Dev nD) → Dat τ (Elt F) Unit ℕ (Pipeline.UD sig nD τ) ℕ (Pipeline.pin (pcfgs (F := F)) (adm m) p) c
  | ⟨0, _⟩ => fun c => dat0 (Ve1 m) c
  | ⟨1, _⟩ => fun c => dat1 (Ve3 m) (adm1 m) (tblOk m) c

abbrev 𝒱₀ : Variants := Variants.none
abbrev L : GSem nD τ sig → Finset Unit := fun _ => ∅
abbrev lv : GSem nD τ sig → Unit → ℕ := fun _ _ => 0

/-- What rides beside the buffers through every item: the generator register at some state, and the core owing
    nothing. -/
abbrev R (c : Dev nD) : sProp 𝕄 := iprop((∃ r, prngReg c r) ∗ ∃ W, owes (c : Thread nD τ) (0 : CellTallies nD τ sig Unit) W)
abbrev E : Fin 3 → Dev nD → sProp 𝕄 := fun _ c => R c

end Cert.Kernel.Hand

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The first region as a segment -/

/-- At the first region's exit its arrays hold what the pipeline leaves — `past` as entered, the intermediate array
    at `arr0` — and every other buffer what it held at entry. -/
theorem hF0 (c : Dev nD) (w : Fin cfg0.W) : (dat0 (Ve1 m) c).arrAt w cfg0.N = V2 m (outs m) c (Pipeline.arrRef spec0 w) := by
  match w with
  | ⟨0, _⟩ =>
    refine (arrAt0_in (Ve1 m) c).trans ?_
    exact (V2_of m (outs m) c main_arg3 (by decide)).symm
  | ⟨1, _⟩ =>
    have h1 : V2 m (outs m) c main_call0_v5 = outs m 2 main_call0_v5 c := by dsimp only [V2]; exact Function.update_self ..
    exact (outs_2 m c).symm.trans h1.symm
theorem hrest0 (c : Dev nD) : ∀ b, b ∉ Finset.univ.image (Pipeline.arrRef spec0) → V2 m (outs m) c b = V1 m c b := fun b hb =>
  V2_of m (outs m) c b (by
    intro h
    refine hb (Finset.mem_image.mpr ⟨1, Finset.mem_univ _, ?_⟩)
    simp only [List.mem_cons, List.not_mem_nil, or_false] at h
    exact h.symm)

set_option backward.isDefEq.respectTransparency.types false in
/-- The first region over the thread states: entered from every unscoped buffer at the prologue's valuation, left
    at that valuation with the intermediate array updated. -/
def reg0 : RegionSeg (pcfgs (F := F)) (adm m) (pdats m) () defs₀ 𝒱₀ L lv 0 where
  win := (launch0 (F := F)).win.to₀
  block_pos := (launch0 (F := F)).block_pos
  stage_whole := (launch0 (F := F)).stage_whole
  K := PEmpty
  osem k := k.elim
  ho := Pipeline.OwnSemFacts.none _
  hbody c := (body_obligation0 (Ve1 m) c).loose
  hwaits := Pipeline.hwaits_of_owed_zero _ _ _ _ L lv 0 fun _ _ => rfl
  pre c := iprop(StableHlo.held (c : Thread nD τ) (Pipeline.ucRefs τ sig) (V1 m c) ∗ R c)
  post c := iprop(StableHlo.held (c : Thread nD τ) (Pipeline.ucRefs τ sig) (V2 m (outs m) c) ∗ R c)
  X c := iprop(∃ r, prngReg c r)
  Y c := iprop(∃ r, prngReg c r)
  Z c := Pipeline.unscopedRest (Ix := Unit) (Name := ℕ) (U := Pipeline.UD sig nD τ) (Lvl := ℕ) spec0 c (Ve1 m c)
  hentry c := by
    rw [Pipeline.ownSems0_none]
    have hsplit := Pipeline.arrays_of_unscopedBufs (p := 0) (pcfgs (F := F)) (adm m) (pdats m) (launch0 (F := F)).win (launch0 (F := F)).arr_whole c
      ((pdats m 0 c).share_full fun _ => rfl) (Ve1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) (adm m) (Ix := Unit) (Name := ℕ) (U := Pipeline.UD sig nD τ) (Lvl := ℕ)
      (launch0 (F := F)).win (launch0 (F := F)).arr_whole c (pdats m) ((pdats m 0 c).share_full fun _ => rfl)
      (Ve1 m c) (fun b => V2 m (outs m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The second region as a segment -/

/-- The unscoped buffers the second region's body handles itself: the two tables and the result array. -/
def H1 : Finset (Ref sig .tc) := {main_call0_v1, main_call0_v3, main_v0}
theorem H1_sub : H1 ⊆ Pipeline.restRefs sig spec1 := by decide
theorem H1_pts (c : Dev nD) (W : (b : Ref sig .tc) → Buf (Elt F) ((c : Thread nD τ).loc b)) :
    (bigSep H1 (fun b => ((c : Thread nD τ).loc b) ↦{fullShare} W b) : sProp 𝕄)
      = iprop(pt c tbM0 (W main_call0_v1) ∗ pt c tbM1 (W main_call0_v3) ∗ pt c outM (W main_v0)) := by
  rw [BI.bigSep_eq_bigSepL_of_eq [main_call0_v1, main_call0_v3, main_v0] (by decide) (by decide)]; rfl

/-- The tables when the second region is entered are the contents its pipeline is pinned at. -/
theorem Ve3_tb0 (c : Dev nD) : Ve3 m c main_call0_v1 = tb0 (adm1 m) c := by
  obtain rfl : c = 0 := Subsingleton.elim _ _
  dsimp only [tb0, adm1, tbl]
  rfl
theorem Ve3_tb1 (c : Dev nD) : Ve3 m c main_call0_v3 = tb1 (adm1 m) c := by
  obtain rfl : c = 0 := Subsingleton.elim _ _
  dsimp only [tb1, adm1, tbl]
  rfl

/-- The last valuation at the buffers the second region's body handles, and off the result's buffer. -/
theorem V4_ne (c : Dev nD) (b : Ref sig .tc) (h : b ∉ ([main_v0] : List (Ref sig .tc))) : V4 m (outs m) c b = Ve3 m c b :=
  (V4_of m (outs m) c b h).trans (congrFun (V3_outs m c) _)
theorem V4_out (c : Dev nD) : V4 m (outs m) c main_v0 = fin1 m c :=
  (Function.update_self ..).trans (outs_4 m c)

theorem hF1 (c : Dev nD) (w : Fin (cfg1 (adm1 m)).W) :
    (dat1 (Ve3 m) (adm1 m) (tblOk m) c).arrAt w (cfg1 (adm1 m)).N = V4 m (outs m) c (Pipeline.arrRef spec1 w) := by
  match w with
  | ⟨0, _⟩ =>
    refine ((dat1 (Ve3 m) (adm1 m) (tblOk m) c).arrAt_in 0 rfl _).trans ?_
    refine (A_eq1 (Ve3 m) (adm1 m) (tblOk m) c 0).trans ?_
    exact (V4_ne m c main_call0_v4 (by decide)).symm

/-- The rest of the unscoped buffers is the same at the last valuation as when the second region was entered. -/
theorem rest_congr (c : Dev nD) :
    (bigSep (Pipeline.restRefs sig spec1 \ H1) (fun b => ((c : Thread nD τ).loc b) ↦{fullShare} V4 m (outs m) c b) : sProp 𝕄)
      = bigSep (Pipeline.restRefs sig spec1 \ H1) (fun b => ((c : Thread nD τ).loc b) ↦{fullShare} Ve3 m c b) :=
  bigSep_congr fun b hb => by
    rw [V4_ne m c b (by
      intro h
      simp only [List.mem_cons, List.not_mem_nil, or_false] at h
      subst h
      exact (Finset.mem_sdiff.mp hb).2 (by decide))]

set_option backward.isDefEq.respectTransparency.types false in
/-- The second region over the thread states: entered from every unscoped buffer at the valuation after the host
    copy, left at that valuation with the result's buffer at what the sixteen points leave. The tables and the
    result's buffer go through the body's invariant; the other buffers bypass the region. -/
def reg1 : RegionSeg (pcfgs (F := F)) (adm m) (pdats m) () defs₀ 𝒱₀ L lv 1 where
  win := (launch1 (F := F)).win.to₀
  block_pos := (launch1 (F := F)).block_pos
  stage_whole := (launch1 (F := F)).stage_whole
  K := Fin 1
  osem := osem1
  ho := ownSemFacts1
  hbody c := (body_obligation1 (Ve3 m) (adm1 m) (tblOk m) c).loose
  hwaits := Pipeline.hwaits_of_owed_zero _ _ _ _ L lv 1 fun _ _ => rfl
  pre c := iprop(StableHlo.held (c : Thread nD τ) (Pipeline.ucRefs τ sig) (V3 m (outs m) c) ∗ R c)
  post c := iprop(StableHlo.held (c : Thread nD τ) (Pipeline.ucRefs τ sig) (V4 m (outs m) c) ∗ R c)
  X c := iprop(pt c outM (Ve3 m c main_v0) ∗ semVal ((c : Thread nD τ), SemLoc.dma (6 : DmaSem sig)) 0)
  Y c := iprop(pt c tbM0 (tb0 (adm1 m) c) ∗ pt c tbM1 (tb1 (adm1 m) c) ∗ pt c outM (fin1 m c))
  Z c := iprop((∃ r, prngReg c r) ∗ bigSep (Pipeline.restRefs sig spec1 \ H1) fun b => ((c : Thread nD τ).loc b) ↦{fullShare} Ve3 m c b)
  hentry c := by
    rw [ownSems01_eq, V3_outs]
    have hsplit := Pipeline.arrays_of_unscopedBufs (p := 1) (pcfgs (F := F)) (adm m) (pdats m) (launch1 (F := F)).win (launch1 (F := F)).arr_whole c
      ((pdats m 1 c).share_full fun _ => rfl) (Ve3 m c) fun _ => rfl
    rw [Pipeline.unscopedBufs_held] at hsplit
    have hH := Pipeline.unscopedRest_sdiff (nD := nD) (τ := τ) (Val := Elt F) spec1 H1 H1_sub c (Ve3 m c)
    rw [H1_pts, Ve3_tb0, Ve3_tb1] at hH
    iintro ⟨⟨Hub, Hp, HO⟩, Hos, -⟩
    ihave H := hsplit $$ Hub
    icases H with ⟨Ha, Hrest⟩
    ihave H' := (Entails.of_eq hH) $$ Hrest
    icases H' with ⟨⟨HT0, HT1, Hv⟩, HR⟩
    imodintro
    isplitl [Ha]; · iexact Ha
    isplitl [HT0 HT1]
    · iapply (Entails.of_eq (prefHeld1_eq (adm1 m) c).symm)
      isplitl [HT0]; · iexact HT0
      iexact HT1
    isplitl [HO]
    · unfold Pipeline.Dat.owesAt Pipeline.owesWithin
      icases HO with ⟨%W, HO⟩; iexists W; isplitr; · ipureintro; exact fun _ _ => Or.inl trivial
      iexact HO
    isplitl [Hv Hos]
    · isplitl [Hv]; · iexact Hv
      iexact Hos
    isplitl [Hp]; · iexact Hp
    iexact HR
  hin c := by
    rw [show (pdats m 1 c).Φ 0 = Φ1 (Ve3 m) (adm1 m) (tblOk m) c 0 from rfl]; unfold Φ1
    iintro ⟨⟨Hv, Hos⟩, HT, Hr⟩
    ihave HT' := (Entails.of_eq (prefHeld1_eq (adm1 m) c)) $$ HT
    icases HT' with ⟨HT0, HT1⟩
    isplitl [HT0]; · iexact HT0
    isplitl [HT1]; · iexact HT1
    isplitl [Hv]; · iexact Hv
    isplitl [Hos]; · iexact Hos
    iexact Hr
  hout c := by
    rw [ownSems01_eq, show (pdats m 1 c).Φ (Fin.last _) = Φ1 (Ve3 m) (adm1 m) (tblOk m) c (cfg1 (adm1 m)).N from rfl]; unfold Φ1
    iintro ⟨HT0, HT1, Hv, Hos, Hr⟩
    isplitl [HT0 HT1 Hv]
    · isplitl [HT0]; · iexact HT0
      isplitl [HT1]; · iexact HT1
      iexact Hv
    isplitl [Hos]; · iexact Hos
    iexact Hr
  hexit c := by
    have hjoin := Pipeline.unscopedBufs_of_arrays (p := 1) (pcfgs (F := F)) (adm m) (Ix := Unit) (Name := ℕ) (U := Pipeline.UD sig nD τ) (Lvl := ℕ)
      (launch1 (F := F)).win (launch1 (F := F)).arr_whole c (pdats m) ((pdats m 1 c).share_full fun _ => rfl)
      (fun b => V4 m (outs m) c b) (fun b => V4 m (outs m) c b) ((pdats m 1 c).arrAt · (cfg1 (adm1 m)).N) (hF1 m c) (fun _ _ => rfl)
    rw [Pipeline.unscopedBufs_held] at hjoin
    have hH := Pipeline.unscopedRest_sdiff (nD := nD) (τ := τ) (Val := Elt F) spec1 H1 H1_sub c (fun b => V4 m (outs m) c b)
    rw [H1_pts, rest_congr, V4_ne m c main_call0_v1 (by decide), V4_ne m c main_call0_v3 (by decide), V4_out, Ve3_tb0, Ve3_tb1] at hH
    iintro ⟨Ha, HO, ⟨HT0, HT1, Hv⟩, ⟨Hp, HR⟩⟩
    ihave Hrest := (Entails.of_eq hH.symm) $$ [HT0 HT1 Hv HR]
    · isplitl [HT0 HT1 Hv]
      · isplitl [HT0]; · iexact HT0
        isplitl [HT1]; · iexact HT1
        iexact Hv
      iexact HR
    imodintro
    isplitl [Ha Hrest]
    · iapply hjoin; isplitl [Ha] <;> iassumption
    isplitl [Hp]; · iexact Hp
    unfold Pipeline.Dat.owesAt Pipeline.owesWithin
    icases HO with ⟨%W, -, HO⟩; iexists W; iexact HO

end Cert.Kernel.Hand

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The launch -/

set_option backward.isDefEq.respectTransparency.types false in
/-- From any memory with zero counters every weakly fair execution terminates; the result's buffer ends at what the
    last valuation holds there and the argument arrays end as launched. -/
theorem run_last : θ_run defs (onTc (τ := τ) (main (F := F))) ⟨m, fun _ => 0, ρ⟩ (fun r => ∀ c : Dev nD,
      r.2.mem ((c.tc : Thread nD τ).loc main_v0) = V4 m (outs m) c main_v0
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine run_cond m embL () 𝒱₀ L lv (fun _ _ => rfl) ρ (outs m) (adm m) (pdats m) 0 (fun _ => iprop(emp))
    (initOf (Pipeline.cells (Pipeline.pin (pcfgs (F := F)) (adm m)) (cellOf_inj (adm m))) (Pipeline.launchToks (Pipeline.pin (pcfgs (F := F)) (adm m)) (cellOf_inj (adm m))), 1)
    ?hu E ?hE0 ?hE2 (reg0 m) (fun _ => .rfl) (fun _ => .rfl) (reg1 m) (fun _ => .rfl) (fun _ => .rfl)
  case hu =>
    iintro Hu
    ihave H := (ownU_pair _ _) $$ Hu
    icases H with ⟨HP, -⟩
    imodintro
    isplitl [HP]; · iexact HP
    iapply (show (BI.emp : sProp 𝕄) ⊢ bigSep Finset.univ (fun _ : Dev nD => (BI.emp : sProp 𝕄)) from by rw [BI.bigSep_emp_const])
    iempintro
  case hE0 =>
    refine Pipeline.initEach L lv fun c => ?_
    iintro ⟨⟨-, HO, -, Hp, -⟩, -⟩
    imodintro
    isplitl [Hp]; · iexists _; iexact Hp
    iexists ∅; iexact HO
  case hE2 =>
    intro c
    iintro ⟨-, HO⟩
    iexact HO

/-- The same, the result's buffer named: it ends at what the second region leaves in it. -/
theorem run_main : θ_run defs (onTc (τ := τ) (main (F := F))) ⟨m, fun _ => 0, ρ⟩ (fun r => ∀ c : Dev nD,
      r.2.mem ((c.tc : Thread nD τ).loc main_v0) = fin1 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h c).1.trans (V4_out m c), (h c).2⟩) (run_last m ρ)

end Cert.Kernel.Hand

end
-- ==== Proof.KI_R0.lean ====
/-
  The first kernel region: a (16, 16)-point pipeline whose body reads one (1, 16, 512, 128) block of `past`
  and writes its head/sequence transpose as one (1, 512, 16, 128) block of the intermediate array.
  Stated at a parameter `V`, the buffers' contents when the region is entered.
-/
import proofs.«430957_j66529043415042_3_alg».proof.Proof.Gen.KernelIdeal.Launch
import proofs.«430957_j66529043415042_3_alg».proof.Proof.Gen.KernelIdeal.Skeleton
import proofs.«430957_j66529043415042_3_alg».proof.Proof.Gen.KernelIdeal.Points
import proofs.«430957_j66529043415042_3_alg».proof.Proof.Spec
import Idealize.ShloMosaic.Lib.Pipeline.FrameBody
import Idealize.ShloMosaic.Lib.Pipeline.Frame
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The rectangles the body's accesses go through: each whole block. -/
abbrev rIn0 : Rect S1x16x512x128 := Rect.unit (s := S1x16x512x128) ![0, 0, 0, 0] S1x16x512x128.size inb_S1x16x512x128_S1x16x512x128_0_0_0_0
abbrev rOut0 : Rect S1x512x16x128 := Rect.unit (s := S1x512x16x128) ![0, 0, 0, 0] S1x512x16x128.size inb_S1x512x16x128_S1x512x16x128_0_0_0_0

/-- What the body leaves in the output block's buffer: its one store, the transpose of the input block. -/
def out0_1 (x0 : Vec F S1x16x512x128 .f32) : Vec F S1x512x16x128 .f32 :=
  View.canon [⟨rOut0, k0_pay1 (View.ld x0 rIn0)⟩]

/-- The body's one store is of the whole output block, so every index of the block lies under it. -/
theorem cover0_1 (p0 : Vec F S1x512x16x128 .f32) (y : S1x512x16x128.Idx) :
    ∃ pc ∈ ([⟨rOut0, p0⟩] : List (View.Piece (Elt F) S1x512x16x128 .f32)), y ∈ pc.1.set :=
  View.cover_of_tiled [⟨rOut0, p0⟩] S1x512x16x128.size (by rfl) y

/-- The body on whole staging memrefs: the input's at `x0`, the output's at anything; it ends with the input's
    as it was and the output's at `out0_1 x0`. -/
theorem sound_kernel0 (c : Dev nD) (E : Set ℕ) (i : grid0.Coords) (arg2 : Memref sig .tc .vmem S1x16x512x128 .f32) (harg2 : arg2.IsWhole)
    (arg3 : Memref sig .tc .vmem S1x512x16x128 .f32) (harg3 : arg3.IsWhole) (x0 : Vec F S1x16x512x128 .f32) (K : PUnit → sProp 𝕄) :
    iprop(owns (c : Thread nD τ) arg2 fullShare x0 ∗ (∃ d, owns (c : Thread nD τ) arg3 fullShare d)
        ∗ (iprop(owns (c : Thread nD τ) arg2 fullShare x0 ∗ owns (c : Thread nD τ) arg3 fullShare (out0_1 x0)) -∗ K ⟨⟩))
      ⊢ wp frame (wpE (defs₀ (F := F)) Variants.none c none) E (cc0__transpose_copy_kernel i arg2 harg2 arg3 harg3) K := by
  simp only [cc0__transpose_copy_kernel_eq_skeleton]; unfold cc0__transpose_copy_kernel_skel
  unfold owns
  iintro ⟨⟨%f0, %hf0, H0⟩, ⟨%d1, %f1, %hf1, H1⟩, Hk⟩
  subst hf0
  subst hf1
  -- the two loads read the input block and the output block's old contents; the store overwrites the latter whole
  sl_exec
  sl_step
  iapply Hk
  isplitl [H0]
  · iexists f0; isplitr; · ipureintro; rfl
    iexact H0
  iexists _; isplitr
  swap; · iexact H1
  ipureintro
  exact View.read_writes_eq_canon _ _ _ (cover0_1 _)

/-- The proof data of the first pipeline on core `c`: the arrays as the region finds them; after the body the
    input's buffer at its block and the output's at the transposed block; the scoped rest and the generator
    register untouched; nothing owed; full shares. -/
def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => out0_1 (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]

/-- The input window is fetched at every point, so its staging buffer holds the point's block of the input array
    when the body is called. -/
theorem before0_0 (c : Dev nD) (t : Fin cfg0.N) (d) : (dat0 V c).before 0 t d = iblk0 V c 0 t := by
  rw [Dat.before_fetched (dat0 V c) 0 t (fetch0_0 t)]
  unfold Dat.fetched Dat.blockOf iblk0
  rw [A_eq0]
  -- the window's blocks are never clipped, so the fetch fills the whole buffer
  rfl

/-- What the body is called with at point `t`: the invariant, the core's debts, and both staging buffers, the
    input's at the point's block, the output's at whatever it held. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- What it returns: the same invariant and debts, the input's buffer unchanged, the output's at the transposed block. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

/-- The body at any point: the input's buffer holds its block, so the body's triple applies; the invariant and
    the debts are not read and pass through. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ (grid0.coords t) _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The body obligation of the first pipeline, at every point. -/
theorem body_obligation0 (c : Dev nD) : BodyObligation (dat0 (F := F) V c) (defs₀ (F := F)) Variants.none () Set.univ := fun t => by
  rw [bigSep_W0, bigSep_W0]
  exact sound_body0 V c t

/-- The input array is left as the region found it. -/
theorem arrAt0_in (c : Dev nD) : (dat0 V c).arrAt 0 cfg0.N = V c (Pipeline.arrRef spec0 0) := by
  rw [(dat0 V c).arrAt_in 0 rfl _]
  exact A_eq0 V c 0

/-! ## From the blocks to the array -/

open Idealize.ShloMosaic.ValueIdx in
/-- The transposed block at `(a, s, h, d)` is the input block at `(a, h, s, d)`: the permutation swaps the two
    middle axes. -/
theorem transposed_block_apply (x : Vec F S1x16x512x128 .f32) (a : Fin 1) (s : Fin 512) (h : Fin 16) (d : Fin 128) :
    k0_pay1 x (ix4 a s h d) = x (ix4 a h s d) := by
  unfold k0_pay1
  exact transpose_apply _ _ _ _ _ (fun b => match b with
    | ⟨0, _⟩ => rfl | ⟨1, _⟩ => rfl | ⟨2, _⟩ => rfl | ⟨3, _⟩ => rfl)

theorem zero_off4 : (![0, 0, 0, 0] : Fin 4 → Nat) = fun _ => 0 := funext fun a => by fin_cases a <;> rfl

/-- The whole output array as one function of the input array: index `(B, S, h, d)` reads `(B, h, S, d)`. -/
abbrev transposedPast (c : Dev nD) : S16x8192x16x128.Idx → Elt F .f32 :=
  fun i => (V c main_arg3 : S16x16x8192x128.Idx → Elt F .f32) (Cert.Spec.pastIdx i)

/-- The two windows' block indices over the grid: point `(b, s)` reads input block `(b, 0, s, 0)` and writes
    output block `(b, s, 0, 0)`, both indices below sixteen. -/
theorem index_facts : ∀ t : Fin cfg0.N,
    win0_0.index t (0 : Fin 4) = win0_1.index t (0 : Fin 4) ∧ win0_0.index t (1 : Fin 4) = 0
    ∧ win0_0.index t (2 : Fin 4) = win0_1.index t (1 : Fin 4) ∧ win0_0.index t (3 : Fin 4) = 0
    ∧ win0_1.index t (2 : Fin 4) = 0 ∧ win0_1.index t (3 : Fin 4) = 0
    ∧ win0_1.index t (0 : Fin 4) ≤ 15 ∧ win0_1.index t (1 : Fin 4) ≤ 15 :=
  (by decide +kernel : ∀ t : Fin grid0.N, _)

/-- Every output block `(q0, q1, 0, 0)` is some point's. -/
theorem index_onto : ∀ (q0 q1 : Fin 16), ∃ t : Fin cfg0.N, win0_1.index t = ![q0.val, q1.val, 0, 0] :=
  (by decide +kernel : ∀ (q0 q1 : Fin 16), ∃ t : Fin grid0.N, win0_1.index t = ![q0.val, q1.val, 0, 0])

open Idealize.ShloMosaic.ValueIdx in
/-- What point `t` writes back is its block of the transposed input array: rows `512 s … 512 s + 511` of batch
    `b`, each read at the input's swapped index. -/
theorem flushed_eq (c : Dev nD) (t : Fin cfg0.N) :
    (dat0 V c).flushed 1 t = ((cfg0.win 1).blk t).view.read (Elt F) (transposedPast V c) := by
  show (cfg0.win 1).cut (grid0.coords t) ((dat0 V c).after 1 t) = _
  rw [after0_1]
  unfold out0_1
  rw [View.canon_unit_zero zero_off4]
  simp only [View.ld_unit_zero (S := S1x16x512x128) zero_off4]
  obtain ⟨e0, e1, e2, e3, e4, e5, -, -⟩ := index_facts t
  funext j
  obtain ⟨a, s, h, d, rfl⟩ : ∃ (a : Fin 1) (s : Fin 512) (h : Fin 16) (d : Fin 128), j = ix4 a s h d :=
    ⟨j 0, j 1, j 2, j 3, eq_ix4 j⟩
  refine (transposed_block_apply (iblk0 V c 0 t) a s h d).trans ?_
  show V c main_arg3 (((cfg0.win 0).blk t).view.emb (ix4 a h s d))
      = V c main_arg3 (Cert.Spec.pastIdx (((cfg0.win 1).blk t).view.emb (ix4 a s h d)))
  refine congrArg _ (funext fun b => Fin.ext ?_)
  have ha : a.val = 0 := by omega
  match b with
  | ⟨0, _⟩ => show win0_0.index t (0 : Fin 4) * 1 + 1 * a.val = win0_1.index t (0 : Fin 4) * 1 + 1 * a.val; omega
  | ⟨1, _⟩ => show win0_0.index t (1 : Fin 4) * 16 + 1 * h.val = win0_1.index t (2 : Fin 4) * 16 + 1 * h.val; omega
  | ⟨2, _⟩ => show win0_0.index t (2 : Fin 4) * 512 + 1 * s.val = win0_1.index t (1 : Fin 4) * 512 + 1 * s.val; omega
  | ⟨3, _⟩ => show win0_0.index t (3 : Fin 4) * 128 + 1 * d.val = win0_1.index t (3 : Fin 4) * 128 + 1 * d.val; omega

/-- An index of the output array lies in point `t`'s block iff each coordinate is in the block's range. -/
theorem mem_blk (t : Fin cfg0.N) (i : S16x8192x16x128.Idx) :
    i ∈ ((cfg0.win 1).blk t).view.set ↔ ∀ a : Fin 4, win0_1.index t a * S1x512x16x128.size a ≤ (i a).val
      ∧ (i a).val < win0_1.index t a * S1x512x16x128.size a + S1x512x16x128.size a := by
  show i ∈ ((View.whole main_call0_v5).slice (win0_1.rect t)).set ↔ _
  rw [View.set_slice_whole, Rect.mem_set_unit]
  exact Iff.rfl

/-- The output's blocks fill its array: index `(B, S, h, d)` lies in the block of the point with block index
    `(B, S / 512, 0, 0)`. -/
theorem blocks_cover (i : S16x8192x16x128.Idx) :
    ∃ t : Fin cfg0.N, (cfg0.win 1).flush t = true ∧ i ∈ ((cfg0.win 1).blk t).view.set := by
  have hi0 : (i 0).val < 16 := (i 0).isLt
  have hi1 : (i 1).val < 8192 := (i 1).isLt
  have hi2 : (i 2).val < 16 := (i 2).isLt
  have hi3 : (i 3).val < 128 := (i 3).isLt
  obtain ⟨t, ht⟩ := index_onto ⟨(i 0).val, hi0⟩ ⟨(i 1).val / 512, by omega⟩
  have q0 : win0_1.index t (0 : Fin 4) = (i 0).val := congrFun ht 0
  have q1 : win0_1.index t (1 : Fin 4) = (i 1).val / 512 := congrFun ht 1
  have q2 : win0_1.index t (2 : Fin 4) = 0 := congrFun ht 2
  have q3 : win0_1.index t (3 : Fin 4) = 0 := congrFun ht 3
  refine ⟨t, flush0_1 t, ?_⟩
  rw [mem_blk]
  intro a
  match a with
  | ⟨0, _⟩ => show win0_1.index t (0 : Fin 4) * 1 ≤ (i 0).val ∧ (i 0).val < win0_1.index t (0 : Fin 4) * 1 + 1; omega
  | ⟨1, _⟩ => show win0_1.index t (1 : Fin 4) * 512 ≤ (i 1).val ∧ (i 1).val < win0_1.index t (1 : Fin 4) * 512 + 512; omega
  | ⟨2, _⟩ => show win0_1.index t (2 : Fin 4) * 16 ≤ (i 2).val ∧ (i 2).val < win0_1.index t (2 : Fin 4) * 16 + 16; omega
  | ⟨3, _⟩ => show win0_1.index t (3 : Fin 4) * 128 ≤ (i 3).val ∧ (i 3).val < win0_1.index t (3 : Fin 4) * 128 + 128; omega

/-- So after the last point the output array is the transposed input array. -/
theorem out_array_eq (c : Dev nD) : (dat0 V c).arrAt 1 cfg0.N = transposedPast V c :=
  (dat0 V c).arrAt_eq_of_cover 1 (transposedPast V c) (fun t _ => flushed_eq V c t) blocks_cover

/-- After the region the output array is the transpose of the input array: result index `(B, S, h, d)` holds
    the input's element `(B, h, S, d)`. -/
theorem arrAt0_out (c : Dev nD) (i : S16x8192x16x128.Idx) :
    ((dat0 V c).arrAt 1 cfg0.N : S16x8192x16x128.Idx → Elt F .f32) i
      = (V c main_arg3 : S16x16x8192x128.Idx → Elt F .f32) (Cert.Spec.pastIdx i) := by
  exact congrFun (out_array_eq V c) i

end Cert.KernelIdeal.Hand

end
-- ==== Proof.KI_R1.lean ====
/-
  The second kernel region: a sixteen-point pipeline whose body, at point `b`, reads two words from the index
  tables — the cache position and the batch row of batch entry `b` — and copies the staged (1, 16, 16, 128) block
  of transposed new keys into the result array's window of sixteen sequence rows starting at that position in that
  batch row, waiting for the copy before it returns.  Nothing is in flight between points, so the invariant between
  points is the result array whole at the contents the points so far have left, beside the tables and the copy's
  semaphore at zero.  Stated at a parameter `V` (the buffers' contents when the region is entered) and at the
  tables' contents `a1`, under the hypothesis that the tables' words name windows inside the array.
-/
import proofs.«430957_j66529043415042_3_alg».proof.Proof.Gen.KernelIdeal.Launch
import proofs.«430957_j66529043415042_3_alg».proof.Proof.Gen.KernelIdeal.Skeleton
import proofs.«430957_j66529043415042_3_alg».proof.Proof.Gen.KernelIdeal.Points
import Idealize.ShloMosaic.Lib.Pipeline.FrameBody
import Idealize.ShloMosaic.Lib.Pipeline.Frame
import Idealize.ShloMosaic.Lib.Transfers
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- Memref `M`'s buffer on core `c`: its contents type, and it held whole at `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

/-- The two index tables (cache positions, batch rows) and the result array, as the body is handed them. -/
abbrev tbM0 : Memref sig .tc .smem S16 .i32 := Memref.whole main_call0_v1
abbrev tbM1 : Memref sig .tc .smem S16 .i32 := Memref.whole main_call0_v3
abbrev outM : Memref sig .tc .hbm S16x8192x16x128 .f32 := Memref.whole main_v0

/-- The word a table holds at the grid point's row. -/
abbrev wordAt (i : grid1.Coords) {c : Dev nD} (M : Memref sig .tc .smem S16 .i32) (t : Bf (F := F) c M) : Elt F .i32 :=
  M.view.readAt (Elt F) (Rect.unit (s := S16) (k1_off1 i) S1.size (k1_off1_inb i)).toLoadRect t (Shape.Idx.first (numel1_S1.symm ▸ Nat.one_pos))

/-- The window of the result array the body writes: sixteen sequence rows from `w0` on, in batch row `w1`. -/
abbrev dstM (w0 w1 : BitVec 32) (h : k1_chk1 w0 w1) : Memref sig .tc .hbm S1x16x16x128 .f32 :=
  outM.slice (Rect.unit (s := S16x8192x16x128) (k1_off2 w0 w1) S1x16x16x128.size (k1_off2_inb w0 w1 h)) (fun _ => rfl)

/-- The result array after one grid point: the block written into that window. -/
def step1 {c : Dev nD} (w0 w1 : BitVec 32) (h : k1_chk1 w0 w1) (fv : Bf (F := F) c outM) (x : Vec F S1x16x16x128 .f32) : Bf (F := F) c outM :=
  (dstM w0 w1 h).view.write (Elt F) fv x Finset.univ

set_option maxHeartbeats 1000000 in
/-- The body at one grid point: from the staged key block at `x0`, the tables at `t0`, `t1` (whose words at the
    point satisfy the window's in-range condition), the result array whole at `fv`, the copy's semaphore at zero: it
    ends with the block copied into the window the tables' words name, everything else as it was. -/
theorem kernelRun1 (c : Dev nD) (i : grid1.Coords) (arg3 : Memref sig .tc .vmem S1x16x16x128 .f32) (harg3 : arg3.IsWhole)
    (x0 : Vec F S1x16x16x128 .f32) (t0 : Bf (F := F) c tbM0) (t1 : Bf (F := F) c tbM1) (fv : Bf (F := F) c outM)
    (hchk : k1_chk1 (wordAt i tbM0 t0) (wordAt i tbM1 t1)) (W : Waits sig Unit) (K : PUnit → sProp 𝕄) :
    iprop(owns (c : Thread nD τ) arg3 fullShare x0 ∗ pt c tbM0 t0 ∗ pt c tbM1 t1 ∗ pt c outM fv
        ∗ semVal ((c : Thread nD τ), SemLoc.dma (6 : DmaSem sig)) 0 ∗ owes (c : Thread nD τ) 0 W
        ∗ (iprop(owns (c : Thread nD τ) arg3 fullShare x0 ∗ pt c tbM0 t0 ∗ pt c tbM1 t1
            ∗ pt c outM (step1 (wordAt i tbM0 t0) (wordAt i tbM1 t1) hchk fv x0)
            ∗ semVal ((c : Thread nD τ), SemLoc.dma (6 : DmaSem sig)) 0 ∗ (∃ W', owes (c : Thread nD τ) 0 W')) -∗ K ⟨⟩))
      ⊢ wp frame (wpE (defs₀ (F := F)) Variants.none c none) Set.univ
          (cc1_kernel i tbM0 (Memref.isWhole_whole _) tbM1 (Memref.isWhole_whole _) arg3 harg3 outM (Memref.isWhole_whole _) outM (Memref.isWhole_whole _) cc1_scratch0) K := by
  simp only [cc1_kernel_eq_skeleton]; unfold cc1_kernel_skel
  unfold owns
  iintro ⟨⟨%f0, %hf0, H0⟩, HT0, HT1, Hv, Hs, HO, Hk⟩
  subst hf0
  sl_exec (disch := sl_exact hchk)
  sl_step
  iapply Hk
  isplitl [H0]; · iexists f0; isplitr; (· ipureintro; rfl); iexact H0
  isplitl [HT0]; · iexact HT0
  isplitl [HT1]; · iexact HT1
  isplitl [Hv]; · iexact Hv
  isplitl [Hs]; · iexact Hs
  iexists _; iexact HO

/-! ## The second region's proof data, at a parameter `V` (the buffers' contents when the region is entered) and
    at the tables' contents `a1` -/

section Region1

variable (V : (c : Dev nD) → (b : Ref sig .tc) → Buf (Elt F) ((c : Thread nD τ).loc b))
variable (a1 : (pcfg1 (F := F)).Adm)

/-- The tables' contents, as the body's memrefs hold them. -/
abbrev tb0 (c : Dev nD) : Bf (F := F) c tbM0 := a1.1 0
abbrev tb1 (c : Dev nD) : Bf (F := F) c tbM1 := a1.1 1

/-- The tables' words name a window inside the result array, at every grid point. -/
def TblOk : Prop := ∀ (c : Dev nD) (i : grid1.Coords), k1_chk1 (wordAt i tbM0 (tb0 a1 c)) (wordAt i tbM1 (tb1 a1 c))

/-- The staged key block at point `t`, read off the staged keys' array as the region finds it. -/
def iblk1 (c : Dev nD) (w : Fin (cfg1 a1).W) (t : Fin (cfg1 a1).N) : (((cfg1 a1).win w).xblock ((cfg1 a1).grid.coords t)).Idx → Elt F ((cfg1 a1).win w).elt :=
  (((cfg1 a1).win w).blk t).view.read (Elt F) (V c (Pipeline.arrRef spec1 w))

variable (hT : TblOk a1)

/-- The result array after the first `n` grid points: point `n` writes its key block into the window its
    tables' words name, over what the points before left. -/
def acc (c : Dev nD) : Nat → Bf (F := F) c outM
  | 0 => V c main_v0
  | n + 1 =>
    if h : n < (cfg1 a1).N then
      step1 (wordAt (grid1.coords ⟨n, h⟩) tbM0 (tb0 a1 c)) (wordAt (grid1.coords ⟨n, h⟩) tbM1 (tb1 a1 c)) (hT c _) (acc c n) (iblk1 V a1 c 0 ⟨n, h⟩)
    else acc c n

theorem acc_succ (c : Dev nD) (t : Fin (cfg1 a1).N) :
    acc V a1 hT c (t.val + 1)
      = step1 (wordAt (grid1.coords t) tbM0 (tb0 a1 c)) (wordAt (grid1.coords t) tbM1 (tb1 a1 c)) (hT c _) (acc V a1 hT c t.val) (iblk1 V a1 c 0 t) := by
  show (if h : t.val < (cfg1 a1).N then _ else _) = _
  rw [dif_pos t.isLt]

/-- The kernel's own semaphore: the one its copy completes on. -/
abbrev osem1 : Fin 1 → SemLoc sig := fun j => (![SemLoc.dma 6] : Fin 1 → SemLoc sig) j
theorem ownSemFacts1 : Pipeline.OwnSemFacts spec1 osem1 := by decide
theorem ownSems01_eq (c : Dev nD) :
    (Pipeline.ownSems0 (Ix := Unit) (Name := ℕ) (U := Pipeline.UD sig nD τ) (Lvl := ℕ) (Val := Elt F) (τ := τ) osem1 c : sProp 𝕄)
      = iprop(semVal ((c : Thread nD τ), SemLoc.dma 6) 0) := by
  rw [Pipeline.ownSems0_eq_of_list c osem1 [0] (by decide) (by decide)]; rfl

/-- The tables held whole, table by table. -/
theorem prefHeld1_eq (c : Dev nD) :
    (Pipeline.prefHeld (Ix := Unit) (Name := ℕ) (U := Pipeline.UD sig nD τ) (Lvl := ℕ) pre1 c (fun _ => fullShare) a1.1 : sProp 𝕄)
      = iprop(pt c tbM0 (tb0 a1 c) ∗ pt c tbM1 (tb1 a1 c)) := by
  unfold Pipeline.prefHeld
  rw [show (Finset.univ : Finset (Fin 2)) = insert (0 : Fin 2) {(1 : Fin 2)} from by decide,
    bigSep_insert (by decide), bigSep_singleton]
  rfl

/-- The invariant between grid points: the tables, the result array at what the points so far left, the copy's
    semaphore at zero, the scoped buffers of the other region untouched. -/
def Φ1 (c : Dev nD) (n : Nat) : sProp 𝕄 :=
  iprop(pt c tbM0 (tb0 a1 c) ∗ pt c tbM1 (tb1 a1 c) ∗ pt c outM (acc V a1 hT c n)
    ∗ semVal ((c : Thread nD τ), SemLoc.dma (6 : DmaSem sig)) 0
    ∗ Pipeline.scopedRest (Ix := Unit) (Name := ℕ) (U := Pipeline.UD sig nD τ) (Lvl := ℕ) (Val := Elt F) spec1 c)

/-- The proof data of the second pipeline on core `c`. -/
def dat1 (c : Dev nD) : Dat τ (Elt F) Unit ℕ (Pipeline.UD sig nD τ) ℕ (cfg1 a1) c where
  A w := V c (Pipeline.arrRef spec1 w)
  after w t := match w with
    | ⟨0, _⟩ => iblk1 V a1 c 0 t
  Φ t := Φ1 V a1 hT c t.val
  q _ := fullShare
  owed _ := 0

theorem A_eq1 (c : Dev nD) (w : Fin (cfg1 a1).W) : (dat1 V a1 hT c).A w = V c (Pipeline.arrRef spec1 w) := by
  dsimp only [dat1]
theorem after1_0 (c : Dev nD) (t : Fin (cfg1 a1).N) : (dat1 V a1 hT c).after 0 t = iblk1 V a1 c 0 t := rfl

/-- The staged keys' buffer holds the point's block when the body runs. -/
theorem before1_0 (c : Dev nD) (t : Fin (cfg1 a1).N) (d) : (dat1 V a1 hT c).before 0 t d = iblk1 V a1 c 0 t :=
  ((dat1 V a1 hT c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)

end Region1

section Region1b

variable (V : (c : Dev nD) → (b : Ref sig .tc) → Buf (Elt F) ((c : Thread nD τ).loc b))
variable (a1 : (pcfg1 (F := F)).Adm) (hT : TblOk a1)

/-- The staged keys' current buffer at point `t`, and the body as the pipeline calls it there. -/
abbrev ms1_0 (t : Fin (cfg1 a1).N) : Memref sig .tc .vmem S1x16x16x128 .f32 := spec1_0.stage ((cfg1 a1).slots t 0)
abbrev hs1_0 (t : Fin (cfg1 a1).N) : (ms1_0 a1 t).IsWhole := hstage1_0 (((cfg1 a1).slots t 0).cast nbuf1_0)
abbrev bodyAt1 (t : Fin (cfg1 a1).N) : Prog (TpuEff nD τ sig (Elt F) Λ₀ .tc) PUnit :=
  cc1_kernel (grid1.coords t) tbM0 (Memref.isWhole_whole _) tbM1 (Memref.isWhole_whole _) (ms1_0 a1 t) (hs1_0 a1 t)
    outM (Memref.isWhole_whole _) outM (Memref.isWhole_whole _) cc1_scratch0

/-- What the body is called with at point `t`, and what it returns. -/
def bodyPre1 (c : Dev nD) (t : Fin (cfg1 a1).N) : sProp 𝕄 :=
  iprop((dat1 V a1 hT c).Φ t.castSucc ∗ (dat1 V a1 hT c).owesAt () t.castSucc
    ∗ (∃ d, owns (c : Thread nD τ) (ms1_0 a1 t) fullShare ((dat1 V a1 hT c).before 0 t d)))
def bodyPost1 (c : Dev nD) (t : Fin (cfg1 a1).N) : sProp 𝕄 :=
  iprop((dat1 V a1 hT c).Φ t.succ ∗ (dat1 V a1 hT c).owesAt () t.succ
    ∗ owns (c : Thread nD τ) (ms1_0 a1 t) fullShare ((dat1 V a1 hT c).after 0 t))

/-- The body at any point: the invariant hands it the tables, the result array and its semaphore; the run writes
    the point's block; the invariant is restored at the next count. -/
theorem sound_body1 (c : Dev nD) (t : Fin (cfg1 a1).N) :
    bodyPre1 V a1 hT c t ⊢ wp frame (wpE (defs₀ (F := F)) Variants.none c none) Set.univ (bodyAt1 a1 t) (fun _ => bodyPost1 V a1 hT c t) := by
  unfold bodyPre1 bodyPost1 bodyAt1
  simp only [before1_0]
  rw [after1_0]
  rw [show (dat1 V a1 hT c).Φ t.castSucc = Φ1 V a1 hT c t.val from rfl, show (dat1 V a1 hT c).Φ t.succ = Φ1 V a1 hT c (t.val + 1) from rfl]
  unfold Φ1 Dat.owesAt Pipeline.owesWithin
  rw [show (dat1 V a1 hT c).owed t.castSucc = 0 from rfl, show (dat1 V a1 hT c).owed t.succ = 0 from rfl, acc_succ]
  iintro ⟨⟨HT0, HT1, Hv, Hs, Hr⟩, ⟨%W, -, HO⟩, ⟨%d0, H0⟩⟩
  iapply (kernelRun1 c (grid1.coords t) (ms1_0 a1 t) (hs1_0 a1 t) (iblk1 V a1 c 0 t) (tb0 a1 c) (tb1 a1 c) (acc V a1 hT c t.val) (hT c _) W _)
  isplitl [H0]; · iexact H0
  isplitl [HT0]; · iexact HT0
  isplitl [HT1]; · iexact HT1
  isplitl [Hv]; · iexact Hv
  isplitl [Hs]; · iexact Hs
  isplitl [HO]; · iexact HO
  iintro ⟨H0, HT0, HT1, Hv, Hs, ⟨%W', HO⟩⟩
  isplitl [HT0 HT1 Hv Hs Hr]
  · isplitl [HT0]; · iexact HT0
    isplitl [HT1]; · iexact HT1
    isplitl [Hv]; · iexact Hv
    isplitl [Hs]; · iexact Hs
    iexact Hr
  isplitl [HO]
  · iexists W'; isplitr; · ipureintro; exact fun _ _ => Or.inl trivial
    iexact HO
  iexact H0

/-- The body obligation of the second pipeline, at every point. -/
theorem body_obligation1 (c : Dev nD) : BodyObligation (dat1 (F := F) V a1 hT c) (defs₀ (F := F)) Variants.none () Set.univ := fun t => by
  rw [bigSep_W1, bigSep_W1]
  exact sound_body1 V a1 hT c t

end Region1b

end Cert.KernelIdeal.Hand

end
-- ==== Proof.KI_Tables.lean ====
/-
  What the host operations before the first region leave in the buffers the regions read: the two index tables
  are the cache positions clamped into [0, 8176] and the batch rows clamped into [0, 15]; the staged keys are the
  head/sequence transpose of `key`; `past` is untouched.
-/
import proofs.«430957_j66529043415042_3_alg».proof.Proof.Gen.KernelIdeal.Regions
import proofs.«430957_j66529043415042_3_alg».proof.Proof.Clamp
import Idealize.ShloMosaic.Lib.ValueIdx
import Idealize.ShloMosaic.Lib.Pipeline.Value
import Idealize.ShloMosaic.Lib.StableHlo.Run

noncomputable section

namespace Cert.KernelIdeal.Hand

open Cert.KernelIdeal Cert.KernelIdeal.Gen
open Idealize.ShloMosaic Idealize.ShloMosaic.TcCoe Idealize.ShloMosaic.ValueIdx Idealize.SL.Sem

variable {F : FTy → Type} [FloatOps F]

variable (m : (ℓ : Loc nD τ sig) → Buf (Elt F) ℓ)

/-- The cache-position table: row `j` is `cache_id[j, 0]` clamped into [0, 8176]. -/
theorem V1_cacheTbl (c : Dev nD) (j : S16.Idx) :
    (V1 m c main_call0_v1 : S16.Idx → BitVec 32) j
      = Cert.Clamp.clamp 0#32 8176#32 ((m ((c : Thread nD τ).loc main_arg0) : S16x1.Idx → BitVec 32) (ix2 (j 0) 0)) := by
  have e : (V1 m c main_call0_v1 : S16.Idx → BitVec 32)
      = shapeCast S16 (minsi (broadcastInDim S16x1 ![] bcast_S_S16x1 (constantI S_ 32 8176#32))
          (maxsi (broadcastInDim S16x1 ![] bcast_S_S16x1 (constantI S_ 32 0#32))
            (m ((c : Thread nD τ).loc main_arg0) : S16x1.Idx → BitVec 32))) shapeCasts_S16x1_S16 := by
    dsimp only [V1, V0, hostOps0]; after_results; rfl
  refine (congrFun e j).trans ?_
  refine (shapeCast_apply _ shapeCasts_S16x1_S16 j (ix2 (j 0) 0) ?_).trans ?_
  · rw [Shape.rowMajor_val_two, Shape.rowMajor_val_one]
    show (j 0).val * 1 + 0 = (j 0).val
    omega
  · rfl

/-- The batch-row table: row `j` is `batch_id[j, 0]` clamped into [0, 15]. -/
theorem V1_batchTbl (c : Dev nD) (j : S16.Idx) :
    (V1 m c main_call0_v3 : S16.Idx → BitVec 32) j
      = Cert.Clamp.clamp 0#32 15#32 ((m ((c : Thread nD τ).loc main_arg1) : S16x1.Idx → BitVec 32) (ix2 (j 0) 0)) := by
  have e : (V1 m c main_call0_v3 : S16.Idx → BitVec 32)
      = shapeCast S16 (minsi (broadcastInDim S16x1 ![] bcast_S_S16x1 (constantI S_ 32 15#32))
          (maxsi (broadcastInDim S16x1 ![] bcast_S_S16x1 (constantI S_ 32 0#32))
            (m ((c : Thread nD τ).loc main_arg1) : S16x1.Idx → BitVec 32))) shapeCasts_S16x1_S16 := by
    dsimp only [V1, V0, hostOps0]; after_results; rfl
  refine (congrFun e j).trans ?_
  refine (shapeCast_apply _ shapeCasts_S16x1_S16 j (ix2 (j 0) 0) ?_).trans ?_
  · rw [Shape.rowMajor_val_two, Shape.rowMajor_val_one]
    show (j 0).val * 1 + 0 = (j 0).val
    omega
  · rfl

/-- The staged keys: element `(b, s, h, d)` is `key[b, h, s, d]`. -/
theorem V1_keyT (c : Dev nD) (i : S16x16x16x128.Idx) :
    (V1 m c main_call0_v4 : S16x16x16x128.Idx → Elt F .f32) i
      = (m ((c : Thread nD τ).loc main_arg2) : S16x16x16x128.Idx → Elt F .f32) (ix4 (i 0) (i 2) (i 1) (i 3)) := by
  have e : (V1 m c main_call0_v4 : S16x16x16x128.Idx → Elt F .f32)
      = transpose S16x16x16x128 [0, 2, 1, 3] (m ((c : Thread nD τ).loc main_arg2) : S16x16x16x128.Idx → Elt F .f32)
          transposes_S16x16x16x128_S16x16x16x128_0_2_1_3 := by
    dsimp only [V1, V0, hostOps0]; after_results; rfl
  refine (congrFun e i).trans ?_
  exact transpose_apply [0, 2, 1, 3] _ transposes_S16x16x16x128_S16x16x16x128_0_2_1_3 i (ix4 (i 0) (i 2) (i 1) (i 3))
    (fun b => match b with
      | ⟨0, _⟩ => rfl
      | ⟨1, _⟩ => rfl
      | ⟨2, _⟩ => rfl
      | ⟨3, _⟩ => rfl)

/-- `past` reaches the first region as launched. -/
theorem V1_past (c : Dev nD) : V1 m c main_arg3 = m ((c : Thread nD τ).loc main_arg3) :=
  (V1_of m c main_arg3 (by decide)).trans rfl

end Cert.KernelIdeal.Hand

end
-- ==== Proof.KI_Vals.lean ====
/-
  The valuations the two regions are entered at, the index tables' contents when the second region is entered,
  and the tables' words as naturals.
-/
import proofs.«430957_j66529043415042_3_alg».proof.Proof.KI_R0
import proofs.«430957_j66529043415042_3_alg».proof.Proof.KI_R1
import proofs.«430957_j66529043415042_3_alg».proof.Proof.KI_Tables
import proofs.«430957_j66529043415042_3_alg».proof.Proof.Gen.KernelIdeal.Regions

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)

variable {F : FTy → Type} [FloatOps F]

variable (m : (ℓ : Loc nD τ sig) → Buf (Elt F) ℓ)

/-- The buffers when the first region is entered: after the host prologue. -/
abbrev Ve1 : (c : Dev nD) → (b : Ref sig .tc) → Buf (Elt F) ((c : Thread nD τ).loc b) := fun c b => V1 m c b

/-- What the first region leaves in the intermediate array. -/
def arr0 (c : Dev nD) : Buf (Elt F) ((c : Thread nD τ).loc main_call0_v5) := (dat0 (Ve1 m) c).arrAt 1 cfg0.N

/-- The regions' results with the first region's only: the intermediate array after it. -/
def outs2 : Outs (F := F) := fun _ r c =>
  Function.update (V1 m c) (Proc.devRef .tc main_call0_v5) (arr0 m c) (Proc.devRef .tc r)

/-- The buffers when the second region is entered. -/
abbrev Ve3 : (c : Dev nD) → (b : Ref sig .tc) → Buf (Elt F) ((c : Thread nD τ).loc b) := fun c b => V3 m (outs2 m) c b

/-- The index tables' contents when the second region is entered. -/
def tbl : pre1.Contents (Elt F) := fun j => Ve3 m (0 : Dev nD) (pre1.ref j)
def adm1 : (pcfg1 (F := F)).Adm := ⟨tbl m, trivial⟩

/-- The tables' words as naturals: the clamped cache position and batch row of batch entry `b`. -/
def cacheN (c : Dev nD) (b : Fin 16) : Nat :=
  (Cert.Clamp.clamp 0#32 8176#32 ((m ((c : Thread nD τ).loc main_arg0) : S16x1.Idx → BitVec 32) (ix2 b 0))).toNat
def batchN (c : Dev nD) (b : Fin 16) : Nat :=
  (Cert.Clamp.clamp 0#32 15#32 ((m ((c : Thread nD τ).loc main_arg1) : S16x1.Idx → BitVec 32) (ix2 b 0))).toNat

end Cert.KernelIdeal.Hand

end
-- ==== Proof.KI_TblOk.lean ====
/-
  The index tables' words name windows inside the result array: a clamped cache position is at most 8176, so
  its sixteen rows end by row 8192; a clamped batch row is at most 15.
-/
import proofs.«430957_j66529043415042_3_alg».proof.Proof.KI_Vals

noncomputable section

namespace Cert.KernelIdeal.Hand

open Cert.KernelIdeal Cert.KernelIdeal.Gen
open Idealize.ShloMosaic Idealize.ShloMosaic.TcCoe Idealize.ShloMosaic.ValueIdx
open Idealize.SL.Sem

variable {F : FTy → Type} [FloatOps F]

variable (m : (ℓ : Loc nD τ sig) → Buf (Elt F) ℓ)

/-- The one index of the unit rectangle at offset `k` of a sixteen-entry table is entry `k`. -/
theorem unit_idx_eq (k : Fin 16) (off : Fin 1 → Nat) (hoff : off 0 = k.val) (inb : ∀ a, off a + S1.size a ≤ S16.size a)
    (h1 : 0 < S1.numel) : (Rect.unit (s := S16) off S1.size inb).idx (Shape.Idx.first h1) = ValueIdx.ix1 k := by
  funext a
  match a with
  | ⟨0, _⟩ =>
    apply Fin.ext
    show off 0 + 1 * (Shape.Idx.first h1 (0 : Fin 1)).val = k.val
    have h : (Shape.Idx.first h1 (0 : Fin 1)).val = 0 := rfl
    rw [h, hoff]; omega

/-- The offset the body reads the tables at is the grid coordinate: a coordinate below 16 is its own 32-bit word's value. -/
theorem off1_zero (i : grid1.Coords) : k1_off1 i 0 = (i 0).val := by
  have h : (i 0).val < 16 := (i 0).isLt
  show (BitVec.ofNat 32 (i 0).val).toNat = (i 0).val
  rw [BitVec.toNat_ofNat]; omega

/-- Whatever the cache table holds, its word at grid point `i` is its entry `i 0`. -/
theorem wordAt0_apply (c : Dev nD) (i : grid1.Coords) (t : Bf (F := F) c tbM0) :
    wordAt i tbM0 t = (t : S16.Idx → BitVec 32) (ValueIdx.ix1 ⟨(i 0).val, (i 0).isLt⟩) :=
  congrArg (t : S16.Idx → BitVec 32)
    (unit_idx_eq ⟨(i 0).val, (i 0).isLt⟩ (k1_off1 i) (off1_zero i) (k1_off1_inb i) (numel1_S1.symm ▸ Nat.one_pos))

/-- Whatever the batch table holds, its word at grid point `i` is its entry `i 0`. -/
theorem wordAt1_apply (c : Dev nD) (i : grid1.Coords) (t : Bf (F := F) c tbM1) :
    wordAt i tbM1 t = (t : S16.Idx → BitVec 32) (ValueIdx.ix1 ⟨(i 0).val, (i 0).isLt⟩) :=
  congrArg (t : S16.Idx → BitVec 32)
    (unit_idx_eq ⟨(i 0).val, (i 0).isLt⟩ (k1_off1 i) (off1_zero i) (k1_off1_inb i) (numel1_S1.symm ▸ Nat.one_pos))

/-- The cache table as the second region finds it is the one the host prologue left: neither the first region nor
    the host stretch between the regions writes it. -/
theorem tb0_eq : tb0 (adm1 m) (0 : Dev nD) = V1 m 0 main_call0_v1 := by
  unfold tb0 adm1 tbl
  dsimp only [Ve3]
  exact (V3_of m (outs2 m) 0 main_call0_v1 (by decide)).trans (V2_of m (outs2 m) 0 main_call0_v1 (by decide))

/-- Likewise the batch table. -/
theorem tb1_eq : tb1 (adm1 m) (0 : Dev nD) = V1 m 0 main_call0_v3 := by
  unfold tb1 adm1 tbl
  dsimp only [Ve3]
  exact (V3_of m (outs2 m) 0 main_call0_v3 (by decide)).trans (V2_of m (outs2 m) 0 main_call0_v3 (by decide))

/-- The cache table's word at grid point `i` is the clamped cache position of batch entry `i 0`. -/
theorem word0_eq (c : Dev nD) (i : grid1.Coords) :
    wordAt i tbM0 (tb0 (adm1 m) c) = Cert.Clamp.clamp 0#32 8176#32 ((m ((c : Thread nD τ).loc main_arg0) : S16x1.Idx → BitVec 32) (ix2 ⟨(i 0).val, (i 0).isLt⟩ 0)) := by
  obtain rfl : c = 0 := Subsingleton.elim _ _
  refine (wordAt0_apply 0 i _).trans ?_
  refine (congrFun (tb0_eq m) _).trans ?_
  exact V1_cacheTbl m 0 (ValueIdx.ix1 ⟨(i 0).val, (i 0).isLt⟩)

/-- The batch table's word at grid point `i` is the clamped batch row of batch entry `i 0`. -/
theorem word1_eq (c : Dev nD) (i : grid1.Coords) :
    wordAt i tbM1 (tb1 (adm1 m) c) = Cert.Clamp.clamp 0#32 15#32 ((m ((c : Thread nD τ).loc main_arg1) : S16x1.Idx → BitVec 32) (ix2 ⟨(i 0).val, (i 0).isLt⟩ 0)) := by
  obtain rfl : c = 0 := Subsingleton.elim _ _
  refine (wordAt1_apply 0 i _).trans ?_
  refine (congrFun (tb1_eq m) _).trans ?_
  exact V1_batchTbl m 0 (ValueIdx.ix1 ⟨(i 0).val, (i 0).isLt⟩)

/-- A cache position at most 8176 and a batch row at most 15 name a (1, 16, 16, 128) window inside the
    (16, 8192, 16, 128) array. -/
theorem chk_of_le (w0 w1 : BitVec 32) (h0 : w0.toNat ≤ 8176) (h1 : w1.toNat ≤ 15) : k1_chk1 w0 w1 := by
  intro a
  match a with
  | ⟨0, _⟩ => show w1.toNat + 1 ≤ 16; omega
  | ⟨1, _⟩ => show w0.toNat + 16 ≤ 8192; omega
  | ⟨2, _⟩ => show 0 + 16 ≤ 16; omega
  | ⟨3, _⟩ => show 0 + 128 ≤ 128; omega

/-- Every window the tables name lies inside the result array. -/
theorem tblOk : TblOk (adm1 m) := by
  unfold TblOk
  intro c i
  have e0 : (8176#32 : BitVec 32).toNat = 8176 := by decide
  have e1 : (15#32 : BitVec 32).toNat = 15 := by decide
  refine chk_of_le _ _ ?_ ?_
  · rw [word0_eq m c i]
    have h := Cert.Clamp.clamp_le 8176#32 (by decide) ((m ((c : Thread nD τ).loc main_arg0) : S16x1.Idx → BitVec 32) (ix2 ⟨(i 0).val, (i 0).isLt⟩ 0))
    rw [e0] at h; exact h
  · rw [word1_eq m c i]
    have h := Cert.Clamp.clamp_le 15#32 (by decide) ((m ((c : Thread nD τ).loc main_arg1) : S16x1.Idx → BitVec 32) (ix2 ⟨(i 0).val, (i 0).isLt⟩ 0))
    rw [e1] at h; exact h

end Cert.KernelIdeal.Hand

end
-- ==== Proof.KI_Run.lean ====
/-
  The whole program's run: the host prologue, the first region (the transposing copy of `past` into the
  intermediate array), the host copy of that array into the result's buffer, and the second region (the sixteen
  block writes into the result).  Between two items every unscoped buffer is held whole at a valuation — the launch
  contents, then what each host stretch computes, then what each region leaves in the one buffer it writes — and
  the end reads the result's buffer and the argument arrays off the last valuation.
-/
import proofs.«430957_j66529043415042_3_alg».proof.Proof.KI_Vals
import proofs.«430957_j66529043415042_3_alg».proof.Proof.KI_TblOk
import proofs.«430957_j66529043415042_3_alg».proof.Proof.KI_RunCond
import Idealize.ShloMosaic.Lib.Pipeline.RegionsLoop

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## What the regions leave, and the proof data family -/

/-- What the second region leaves in the result's buffer: the array after all sixteen points. -/
def fin1 (c : Dev nD) : Buf (Elt F) ((c : Thread nD τ).loc main_v0) := acc (Ve3 m) (adm1 m) (tblOk m) c (cfg1 (adm1 m)).N

/-- The regions' results: the intermediate array after the first region, the result array after the second. -/
def outs : Outs (F := F) := fun J r c =>
  if J = 4 then Function.update (V3 m (outs2 m) c) (Proc.devRef .tc main_v0) (fin1 m c) (Proc.devRef .tc r)
  else outs2 m J r c

theorem outs_at2 (c : Dev nD) : outs m 2 main_call0_v5 c = outs2 m 2 main_call0_v5 c := by
  unfold outs; exact if_neg (by decide)
theorem outs2_v5 (c : Dev nD) : outs2 m 2 main_call0_v5 c = arr0 m c := by
  unfold outs2; exact Function.update_self ..
theorem outs_2 (c : Dev nD) : outs m 2 main_call0_v5 c = arr0 m c := (outs_at2 m c).trans (outs2_v5 m c)
theorem outs_4 (c : Dev nD) : outs m 4 main_v0 c = fin1 m c := by
  unfold outs; rw [if_pos rfl]; exact Function.update_self ..

/-- The valuations before the second region do not depend on what the second region leaves. -/
theorem V2_outs (c : Dev nD) : V2 m (outs m) c = V2 m (outs2 m) c := by
  dsimp only [V2]; rw [outs_at2]
theorem V3_outs (c : Dev nD) : V3 m (outs m) c = V3 m (outs2 m) c := by
  dsimp only [V3]; rw [V2_outs]

/-- The tables' admissible contents, per pipeline. -/
abbrev adm : (p : Fin 2) → (pcfgs (F := F) p).Adm
  | ⟨0, _⟩ => cfg0.toPCfg_adm
  | ⟨1, _⟩ => adm1 m

/-- Every pipeline's proof data, each at its region's entry contents. -/
def pdats : (p : Fin 2) → (c : Dev nD) → Dat τ (Elt F) Unit ℕ (Pipeline.UD sig nD τ) ℕ (Pipeline.pin (pcfgs (F := F)) (adm m) p) c
  | ⟨0, _⟩ => fun c => dat0 (Ve1 m) c
  | ⟨1, _⟩ => fun c => dat1 (Ve3 m) (adm1 m) (tblOk m) c

abbrev 𝒱₀ : Variants := Variants.none
abbrev L : GSem nD τ sig → Finset Unit := fun _ => ∅
abbrev lv : GSem nD τ sig → Unit → ℕ := fun _ _ => 0

/-- What rides beside the buffers through every item: the generator register at some state, and the core owing
    nothing. -/
abbrev R (c : Dev nD) : sProp 𝕄 := iprop((∃ r, prngReg c r) ∗ ∃ W, owes (c : Thread nD τ) (0 : CellTallies nD τ sig Unit) W)
abbrev E : Fin 3 → Dev nD → sProp 𝕄 := fun _ c => R c

end Cert.KernelIdeal.Hand

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The first region as a segment -/

/-- At the first region's exit its arrays hold what the pipeline leaves — `past` as entered, the intermediate array
    at `arr0` — and every other buffer what it held at entry. -/
theorem hF0 (c : Dev nD) (w : Fin cfg0.W) : (dat0 (Ve1 m) c).arrAt w cfg0.N = V2 m (outs m) c (Pipeline.arrRef spec0 w) := by
  match w with
  | ⟨0, _⟩ =>
    refine (arrAt0_in (Ve1 m) c).trans ?_
    exact (V2_of m (outs m) c main_arg3 (by decide)).symm
  | ⟨1, _⟩ =>
    have h1 : V2 m (outs m) c main_call0_v5 = outs m 2 main_call0_v5 c := by dsimp only [V2]; exact Function.update_self ..
    exact (outs_2 m c).symm.trans h1.symm
theorem hrest0 (c : Dev nD) : ∀ b, b ∉ Finset.univ.image (Pipeline.arrRef spec0) → V2 m (outs m) c b = V1 m c b := fun b hb =>
  V2_of m (outs m) c b (by
    intro h
    refine hb (Finset.mem_image.mpr ⟨1, Finset.mem_univ _, ?_⟩)
    simp only [List.mem_cons, List.not_mem_nil, or_false] at h
    exact h.symm)

set_option backward.isDefEq.respectTransparency.types false in
/-- The first region over the thread states: entered from every unscoped buffer at the prologue's valuation, left
    at that valuation with the intermediate array updated. -/
def reg0 : RegionSeg (pcfgs (F := F)) (adm m) (pdats m) () defs₀ 𝒱₀ L lv 0 where
  win := (launch0 (F := F)).win.to₀
  block_pos := (launch0 (F := F)).block_pos
  stage_whole := (launch0 (F := F)).stage_whole
  K := PEmpty
  osem k := k.elim
  ho := Pipeline.OwnSemFacts.none _
  hbody c := (body_obligation0 (Ve1 m) c).loose
  hwaits := Pipeline.hwaits_of_owed_zero _ _ _ _ L lv 0 fun _ _ => rfl
  pre c := iprop(StableHlo.held (c : Thread nD τ) (Pipeline.ucRefs τ sig) (V1 m c) ∗ R c)
  post c := iprop(StableHlo.held (c : Thread nD τ) (Pipeline.ucRefs τ sig) (V2 m (outs m) c) ∗ R c)
  X c := iprop(∃ r, prngReg c r)
  Y c := iprop(∃ r, prngReg c r)
  Z c := Pipeline.unscopedRest (Ix := Unit) (Name := ℕ) (U := Pipeline.UD sig nD τ) (Lvl := ℕ) spec0 c (Ve1 m c)
  hentry c := by
    rw [Pipeline.ownSems0_none]
    have hsplit := Pipeline.arrays_of_unscopedBufs (p := 0) (pcfgs (F := F)) (adm m) (pdats m) (launch0 (F := F)).win (launch0 (F := F)).arr_whole c
      ((pdats m 0 c).share_full fun _ => rfl) (Ve1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) (adm m) (Ix := Unit) (Name := ℕ) (U := Pipeline.UD sig nD τ) (Lvl := ℕ)
      (launch0 (F := F)).win (launch0 (F := F)).arr_whole c (pdats m) ((pdats m 0 c).share_full fun _ => rfl)
      (Ve1 m c) (fun b => V2 m (outs m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The second region as a segment -/

/-- The unscoped buffers the second region's body handles itself: the two tables and the result array. -/
def H1 : Finset (Ref sig .tc) := {main_call0_v1, main_call0_v3, main_v0}
theorem H1_sub : H1 ⊆ Pipeline.restRefs sig spec1 := by decide
theorem H1_pts (c : Dev nD) (W : (b : Ref sig .tc) → Buf (Elt F) ((c : Thread nD τ).loc b)) :
    (bigSep H1 (fun b => ((c : Thread nD τ).loc b) ↦{fullShare} W b) : sProp 𝕄)
      = iprop(pt c tbM0 (W main_call0_v1) ∗ pt c tbM1 (W main_call0_v3) ∗ pt c outM (W main_v0)) := by
  rw [BI.bigSep_eq_bigSepL_of_eq [main_call0_v1, main_call0_v3, main_v0] (by decide) (by decide)]; rfl

/-- The tables when the second region is entered are the contents its pipeline is pinned at. -/
theorem Ve3_tb0 (c : Dev nD) : Ve3 m c main_call0_v1 = tb0 (adm1 m) c := by
  obtain rfl : c = 0 := Subsingleton.elim _ _
  dsimp only [tb0, adm1, tbl]
  rfl
theorem Ve3_tb1 (c : Dev nD) : Ve3 m c main_call0_v3 = tb1 (adm1 m) c := by
  obtain rfl : c = 0 := Subsingleton.elim _ _
  dsimp only [tb1, adm1, tbl]
  rfl

/-- The last valuation at the buffers the second region's body handles, and off the result's buffer. -/
theorem V4_ne (c : Dev nD) (b : Ref sig .tc) (h : b ∉ ([main_v0] : List (Ref sig .tc))) : V4 m (outs m) c b = Ve3 m c b :=
  (V4_of m (outs m) c b h).trans (congrFun (V3_outs m c) _)
theorem V4_out (c : Dev nD) : V4 m (outs m) c main_v0 = fin1 m c :=
  (Function.update_self ..).trans (outs_4 m c)

theorem hF1 (c : Dev nD) (w : Fin (cfg1 (adm1 m)).W) :
    (dat1 (Ve3 m) (adm1 m) (tblOk m) c).arrAt w (cfg1 (adm1 m)).N = V4 m (outs m) c (Pipeline.arrRef spec1 w) := by
  match w with
  | ⟨0, _⟩ =>
    refine ((dat1 (Ve3 m) (adm1 m) (tblOk m) c).arrAt_in 0 rfl _).trans ?_
    refine (A_eq1 (Ve3 m) (adm1 m) (tblOk m) c 0).trans ?_
    exact (V4_ne m c main_call0_v4 (by decide)).symm

/-- The rest of the unscoped buffers is the same at the last valuation as when the second region was entered. -/
theorem rest_congr (c : Dev nD) :
    (bigSep (Pipeline.restRefs sig spec1 \ H1) (fun b => ((c : Thread nD τ).loc b) ↦{fullShare} V4 m (outs m) c b) : sProp 𝕄)
      = bigSep (Pipeline.restRefs sig spec1 \ H1) (fun b => ((c : Thread nD τ).loc b) ↦{fullShare} Ve3 m c b) :=
  bigSep_congr fun b hb => by
    rw [V4_ne m c b (by
      intro h
      simp only [List.mem_cons, List.not_mem_nil, or_false] at h
      subst h
      exact (Finset.mem_sdiff.mp hb).2 (by decide))]

set_option backward.isDefEq.respectTransparency.types false in
/-- The second region over the thread states: entered from every unscoped buffer at the valuation after the host
    copy, left at that valuation with the result's buffer at what the sixteen points leave. The tables and the
    result's buffer go through the body's invariant; the other buffers bypass the region. -/
def reg1 : RegionSeg (pcfgs (F := F)) (adm m) (pdats m) () defs₀ 𝒱₀ L lv 1 where
  win := (launch1 (F := F)).win.to₀
  block_pos := (launch1 (F := F)).block_pos
  stage_whole := (launch1 (F := F)).stage_whole
  K := Fin 1
  osem := osem1
  ho := ownSemFacts1
  hbody c := (body_obligation1 (Ve3 m) (adm1 m) (tblOk m) c).loose
  hwaits := Pipeline.hwaits_of_owed_zero _ _ _ _ L lv 1 fun _ _ => rfl
  pre c := iprop(StableHlo.held (c : Thread nD τ) (Pipeline.ucRefs τ sig) (V3 m (outs m) c) ∗ R c)
  post c := iprop(StableHlo.held (c : Thread nD τ) (Pipeline.ucRefs τ sig) (V4 m (outs m) c) ∗ R c)
  X c := iprop(pt c outM (Ve3 m c main_v0) ∗ semVal ((c : Thread nD τ), SemLoc.dma (6 : DmaSem sig)) 0)
  Y c := iprop(pt c tbM0 (tb0 (adm1 m) c) ∗ pt c tbM1 (tb1 (adm1 m) c) ∗ pt c outM (fin1 m c))
  Z c := iprop((∃ r, prngReg c r) ∗ bigSep (Pipeline.restRefs sig spec1 \ H1) fun b => ((c : Thread nD τ).loc b) ↦{fullShare} Ve3 m c b)
  hentry c := by
    rw [ownSems01_eq, V3_outs]
    have hsplit := Pipeline.arrays_of_unscopedBufs (p := 1) (pcfgs (F := F)) (adm m) (pdats m) (launch1 (F := F)).win (launch1 (F := F)).arr_whole c
      ((pdats m 1 c).share_full fun _ => rfl) (Ve3 m c) fun _ => rfl
    rw [Pipeline.unscopedBufs_held] at hsplit
    have hH := Pipeline.unscopedRest_sdiff (nD := nD) (τ := τ) (Val := Elt F) spec1 H1 H1_sub c (Ve3 m c)
    rw [H1_pts, Ve3_tb0, Ve3_tb1] at hH
    iintro ⟨⟨Hub, Hp, HO⟩, Hos, -⟩
    ihave H := hsplit $$ Hub
    icases H with ⟨Ha, Hrest⟩
    ihave H' := (Entails.of_eq hH) $$ Hrest
    icases H' with ⟨⟨HT0, HT1, Hv⟩, HR⟩
    imodintro
    isplitl [Ha]; · iexact Ha
    isplitl [HT0 HT1]
    · iapply (Entails.of_eq (prefHeld1_eq (adm1 m) c).symm)
      isplitl [HT0]; · iexact HT0
      iexact HT1
    isplitl [HO]
    · unfold Pipeline.Dat.owesAt Pipeline.owesWithin
      icases HO with ⟨%W, HO⟩; iexists W; isplitr; · ipureintro; exact fun _ _ => Or.inl trivial
      iexact HO
    isplitl [Hv Hos]
    · isplitl [Hv]; · iexact Hv
      iexact Hos
    isplitl [Hp]; · iexact Hp
    iexact HR
  hin c := by
    rw [show (pdats m 1 c).Φ 0 = Φ1 (Ve3 m) (adm1 m) (tblOk m) c 0 from rfl]; unfold Φ1
    iintro ⟨⟨Hv, Hos⟩, HT, Hr⟩
    ihave HT' := (Entails.of_eq (prefHeld1_eq (adm1 m) c)) $$ HT
    icases HT' with ⟨HT0, HT1⟩
    isplitl [HT0]; · iexact HT0
    isplitl [HT1]; · iexact HT1
    isplitl [Hv]; · iexact Hv
    isplitl [Hos]; · iexact Hos
    iexact Hr
  hout c := by
    rw [ownSems01_eq, show (pdats m 1 c).Φ (Fin.last _) = Φ1 (Ve3 m) (adm1 m) (tblOk m) c (cfg1 (adm1 m)).N from rfl]; unfold Φ1
    iintro ⟨HT0, HT1, Hv, Hos, Hr⟩
    isplitl [HT0 HT1 Hv]
    · isplitl [HT0]; · iexact HT0
      isplitl [HT1]; · iexact HT1
      iexact Hv
    isplitl [Hos]; · iexact Hos
    iexact Hr
  hexit c := by
    have hjoin := Pipeline.unscopedBufs_of_arrays (p := 1) (pcfgs (F := F)) (adm m) (Ix := Unit) (Name := ℕ) (U := Pipeline.UD sig nD τ) (Lvl := ℕ)
      (launch1 (F := F)).win (launch1 (F := F)).arr_whole c (pdats m) ((pdats m 1 c).share_full fun _ => rfl)
      (fun b => V4 m (outs m) c b) (fun b => V4 m (outs m) c b) ((pdats m 1 c).arrAt · (cfg1 (adm1 m)).N) (hF1 m c) (fun _ _ => rfl)
    rw [Pipeline.unscopedBufs_held] at hjoin
    have hH := Pipeline.unscopedRest_sdiff (nD := nD) (τ := τ) (Val := Elt F) spec1 H1 H1_sub c (fun b => V4 m (outs m) c b)
    rw [H1_pts, rest_congr, V4_ne m c main_call0_v1 (by decide), V4_ne m c main_call0_v3 (by decide), V4_out, Ve3_tb0, Ve3_tb1] at hH
    iintro ⟨Ha, HO, ⟨HT0, HT1, Hv⟩, ⟨Hp, HR⟩⟩
    ihave Hrest := (Entails.of_eq hH.symm) $$ [HT0 HT1 Hv HR]
    · isplitl [HT0 HT1 Hv]
      · isplitl [HT0]; · iexact HT0
        isplitl [HT1]; · iexact HT1
        iexact Hv
      iexact HR
    imodintro
    isplitl [Ha Hrest]
    · iapply hjoin; isplitl [Ha] <;> iassumption
    isplitl [Hp]; · iexact Hp
    unfold Pipeline.Dat.owesAt Pipeline.owesWithin
    icases HO with ⟨%W, -, HO⟩; iexists W; iexact HO

end Cert.KernelIdeal.Hand

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The launch -/

set_option backward.isDefEq.respectTransparency.types false in
/-- From any memory with zero counters every weakly fair execution terminates; the result's buffer ends at what the
    last valuation holds there and the argument arrays end as launched. -/
theorem run_last : θ_run defs (onTc (τ := τ) (main (F := F))) ⟨m, fun _ => 0, ρ⟩ (fun r => ∀ c : Dev nD,
      r.2.mem ((c.tc : Thread nD τ).loc main_v0) = V4 m (outs m) c main_v0
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine run_cond m embL () 𝒱₀ L lv (fun _ _ => rfl) ρ (outs m) (adm m) (pdats m) 0 (fun _ => iprop(emp))
    (initOf (Pipeline.cells (Pipeline.pin (pcfgs (F := F)) (adm m)) (cellOf_inj (adm m))) (Pipeline.launchToks (Pipeline.pin (pcfgs (F := F)) (adm m)) (cellOf_inj (adm m))), 1)
    ?hu E ?hE0 ?hE2 (reg0 m) (fun _ => .rfl) (fun _ => .rfl) (reg1 m) (fun _ => .rfl) (fun _ => .rfl)
  case hu =>
    iintro Hu
    ihave H := (ownU_pair _ _) $$ Hu
    icases H with ⟨HP, -⟩
    imodintro
    isplitl [HP]; · iexact HP
    iapply (show (BI.emp : sProp 𝕄) ⊢ bigSep Finset.univ (fun _ : Dev nD => (BI.emp : sProp 𝕄)) from by rw [BI.bigSep_emp_const])
    iempintro
  case hE0 =>
    refine Pipeline.initEach L lv fun c => ?_
    iintro ⟨⟨-, HO, -, Hp, -⟩, -⟩
    imodintro
    isplitl [Hp]; · iexists _; iexact Hp
    iexists ∅; iexact HO
  case hE2 =>
    intro c
    iintro ⟨-, HO⟩
    iexact HO

/-- The same, the result's buffer named: it ends at what the second region leaves in it. -/
theorem run_main : θ_run defs (onTc (τ := τ) (main (F := F))) ⟨m, fun _ => 0, ρ⟩ (fun r => ∀ c : Dev nD,
      r.2.mem ((c.tc : Thread nD τ).loc main_v0) = fin1 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h c).1.trans (V4_out m c), (h c).2⟩) (run_last m ρ)

end Cert.KernelIdeal.Hand

end
-- ==== Proof.KI_Value.lean ====
/-
  The result array after the second region is the common specification: the array the second region is entered
  with is the transpose of `past`, and grid point `b` overwrites exactly the positions `Spec.Hit` names for
  write `b`, with the transposed new keys of batch entry `b`.
-/
import proofs.«430957_j66529043415042_3_alg».proof.Proof.KI_Vals
import proofs.«430957_j66529043415042_3_alg».proof.Proof.KI_TblOk
import proofs.«430957_j66529043415042_3_alg».proof.Proof.Spec

noncomputable section

namespace Cert.KernelIdeal.Hand

open Cert.KernelIdeal Cert.KernelIdeal.Gen
open Idealize.ShloMosaic Idealize.ShloMosaic.TcCoe Idealize.ShloMosaic.ValueIdx
open Idealize.SL.Sem

variable {F : FTy → Type} [FloatOps F]

variable (m : (ℓ : Loc nD τ sig) → Buf (Elt F) ℓ)

/-! ## The array the second region is entered with -/

/-- Before any grid point the result array is what the first region left in the intermediate array: the one
    host operation between the regions copies it. -/
theorem acc_zero_eq (hT : TblOk (adm1 m)) (c : Dev nD) :
    (acc (Ve3 m) (adm1 m) hT c 0 : S16x8192x16x128.Idx → Elt F .f32) = (arr0 m c : S16x8192x16x128.Idx → Elt F .f32) := by
  show (V3 m (outs2 m) c main_v0 : S16x8192x16x128.Idx → Elt F .f32) = _
  have e : (V3 m (outs2 m) c main_v0 : S16x8192x16x128.Idx → Elt F .f32)
      = (V2 m (outs2 m) c main_call0_v5 : S16x8192x16x128.Idx → Elt F .f32) := by
    dsimp only [V3, hostOps1]; after_results; rfl
  rw [e]
  show Function.update (V1 m c) (Proc.devRef .tc main_call0_v5) (outs2 m 2 main_call0_v5 c) (Proc.devRef .tc main_call0_v5) = _
  rw [Function.update_self]
  unfold outs2
  rw [Function.update_self]

/-- That array is the transpose of `past`: index `(B, S, h, d)` holds `past (B, h, S, d)`. -/
theorem arr0_apply (c : Dev nD) (i : S16x8192x16x128.Idx) :
    (arr0 m c : S16x8192x16x128.Idx → Elt F .f32) i
      = (m ((c : Thread nD τ).loc main_arg3) : S16x16x8192x128.Idx → Elt F .f32) (Cert.Spec.pastIdx i) := by
  unfold arr0
  refine (arrAt0_out (Ve1 m) c i).trans ?_
  exact congrFun (V1_past m c) (Cert.Spec.pastIdx i)

/-! ## One grid point's write, read at an index -/

/-- Inside the window — batch row `w1`, sequence row `w0 + r` — the written array holds the block at `(0, r, h, d)`. -/
theorem step1_hit {c : Dev nD} (w0 w1 : BitVec 32) (hw : k1_chk1 w0 w1) (fv : Bf (F := F) c outM) (x : Vec F S1x16x16x128 .f32)
    (i : S16x8192x16x128.Idx) (r : Fin 16) (h0 : (i 0).val = w1.toNat) (h1 : (i 1).val = w0.toNat + r.val) :
    (step1 w0 w1 hw fv x : S16x8192x16x128.Idx → Elt F .f32) i = x (ix4 0 r (i 2) (i 3)) := by
  unfold step1
  have hi : (Rect.unit (s := S16x8192x16x128) (k1_off2 w0 w1) S1x16x16x128.size (k1_off2_inb w0 w1 hw)).emb (ix4 0 r (i 2) (i 3)) = i := by
    funext a; apply Fin.ext
    rw [Rect.emb_apply]
    match a with
    | ⟨0, _⟩ => show w1.toNat + 1 * 0 = (i 0).val; omega
    | ⟨1, _⟩ => show w0.toNat + 1 * r.val = (i 1).val; omega
    | ⟨2, _⟩ => show 0 + 1 * (i 2).val = (i 2).val; omega
    | ⟨3, _⟩ => show 0 + 1 * (i 3).val = (i 3).val; omega
  have e := View.read_slice_write_emb (v := View.whole main_v0) (Val := Elt F)
    (Rect.unit (s := S16x8192x16x128) (k1_off2 w0 w1) S1x16x16x128.size (k1_off2_inb w0 w1 hw)) fv x
    (M := Finset.univ) (Finset.mem_univ (ix4 0 r (i 2) (i 3)))
  exact (congrArg (View.write (Elt F) (dstM w0 w1 hw).view fv x Finset.univ) hi).symm.trans e

/-- Outside the window the written array holds what it held. -/
theorem step1_miss {c : Dev nD} (w0 w1 : BitVec 32) (hw : k1_chk1 w0 w1) (fv : Bf (F := F) c outM) (x : Vec F S1x16x16x128 .f32)
    (i : S16x8192x16x128.Idx)
    (hmiss : ¬((i 0).val = w1.toNat ∧ w0.toNat ≤ (i 1).val ∧ (i 1).val < w0.toNat + 16)) :
    (step1 w0 w1 hw fv x : S16x8192x16x128.Idx → Elt F .f32) i = (fv : S16x8192x16x128.Idx → Elt F .f32) i := by
  unfold step1
  refine View.read_slice_write_of_not_mem (v := View.whole main_v0) (Val := Elt F)
    (Rect.unit (s := S16x8192x16x128) (k1_off2 w0 w1) S1x16x16x128.size (k1_off2_inb w0 w1 hw)) fv x Finset.univ (y := i) ?_
  rw [Rect.map_emb_univ, Rect.mem_set_unit]
  intro hm
  have a0 : w1.toNat ≤ (i 0).val ∧ (i 0).val < w1.toNat + 1 := hm 0
  have a1 : w0.toNat ≤ (i 1).val ∧ (i 1).val < w0.toNat + 16 := hm 1
  exact hmiss ⟨by omega, a1.1, a1.2⟩

/-! ## The staged key block at a grid point -/

/-- Grid point `t` of the second region stages block `(t, 0, 0, 0)` of the staged keys, and its one grid
    coordinate is `t`. -/
theorem key_index_facts : ∀ t : Fin grid1.N,
    cc1_transform_0 (grid1.coords t) (0 : Fin 4) = t.val ∧ cc1_transform_0 (grid1.coords t) (1 : Fin 4) = 0
    ∧ cc1_transform_0 (grid1.coords t) (2 : Fin 4) = 0 ∧ cc1_transform_0 (grid1.coords t) (3 : Fin 4) = 0
    ∧ ((grid1.coords t) 0).val = t.val := by
  decide +kernel

/-- So its element `(0, r, h, d)` is the staged keys' element `(t, r, h, d)`. -/
theorem key_block_apply (V : (c : Dev nD) → (b : Ref sig .tc) → Buf (Elt F) ((c : Thread nD τ).loc b))
    (a1 : (pcfg1 (F := F)).Adm) (c : Dev nD) (t : Fin (cfg1 a1).N) (r : Fin 16) (h : Fin 16) (d : Fin 128)
    (k : S16x16x16x128.Idx) (hk0 : (k 0).val = t.val) (hk1 : (k 1).val = r.val) (hk2 : (k 2).val = h.val) (hk3 : (k 3).val = d.val) :
    (iblk1 V a1 c 0 t : Vec F S1x16x16x128 .f32) (ix4 0 r h d) = (V c main_call0_v4 : S16x16x16x128.Idx → Elt F .f32) k := by
  obtain ⟨e0, e1, e2, e3, -⟩ := key_index_facts t
  unfold iblk1
  show (V c main_call0_v4 : S16x16x16x128.Idx → Elt F .f32) ((((cfg1 a1).win 0).blk t).view.emb (ix4 0 r h d))
      = (V c main_call0_v4 : S16x16x16x128.Idx → Elt F .f32) k
  refine congrArg _ (funext fun a => Fin.ext ?_)
  match a with
  | ⟨0, _⟩ => show cc1_transform_0 (grid1.coords t) (0 : Fin 4) * 1 + 1 * 0 = (k 0).val; omega
  | ⟨1, _⟩ => show cc1_transform_0 (grid1.coords t) (1 : Fin 4) * 16 + 1 * r.val = (k 1).val; omega
  | ⟨2, _⟩ => show cc1_transform_0 (grid1.coords t) (2 : Fin 4) * 16 + 1 * h.val = (k 2).val; omega
  | ⟨3, _⟩ => show cc1_transform_0 (grid1.coords t) (3 : Fin 4) * 128 + 1 * d.val = (k 3).val; omega

/-- The staged keys reach the second region as the host prologue left them: element `(b, s, h, d)` is `key (b, h, s, d)`. -/
theorem Ve3_keyT (c : Dev nD) (k : S16x16x16x128.Idx) :
    (Ve3 m c main_call0_v4 : S16x16x16x128.Idx → Elt F .f32) k
      = (m ((c : Thread nD τ).loc main_arg2) : S16x16x16x128.Idx → Elt F .f32) (ix4 (k 0) (k 2) (k 1) (k 3)) := by
  have e : Ve3 m c main_call0_v4 = V1 m c main_call0_v4 :=
    (V3_of m (outs2 m) c main_call0_v4 (by decide)).trans (V2_of m (outs2 m) c main_call0_v4 (by decide))
  exact (congrFun e k).trans (V1_keyT m c k)

/-! ## The tables' words at a grid point -/

/-- At grid point `n` the two words are the clamped cache position and batch row of batch entry `n`. -/
theorem words_at (c : Dev nD) (n : Nat) (hn : n < 16) (t : Fin (cfg1 (adm1 m)).N) (ht : t.val = n) :
    (wordAt (grid1.coords t) tbM0 (tb0 (adm1 m) c) : BitVec 32).toNat = cacheN m c ⟨n, hn⟩
    ∧ (wordAt (grid1.coords t) tbM1 (tb1 (adm1 m) c) : BitVec 32).toNat = batchN m c ⟨n, hn⟩ := by
  obtain ⟨-, -, -, -, e⟩ := key_index_facts t
  have hb : (⟨((grid1.coords t) 0).val, ((grid1.coords t) 0).isLt⟩ : Fin 16) = ⟨n, hn⟩ := Fin.ext (e.trans ht)
  constructor
  · rw [word0_eq m c (grid1.coords t), hb]; rfl
  · rw [word1_eq m c (grid1.coords t), hb]; rfl

/-- The result array after the first `n` grid points of the second region is the specification after `n` writes,
    over the clamped tables' words, `key` and `past`. -/
theorem acc_eq_G (hT : TblOk (adm1 m)) (c : Dev nD) (n : Nat) (hn : n ≤ 16) (i : S16x8192x16x128.Idx) :
    (acc (Ve3 m) (adm1 m) hT c n : S16x8192x16x128.Idx → Elt F .f32) i
      = Cert.Spec.G (cacheN m c) (batchN m c) (m ((c : Thread nD τ).loc main_arg2) : S16x16x16x128.Idx → Elt F .f32)
          (m ((c : Thread nD τ).loc main_arg3) : S16x16x8192x128.Idx → Elt F .f32) n i := by
  induction n with
  | zero =>
    rw [Cert.Spec.G_zero]
    exact (congrFun (acc_zero_eq m hT c) i).trans (arr0_apply m c i)
  | succ n ih =>
    have hn' : n < 16 := by omega
    have hnN : n < (cfg1 (adm1 m)).N := lt_of_lt_of_eq hn' N_1.symm
    have ih' := ih (by omega)
    rw [Cert.Spec.G_succ _ _ _ _ n hn']
    -- grid point `n` writes its key block over what the points before left
    have hs := acc_succ (Ve3 m) (adm1 m) hT c ⟨n, hnN⟩
    obtain ⟨hw0, hw1⟩ := words_at m c n hn' ⟨n, hnN⟩ rfl
    refine (congrFun hs i).trans ?_
    by_cases hit : Cert.Spec.Hit (cacheN m c) (batchN m c) ⟨n, hn'⟩ i
    · rw [if_pos hit]
      obtain ⟨e0, lo, hi⟩ := hit
      -- inside the window: the block's row is the distance from the cache position
      have hr : (i 1).val - cacheN m c ⟨n, hn'⟩ < 16 := by omega
      refine (step1_hit _ _ _ _ _ i ⟨(i 1).val - cacheN m c ⟨n, hn'⟩, hr⟩ (by rw [hw1]; exact e0) (by rw [hw0]; show (i 1).val = _ + ((i 1).val - _); omega)).trans ?_
      refine (key_block_apply (Ve3 m) (adm1 m) c ⟨n, hnN⟩ ⟨(i 1).val - cacheN m c ⟨n, hn'⟩, hr⟩ (i 2) (i 3)
        (ix4 ⟨n, hn'⟩ ⟨(i 1).val - cacheN m c ⟨n, hn'⟩, hr⟩ (i 2) (i 3)) rfl rfl rfl rfl).trans ?_
      refine (Ve3_keyT m c _).trans ?_
      refine congrArg _ ?_
      unfold Cert.Spec.keyIdx
      funext a
      match a with
      | ⟨0, _⟩ => rfl
      | ⟨1, _⟩ => rfl
      | ⟨2, _⟩ => exact Fin.ext (Nat.mod_eq_of_lt hr).symm
      | ⟨3, _⟩ => rfl
    · rw [if_neg hit]
      refine (step1_miss _ _ _ _ _ i ?_).trans ih'
      rw [hw0, hw1]
      exact hit

end Cert.KernelIdeal.Hand

end
-- ==== Proof.RefValue.lean ====
/-
  The reference's result is the common specification: its scatter of the transposed new keys into the
  transposed `past`, applied update by update in row-major order, is the sixteen block writes of `Spec.G`.

  The argument. A scatter whose body returns the update is a sequence of point writes, one per update index in
  row-major order, so an element of the result is the update element of the LAST update index that lands at it, and
  the operand's element when none does. Under the index ranges, update index `(b, s, h, d)` lands at result index
  `(batch b, cache b + s, h, d)`. Row-major order runs through the batch entries `b` in increasing order, and for a
  fixed `b` at most one update index lands at a given result index; so the last update index landing at `i` belongs to
  the last batch entry whose write touches `i` — which is how `Spec.G` is defined.
-/
import proofs.«430957_j66529043415042_3_alg».proof.Proof.Gen.ReferenceIdeal.Read
import proofs.«430957_j66529043415042_3_alg».proof.Proof.Spec
import Idealize.ShloMosaic.Lib.ValueIdx

noncomputable section

namespace Cert.RefValue

open Idealize.ShloMosaic Idealize.ShloMosaic.ValueIdx Cert.ReferenceIdeal

open Cert.ReferenceIdeal.Read

variable {F : FTy → Type} [FloatOps F]

/-! ## A sequence of point writes -/

section Fold
variable {ι κ α : Type} [DecidableEq κ]

/-- One step of a sequence of point writes: write `n` replaces the element at its target, when it has one. -/
def setStep (tgt : ι → Option κ) (val : ι → α) (r : κ → α) (n : ι) : κ → α :=
  match tgt n with
  | some i => fun i' => if i' = i then val n else r i'
  | none => r

theorem setStep_apply (tgt : ι → Option κ) (val : ι → α) (r : κ → α) (n : ι) (i' : κ) :
    setStep tgt val r n i' = if tgt n = some i' then val n else r i' := by
  unfold setStep
  cases h : tgt n with
  | none => simp
  | some i =>
    by_cases e : i' = i
    · subst e; simp
    · have : ¬ (some i = some i') := fun h' => e (Option.some.inj h').symm
      simp [e, this]

/-- A position no write of the list targets keeps its starting element. -/
theorem foldl_setStep_of_forall_ne (tgt : ι → Option κ) (val : ι → α) (i' : κ) :
    ∀ (l : List ι) (x : κ → α), (∀ m ∈ l, tgt m ≠ some i') → l.foldl (setStep tgt val) x i' = x i'
  | [], _, _ => rfl
  | n :: l, x, h => by
    rw [List.foldl_cons, foldl_setStep_of_forall_ne tgt val i' l _ (fun m hm => h m (List.mem_cons_of_mem _ hm)),
      setStep_apply, if_neg (h n List.mem_cons_self)]

/-- A position holds the value of the last write of the list that targets it. -/
theorem foldl_setStep_of_last (tgt : ι → Option κ) (val : ι → α) (i' : κ) (n : ι) (hn : tgt n = some i') :
    ∀ (l₁ l₂ : List ι) (x : κ → α), (∀ m ∈ l₂, tgt m ≠ some i') →
      (l₁ ++ n :: l₂).foldl (setStep tgt val) x i' = val n := by
  intro l₁ l₂ x h
  rw [List.foldl_append, List.foldl_cons, foldl_setStep_of_forall_ne tgt val i' l₂ _ h, setStep_apply, if_pos hn]

end Fold

section Scatter
variable {α : Type} {s si u : Shape} {w : Nat}

/-- A scatter whose body returns the update is the sequence of point writes, in row-major order of the update indices. -/
theorem scatter_set_eq_foldl (d : ScatterDims s si u) (x : s.Idx → α) (idx : IVec si w) (upd : u.Idx → α) :
    Host.scatter d (fun _ b => b) x idx upd
      = (List.finRange u.numel).foldl
          (setStep (fun n => d.resultIdx? (u.rowMajor.symm n) idx) (fun n => upd (u.rowMajor.symm n))) x := by
  unfold Host.scatter
  refine congrArg (fun g => List.foldl g x (List.finRange u.numel)) ?_
  funext r n i'
  rw [setStep_apply]
  cases h : d.resultIdx? (u.rowMajor.symm n) idx with
  | none => exact (if_neg (fun h' => nomatch h')).symm
  | some i =>
    show (if i' = i then upd (u.rowMajor.symm n) else r i') = _
    by_cases e : i' = i
    · rw [if_pos e, if_pos (by rw [e])]
    · rw [if_neg e, if_neg (fun h' => e (Option.some.inj h').symm)]

/-- A position no update lands at keeps the operand's element. -/
theorem scatter_set_of_forall_ne (d : ScatterDims s si u) (x : s.Idx → α) (idx : IVec si w) (upd : u.Idx → α) (i' : s.Idx)
    (h : ∀ j, d.resultIdx? j idx ≠ some i') : Host.scatter d (fun _ b => b) x idx upd i' = x i' := by
  rw [scatter_set_eq_foldl]
  exact foldl_setStep_of_forall_ne _ _ i' _ x (fun m _ => h _)

/-- A position holds the update element of the last update index, in row-major order, that lands at it. -/
theorem scatter_set_of_last (d : ScatterDims s si u) (x : s.Idx → α) (idx : IVec si w) (upd : u.Idx → α) (i' : s.Idx)
    (j : u.Idx) (hj : d.resultIdx? j idx = some i')
    (hlast : ∀ j', u.rowMajor j < u.rowMajor j' → d.resultIdx? j' idx ≠ some i') :
    Host.scatter d (fun _ b => b) x idx upd i' = upd j := by
  rw [scatter_set_eq_foldl]
  obtain ⟨l₁, l₂, e⟩ := List.append_of_mem (List.mem_finRange (u.rowMajor j))
  have hp := List.pairwise_lt_finRange u.numel
  rw [e] at hp ⊢
  have hgt : ∀ m ∈ l₂, u.rowMajor j < m := fun m hm =>
    List.rel_of_pairwise_cons (List.pairwise_append.1 hp).2.1 hm
  have hn : (fun n => d.resultIdx? (u.rowMajor.symm n) idx) (u.rowMajor j) = some i' := by
    show d.resultIdx? (u.rowMajor.symm (u.rowMajor j)) idx = some i'
    rw [Equiv.symm_apply_apply]; exact hj
  have := foldl_setStep_of_last (fun n => d.resultIdx? (u.rowMajor.symm n) idx) (fun n => upd (u.rowMajor.symm n)) i'
    (u.rowMajor j) hn l₁ l₂ x (fun m hm => by
      have := hlast (u.rowMajor.symm m) (by rw [Equiv.apply_symm_apply]; exact hgt m hm)
      exact this)
  rw [this]
  show upd (u.rowMajor.symm (u.rowMajor j)) = upd j
  rw [Equiv.symm_apply_apply]

/-- An update index lands at `i` exactly when, on every axis, start plus window coordinate is `i`'s coordinate. -/
theorem resultIdx?_eq_some_iff_forall {s si u : Shape} {w : Nat} (d : ScatterDims s si u) (j : u.Idx) (idx : IVec si w) (i : s.Idx) :
    d.resultIdx? j idx = some i ↔ ∀ a, d.start j idx a + (d.window j a : Int) = ((i a).val : Int) := by
  unfold ScatterDims.resultIdx?
  split
  · next hh =>
    rw [Option.some.injEq]
    constructor
    · intro e a
      have := congrArg (fun f => ((f a).val : Nat)) e
      have h0 := (hh a).1
      simp only at this
      omega
    · intro key
      funext a
      refine Fin.ext ?_
      have := key a
      show (d.start j idx a + (d.window j a : Int)).toNat = (i a).val
      omega
  · next hh =>
    constructor
    · intro e; cases e
    · intro key
      exfalso; apply hh
      intro a
      have := key a
      have := (i a).isLt
      constructor <;> omega

end Scatter

/-! ## Where the reference's update indices land -/

section Dims
/-- The reference's scatter dimension numbers. -/
abbrev D : ScatterDims S16x8192x16x128 S16x16x2 S16x16x16x128 :=
  scatter_S16x8192x16x128_S16x16x2_S16x16x16x128_23_01_01_2

variable (b s h : Fin 16) (dd : Fin 128) (idx : IVec S16x16x2 32)

/-- Update index `(b, s, h, d)` reads component `c` of its index vector at `(b, s, c)`. -/
theorem siIdx_zero (c : Fin 2) : D.siIdx (ix4 b s h dd : S16x16x16x128.Idx) c = (ix3 b s c : S16x16x2.Idx) := by
  funext a; refine Fin.ext ?_
  match a with
  | ⟨0, _⟩ => rfl
  | ⟨1, _⟩ => rfl
  | ⟨2, _⟩ => rfl

/-- The window of update index `(b, s, h, d)` starts, on the four result axes, at the two components of its index
    vector read signed, and at `0` on the two window axes; its window coordinates are `0, 0, h, d`. -/
theorem start_zero : D.start (ix4 b s h dd : S16x16x16x128.Idx) idx 0 = (idx (ix3 b s 0)).toInt := by
  unfold ScatterDims.start
  rw [dif_pos (by decide)]
  exact congrArg (fun k => (idx k).toInt) (siIdx_zero b s h dd 0)

theorem start_one : D.start (ix4 b s h dd : S16x16x16x128.Idx) idx 1 = (idx (ix3 b s 1)).toInt := by
  unfold ScatterDims.start
  rw [dif_pos (by decide)]
  exact congrArg (fun k => (idx k).toInt) (siIdx_zero b s h dd 1)

theorem start_two : D.start (ix4 b s h dd : S16x16x16x128.Idx) idx 2 = 0 := by
  unfold ScatterDims.start
  rw [dif_neg (by decide)]

theorem start_three : D.start (ix4 b s h dd : S16x16x16x128.Idx) idx 3 = 0 := by
  unfold ScatterDims.start
  rw [dif_neg (by decide)]

theorem window_zero : D.window (ix4 b s h dd : S16x16x16x128.Idx) 0 = 0 := rfl
theorem window_one : D.window (ix4 b s h dd : S16x16x16x128.Idx) 1 = 0 := rfl
theorem window_two : D.window (ix4 b s h dd : S16x16x16x128.Idx) 2 = h.val := rfl
theorem window_three : D.window (ix4 b s h dd : S16x16x16x128.Idx) 3 = dd.val := rfl

/-- Update index `(b, s, h, d)` lands at `i` exactly when its index vector, read signed, is `(i 0, i 1)` and
    `(h, d) = (i 2, i 3)`. -/
theorem resultIdx?_eq_some_iff (i : S16x8192x16x128.Idx) :
    D.resultIdx? (ix4 b s h dd : S16x16x16x128.Idx) idx = some i ↔
      (idx (ix3 b s 0)).toInt = ((i 0).val : Int) ∧ (idx (ix3 b s 1)).toInt = ((i 1).val : Int)
        ∧ h.val = (i 2).val ∧ dd.val = (i 3).val := by
  rw [resultIdx?_eq_some_iff_forall]
  constructor
  · intro key
    have k0 := key 0; have k1 := key 1; have k2 := key 2; have k3 := key 3
    rw [start_zero, window_zero] at k0
    rw [start_one, window_one] at k1
    rw [start_two, window_two] at k2
    rw [start_three, window_three] at k3
    refine ⟨by omega, by omega, by omega, by omega⟩
  · rintro ⟨h0, h1, h2, h3⟩ a
    match a with
    | ⟨0, _⟩ => show D.start _ idx 0 + ((D.window _ 0 : Nat) : Int) = ((i 0).val : Int); rw [start_zero, window_zero]; omega
    | ⟨1, _⟩ => show D.start _ idx 1 + ((D.window _ 1 : Nat) : Int) = ((i 1).val : Int); rw [start_one, window_one]; omega
    | ⟨2, _⟩ => show D.start _ idx 2 + ((D.window _ 2 : Nat) : Int) = ((i 2).val : Int); rw [start_two, window_two]; omega
    | ⟨3, _⟩ => show D.start _ idx 3 + ((D.window _ 3 : Nat) : Int) = ((i 3).val : Int); rw [start_three, window_three]; omega

end Dims

/-! ## The scatter indices' values -/

section Indices

/-! ### Words -/

/-- A 32-bit word read signed and found nonnegative is its unsigned value, below `2^31`. -/
theorem toNat_of_toInt_nonneg (c : BitVec 32) (h : 0 ≤ c.toInt) : (c.toNat : Int) = c.toInt ∧ c.toNat < 2147483648 := by
  have e := BitVec.toInt_eq_toNat_cond c
  have := c.isLt
  split at e <;> omega

/-- A word below `2^31` read signed is its unsigned value. -/
theorem toInt_of_toNat_lt (c : BitVec 32) (h : c.toNat < 2147483648) : c.toInt = (c.toNat : Int) := by
  have e := BitVec.toInt_eq_toNat_cond c
  split at e <;> omega

/-- The signed comparison with zero of a nonnegative word is the bit `0`. -/
theorem cmpi_slt_zero_of_nonneg (a : BitVec 32) (h : 0 ≤ a.toInt) : IntOp.cmpi .slt a 0#32 = 0#1 := by
  have e : a.slt 0#32 = false := by
    simp only [BitVec.slt, BitVec.toInt_zero, decide_eq_false_iff_not, not_lt]; exact h
  show BitVec.ofBool (a.slt 0#32) = 0#1
  rw [e]; rfl

/-- Normalising a nonnegative index (adding the axis size to a negative one) leaves it as it is. -/
theorem normalize_of_nonneg (a y : BitVec 32) (h : 0 ≤ a.toInt) :
    Scalar.select (IntOp.cmpi .slt a 0#32) y a = a := by
  rw [cmpi_slt_zero_of_nonneg a h, select_zero]

/-! ### The scatter indices, read at an index -/

variable (x0 x1 : (⟨S16x1, .i32⟩ : BufTy).Contents (Elt F)) (b s : Fin 16)

/-- Component 0 of the index vector of update row `(b, s)` is the normalised batch row. -/
theorem v20_zero : val_main_v20 (F := F) x0 x1 (ix3 b s (0 : Fin 2)) = val_main_v11 (F := F) x1 (ix2 b (0 : Fin 1)) := by
  have e : val_main_v20 (F := F) x0 x1 (ix3 b s (0 : Fin 2)) = val_main_v18 (F := F) x1 (ix3 b s (0 : Fin 1)) := by
    unfold val_main_v20
    exact concatenate_pair_apply_left (t := S16x16x2) (s₁ := S16x16x1) (s₂ := S16x16x1) 2 _ _ _ (ix3 b s (0 : Fin 2)) rfl (ix3 b s (0 : Fin 1))
      (fun c => match c with | ⟨0, _⟩ => rfl | ⟨1, _⟩ => rfl | ⟨2, _⟩ => rfl)
  rw [e, val_main_v18_apply, val_main_v17_apply]
  refine congrArg (val_main_v11 (F := F) x1) ?_
  funext a; match a with | ⟨0, _⟩ => rfl | ⟨1, _⟩ => rfl

/-- Component 1 of the index vector of update row `(b, s)` is the normalised cache position. -/
theorem v20_one : val_main_v20 (F := F) x0 x1 (ix3 b s (1 : Fin 2)) = val_main_v16 (F := F) x0 (ix2 b s) := by
  have e : val_main_v20 (F := F) x0 x1 (ix3 b s (1 : Fin 2)) = val_main_v19 (F := F) x0 (ix3 b s (0 : Fin 1)) := by
    unfold val_main_v20
    exact concatenate_pair_apply_right (t := S16x16x2) (s₁ := S16x16x1) (s₂ := S16x16x1) 2 _ _ _ (ix3 b s (1 : Fin 2)) rfl rfl (ix3 b s (0 : Fin 1))
      (fun c hc => match c, hc with
        | ⟨0, _⟩, _ => rfl
        | ⟨1, _⟩, _ => rfl
        | ⟨2, _⟩, hc => absurd rfl hc) rfl
  rw [e, val_main_v19_apply]
  refine congrArg (val_main_v16 (F := F) x0) ?_
  funext a; match a with | ⟨0, _⟩ => rfl | ⟨1, _⟩ => rfl

/-- The cache position before normalisation: the sequence offset plus the entry's cache id, as words. -/
theorem v4_apply : val_main_v4 (F := F) x0 (ix2 b s) = BitVec.ofNat 32 s.val + x0 (ix2 b (0 : Fin 1)) := by
  rw [val_main_v4_apply, val_main_v2_apply, val_main_v1_apply, val_main_v0_apply, val_main_v3_apply]
  show BitVec.ofNat 32 s.val + x0 (idx_main_v3 (ix2 b s)) = _
  refine congrArg (fun k => BitVec.ofNat 32 s.val + x0 k) ?_
  funext a; match a with | ⟨0, _⟩ => rfl | ⟨1, _⟩ => rfl

/-- Under the batch-row range, component 0 of the index vector, read signed, is the batch row's value. -/
theorem idx_zero_toInt (hb : 0 ≤ (x1 (ix2 b 0)).toInt) :
    (val_main_v20 (F := F) x0 x1 (ix3 b s (0 : Fin 2))).toInt = ((x1 (ix2 b (0 : Fin 1))).toNat : Int) := by
  rw [v20_zero, val_main_v11_apply, val_main_v8_apply, val_main_v7_apply, val_main_c_apply,
    normalize_of_nonneg _ _ hb]
  exact (toNat_of_toInt_nonneg _ hb).1.symm

/-- Under the cache range, component 1 of the index vector, read signed, is the cache position plus the sequence
    offset: the word sum does not wrap. -/
theorem idx_one_toInt (hc : 0 ≤ (x0 (ix2 b 0)).toInt ∧ (x0 (ix2 b 0)).toInt ≤ 8176) :
    (val_main_v20 (F := F) x0 x1 (ix3 b s (1 : Fin 2))).toInt = (((x0 (ix2 b (0 : Fin 1))).toNat + s.val : Nat) : Int) := by
  obtain ⟨e, _⟩ := toNat_of_toInt_nonneg _ hc.1
  have hs := s.isLt
  have hsum : (BitVec.ofNat 32 s.val + x0 (ix2 b (0 : Fin 1))).toNat = (x0 (ix2 b (0 : Fin 1))).toNat + s.val := by
    rw [BitVec.toNat_add, BitVec.toNat_ofNat]; omega
  have hint : (BitVec.ofNat 32 s.val + x0 (ix2 b (0 : Fin 1))).toInt = (((x0 (ix2 b (0 : Fin 1))).toNat + s.val : Nat) : Int) := by
    rw [toInt_of_toNat_lt _ (by rw [hsum]; omega), hsum]
  rw [v20_one, val_main_v16_apply, val_main_v13_apply, val_main_v12_apply, val_main_c_1_apply, v4_apply,
    normalize_of_nonneg _ _ (by rw [hint]; omega)]
  exact hint

end Indices

/-! ## Where an update index lands, under the index ranges -/

section Land
variable (x0 x1 : (⟨S16x1, .i32⟩ : BufTy).Contents (Elt F))

/-- Under the index ranges, update index `(b, s, h, d)` lands at result index `(B, S, h', d')` exactly when
    `B` is the batch row of entry `b`, `S` its cache position plus `s`, and `(h', d') = (h, d)`. -/
theorem land_iff (hc : ∀ b : Fin 16, 0 ≤ (x0 (ix2 b 0)).toInt ∧ (x0 (ix2 b 0)).toInt ≤ 8176)
    (hb : ∀ b : Fin 16, 0 ≤ (x1 (ix2 b 0)).toInt ∧ (x1 (ix2 b 0)).toInt < 16)
    (b s h : Fin 16) (dd : Fin 128) (B : Fin 16) (Sq : Fin 8192) (h' : Fin 16) (dd' : Fin 128) :
    D.resultIdx? (ix4 b s h dd : S16x16x16x128.Idx) (val_main_v20 (F := F) x0 x1) = some (ix4 B Sq h' dd' : S16x8192x16x128.Idx)
      ↔ (x1 (ix2 b (0 : Fin 1))).toNat = B.val ∧ (x0 (ix2 b (0 : Fin 1))).toNat + s.val = Sq.val
          ∧ h.val = h'.val ∧ dd.val = dd'.val := by
  rw [resultIdx?_eq_some_iff, idx_zero_toInt x0 x1 b s (hb b).1, idx_one_toInt x0 x1 b s (hc b)]
  show ((x1 (ix2 b (0 : Fin 1))).toNat : Int) = (B.val : Int) ∧ (((x0 (ix2 b (0 : Fin 1))).toNat + s.val : Nat) : Int) = (Sq.val : Int)
      ∧ h.val = h'.val ∧ dd.val = dd'.val ↔ _
  rw [Int.natCast_inj, Int.natCast_inj]

end Land

/-! ## The specification, read by the last write that touches an index -/

section Spec
open Cert.Spec
variable {α : Type} (cache batch : Fin 16 → Nat) (key : SKey.Idx → α) (past : SPast.Idx → α) (i : SOut.Idx)

/-- An index none of the first `n` writes touches still holds the transposed `past`. -/
theorem G_of_forall_not_hit : ∀ n, n ≤ 16 → (∀ b : Fin 16, b.val < n → ¬ Hit cache batch b i) →
    G cache batch key past n i = past (pastIdx i)
  | 0, _, _ => rfl
  | n + 1, hn, h => by
    rw [G_succ _ _ _ _ n (by omega), if_neg (h ⟨n, by omega⟩ (Nat.lt_succ_self n)),
      G_of_forall_not_hit n (by omega) (fun b hb => h b (by omega))]

/-- An index holds the key element of the last of the first `n` writes that touches it. -/
theorem G_of_last_hit (b : Fin 16) (hb : Hit cache batch b i) : ∀ n, n ≤ 16 → b.val < n →
    (∀ b' : Fin 16, b < b' → b'.val < n → ¬ Hit cache batch b' i) →
    G cache batch key past n i = key (keyIdx cache b i)
  | 0, _, h0, _ => absurd h0 (Nat.not_lt_zero _)
  | n + 1, hn, hlt, hlast => by
    rw [G_succ _ _ _ _ n (by omega)]
    by_cases e : b.val = n
    · have : (⟨n, by omega⟩ : Fin 16) = b := Fin.ext e.symm
      rw [this, if_pos hb]
    · rw [if_neg (hlast ⟨n, by omega⟩ (show b.val < n by omega) (Nat.lt_succ_self n)),
        G_of_last_hit b hb n (by omega) (by omega) (fun b' h1 h2 => hlast b' h1 (by omega))]

/-- Among the first `n` writes either none touches the index, or there is a last one that does. -/
theorem exists_last_hit : ∀ n, n ≤ 16 →
    (∀ b : Fin 16, b.val < n → ¬ Hit cache batch b i)
      ∨ ∃ b : Fin 16, b.val < n ∧ Hit cache batch b i ∧ ∀ b' : Fin 16, b < b' → b'.val < n → ¬ Hit cache batch b' i
  | 0, _ => Or.inl (fun _ hb => absurd hb (Nat.not_lt_zero _))
  | n + 1, hn => by
    by_cases hh : Hit cache batch ⟨n, by omega⟩ i
    · refine Or.inr ⟨⟨n, by omega⟩, Nat.lt_succ_self n, hh, fun b' h1 h2 => ?_⟩
      have : n < b'.val := h1
      omega
    · rcases exists_last_hit n (by omega) with h | ⟨b, hb, hhit, hlast⟩
      · refine Or.inl (fun b hb => ?_)
        by_cases e : b.val = n
        · have : b = ⟨n, by omega⟩ := Fin.ext e
          rw [this]; exact hh
        · exact h b (by omega)
      · refine Or.inr ⟨b, by omega, hhit, fun b' h1 h2 => ?_⟩
        by_cases e : b'.val = n
        · have : b' = ⟨n, by omega⟩ := Fin.ext e
          rw [this]; exact hh
        · exact hlast b' h1 (by omega)

end Spec

/-! ## The reference's result -/

/-- The row-major position of update index `(b, s, h, d)`. -/
theorem rowMajor_ix4 (b s h : Fin 16) (dd : Fin 128) :
    (S16x16x16x128.rowMajor (ix4 b s h dd)).val = ((b.val * 16 + s.val) * 16 + h.val) * 128 + dd.val :=
  Shape.rowMajor_val_four _

/-- The reference's result at one index. -/
theorem ref_apply (x0 x1 : (⟨S16x1, .i32⟩ : BufTy).Contents (Elt F)) (x2 : (⟨S16x16x16x128, .f32⟩ : BufTy).Contents (Elt F))
    (x3 : (⟨S16x16x8192x128, .f32⟩ : BufTy).Contents (Elt F))
    (hc : ∀ b : Fin 16, 0 ≤ (x0 (ix2 b 0)).toInt ∧ (x0 (ix2 b 0)).toInt ≤ 8176)
    (hb : ∀ b : Fin 16, 0 ≤ (x1 (ix2 b 0)).toInt ∧ (x1 (ix2 b 0)).toInt < 16)
    (B : Fin 16) (Sq : Fin 8192) (h : Fin 16) (dd : Fin 128) :
    Cert.ReferenceIdeal.Read.val_main_v21 (F := F) x0 x1 x2 x3 (ix4 B Sq h dd)
      = Cert.Spec.G (fun b => (x0 (ix2 b 0)).toNat) (fun b => (x1 (ix2 b 0)).toNat) x2 x3 16 (ix4 B Sq h dd) := by
  unfold val_main_v21
  rcases exists_last_hit (fun b => (x0 (ix2 b 0)).toNat) (fun b => (x1 (ix2 b 0)).toNat) (ix4 B Sq h dd) 16 (Nat.le_refl _)
    with hnone | ⟨b, _, hhit, hlast⟩
  · -- no write touches the index: no update index lands at it
    rw [G_of_forall_not_hit _ _ _ _ _ 16 (Nat.le_refl _) hnone]
    rw [scatter_set_of_forall_ne D _ _ _ _ (fun j hj => by
      obtain ⟨b', s', h', d', rfl⟩ : ∃ (b' s' h' : Fin 16) (d' : Fin 128), j = ix4 b' s' h' d' :=
        ⟨j 0, j 1, j 2, j 3, eq_ix4 j⟩
      obtain ⟨e0, e1, _, _⟩ := (land_iff x0 x1 hc hb b' s' h' d' B Sq h dd).1 hj
      have hs := s'.isLt
      exact hnone b' b'.isLt ⟨e0.symm,
        by show (x0 (ix2 b' (0 : Fin 1))).toNat ≤ Sq.val; omega,
        by show Sq.val < (x0 (ix2 b' (0 : Fin 1))).toNat + 16; omega⟩)]
    rw [val_main_v5_apply]
    refine congrArg x3 ?_
    funext a; match a with | ⟨0, _⟩ => rfl | ⟨1, _⟩ => rfl | ⟨2, _⟩ => rfl | ⟨3, _⟩ => rfl
  · -- write `b` is the last that touches the index: its update index for this position is the last that lands at it
    have hhit' : B.val = (x1 (ix2 b (0 : Fin 1))).toNat ∧ (x0 (ix2 b (0 : Fin 1))).toNat ≤ Sq.val
        ∧ Sq.val < (x0 (ix2 b (0 : Fin 1))).toNat + 16 := hhit
    obtain ⟨hB, hlo, hhi⟩ := hhit'
    rw [G_of_last_hit _ _ _ _ _ b hhit 16 (Nat.le_refl _) b.isLt hlast]
    rw [scatter_set_of_last D _ _ _ _ (ix4 b ⟨Sq.val - (x0 (ix2 b (0 : Fin 1))).toNat, by omega⟩ h dd)
      ((land_iff x0 x1 hc hb b _ h dd B Sq h dd).2 ⟨hB.symm, by show _ + (Sq.val - _) = _; omega, rfl, rfl⟩)
      (fun j hlt hj => by
        obtain ⟨b', s', h', d', rfl⟩ : ∃ (b' s' h' : Fin 16) (d' : Fin 128), j = ix4 b' s' h' d' :=
          ⟨j 0, j 1, j 2, j 3, eq_ix4 j⟩
        obtain ⟨e0, e1, e2, e3⟩ := (land_iff x0 x1 hc hb b' s' h' d' B Sq h dd).1 hj
        have hs := s'.isLt
        have hle : ¬ b < b' := fun hbb => hlast b' hbb b'.isLt
          ⟨e0.symm,
            by show (x0 (ix2 b' (0 : Fin 1))).toNat ≤ Sq.val; omega,
            by show Sq.val < (x0 (ix2 b' (0 : Fin 1))).toNat + 16; omega⟩
        rw [Fin.lt_def, rowMajor_ix4, rowMajor_ix4] at hlt
        have hle' : b'.val ≤ b.val := Nat.not_lt.1 hle
        have hh := h.isLt; have hh' := h'.isLt; have hd := dd.isLt; have hd' := d'.isLt
        rcases Nat.lt_or_eq_of_le hle' with hl | he
        · simp only at hlt; omega
        · have : b' = b := Fin.ext he
          subst this
          simp only at hlt; omega)]
    rw [val_main_v6_apply]
    refine congrArg x2 ?_
    funext a; refine Fin.ext ?_
    match a with
    | ⟨0, _⟩ => rfl
    | ⟨1, _⟩ => rfl
    | ⟨2, _⟩ => exact (Nat.mod_eq_of_lt (show Sq.val - (x0 (ix2 b (0 : Fin 1))).toNat < 16 by omega)).symm
    | ⟨3, _⟩ => rfl

/-- Under the index ranges the precondition states (every cache position in `[0, 8176]`, every batch row in
    `[0, 16)`, read signed), the reference's result array is `Spec.G` after all sixteen writes, over the
    tables' values as naturals. -/
theorem ref_eq (x0 x1 : (⟨S16x1, .i32⟩ : BufTy).Contents (Elt F)) (x2 : (⟨S16x16x16x128, .f32⟩ : BufTy).Contents (Elt F))
    (x3 : (⟨S16x16x8192x128, .f32⟩ : BufTy).Contents (Elt F))
    (hc : ∀ b : Fin 16, 0 ≤ (x0 (ix2 b 0)).toInt ∧ (x0 (ix2 b 0)).toInt ≤ 8176)
    (hb : ∀ b : Fin 16, 0 ≤ (x1 (ix2 b 0)).toInt ∧ (x1 (ix2 b 0)).toInt < 16) :
    Cert.ReferenceIdeal.Read.val_main_v21 (F := F) x0 x1 x2 x3
      = Cert.Spec.G (fun b => (x0 (ix2 b 0)).toNat) (fun b => (x1 (ix2 b 0)).toNat) x2 x3 16 := by
  funext i
  obtain ⟨B, Sq, h, dd, rfl⟩ : ∃ (B : Fin 16) (Sq : Fin 8192) (h : Fin 16) (dd : Fin 128), i = ix4 B Sq h dd :=
    ⟨i 0, i 1, i 2, i 3, eq_ix4 i⟩
  exact ref_apply x0 x1 x2 x3 hc hb B Sq h dd

end Cert.RefValue

end
-- ==== Proof.Bridge.lean ====
/-
  The two programs' results agree: under the precondition's index ranges the clamps of the kernel's host
  prologue are the identity, so the result array the second region leaves — the common specification over the
  clamped tables — is the specification over the raw tables, which is the reference's scatter.
-/
import proofs.«430957_j66529043415042_3_alg».proof.Proof.KI_Run
import proofs.«430957_j66529043415042_3_alg».proof.Proof.KI_Value
import proofs.«430957_j66529043415042_3_alg».proof.Proof.RefValue
import proofs.«430957_j66529043415042_3_alg».proof.Proof.Clamp

noncomputable section

namespace Cert.Bridge

open Cert.KernelIdeal Cert.KernelIdeal.Gen Cert.KernelIdeal.Hand
open Idealize.ShloMosaic Idealize.ShloMosaic.TcCoe Idealize.ShloMosaic.ValueIdx
open Idealize.SL.Sem

variable {F : FTy → Type} [FloatOps F]

variable (m : (ℓ : Loc nD τ sig) → Buf (Elt F) ℓ)

/-- A cache position already in [0, 8176] is its own clamp, so the kernel's cache word is the raw one. -/
theorem cacheN_eq (c : Dev nD) (b : Fin 16)
    (h0 : 0 ≤ ((m ((c : Thread nD τ).loc main_arg0) : S16x1.Idx → BitVec 32) (ix2 b 0)).toInt)
    (h1 : ((m ((c : Thread nD τ).loc main_arg0) : S16x1.Idx → BitVec 32) (ix2 b 0)).toInt ≤ 8176) :
    cacheN m c b = ((m ((c : Thread nD τ).loc main_arg0) : S16x1.Idx → BitVec 32) (ix2 b 0)).toNat := by
  have e : ((8176#32 : BitVec 32).toNat : Int) = 8176 := by decide
  unfold cacheN
  rw [Cert.Clamp.clamp_id 8176#32 (by decide) _ h0 (le_of_le_of_eq h1 e.symm)]

/-- A batch row already in [0, 16) is its own clamp into [0, 15]. -/
theorem batchN_eq (c : Dev nD) (b : Fin 16)
    (h0 : 0 ≤ ((m ((c : Thread nD τ).loc main_arg1) : S16x1.Idx → BitVec 32) (ix2 b 0)).toInt)
    (h1 : ((m ((c : Thread nD τ).loc main_arg1) : S16x1.Idx → BitVec 32) (ix2 b 0)).toInt < 16) :
    batchN m c b = ((m ((c : Thread nD τ).loc main_arg1) : S16x1.Idx → BitVec 32) (ix2 b 0)).toNat := by
  have e : ((15#32 : BitVec 32).toNat : Int) = 15 := by decide
  unfold batchN
  rw [Cert.Clamp.clamp_id 15#32 (by decide) _ h0 (by rw [e]; omega)]

/-- With every cache position in [0, 8176] and every batch row in [0, 16), the array the kernel's second region
    leaves in the result's buffer is the reference's result on the same four arguments. -/
theorem fin1_eq_ref (c : Dev nD)
    (hc : ∀ b : Fin 16, 0 ≤ ((m ((c : Thread nD τ).loc main_arg0) : S16x1.Idx → BitVec 32) (ix2 b 0)).toInt
      ∧ ((m ((c : Thread nD τ).loc main_arg0) : S16x1.Idx → BitVec 32) (ix2 b 0)).toInt ≤ 8176)
    (hb : ∀ b : Fin 16, 0 ≤ ((m ((c : Thread nD τ).loc main_arg1) : S16x1.Idx → BitVec 32) (ix2 b 0)).toInt
      ∧ ((m ((c : Thread nD τ).loc main_arg1) : S16x1.Idx → BitVec 32) (ix2 b 0)).toInt < 16) :
    (fin1 m c : S16x8192x16x128.Idx → Elt F .f32)
      = Cert.ReferenceIdeal.Read.val_main_v21 (F := F) (m ((c : Thread nD τ).loc main_arg0)) (m ((c : Thread nD τ).loc main_arg1))
          (m ((c : Thread nD τ).loc main_arg2)) (m ((c : Thread nD τ).loc main_arg3)) := by
  -- the reference's result is the specification over the raw tables
  refine Eq.trans ?_ (Cert.RefValue.ref_eq (F := F) (m ((c : Thread nD τ).loc main_arg0)) (m ((c : Thread nD τ).loc main_arg1))
    (m ((c : Thread nD τ).loc main_arg2)) (m ((c : Thread nD τ).loc main_arg3)) hc hb).symm
  funext i
  -- the second region has sixteen grid points
  have hN : (cfg1 (adm1 m)).N = 16 := N_1
  have hacc : acc (Ve3 m) (adm1 m) (tblOk m) c (cfg1 (adm1 m)).N = acc (Ve3 m) (adm1 m) (tblOk m) c 16 := congrArg _ hN
  unfold fin1
  refine (congrFun hacc i).trans ?_
  -- after them the kernel's array is the specification over the clamped tables, and the clamps change nothing
  refine (acc_eq_G m (tblOk m) c 16 le_rfl i).trans ?_
  exact congrFun (Cert.Spec.G_congr (fun b => cacheN_eq m c b (hc b).1 (hc b).2) (fun b => batchN_eq m c b (hb b).1 (hb b).2) _ _ 16) i

end Cert.Bridge

end
-- ==== Proof.PreDecode.lean ====
/-
  What the precondition says of the two index tables: every cache position lies in `[0, 8176]` and every batch
  row in `[0, 16)`, read as signed words.
-/
import proofs.«430957_j66529043415042_3_alg».proof.Proof.Gen.Pre_finite_inputs
import Idealize.ShloMosaic.Lib.ValueIdx
import Idealize.ShloMosaic.Lib.ReduceAll
import Idealize.ShloMosaic.Lib.StableHlo.Predicate

noncomputable section

namespace Cert.PreDecode

open Idealize.ShloMosaic Idealize.ShloMosaic.ValueIdx Cert.Pre_finite_inputs

variable {F : FTy → Type} [FloatOps F]

/-- The scalar shape has one index. -/
instance : Subsingleton S_.Idx := ⟨fun _ _ => funext fun d => d.elim0⟩

/-- An elementwise conjunction of one-bit masks is set at an index exactly when both masks are set there. -/
theorem andi_apply_eq_one {s : Shape} (a b : IVec s 1) (i : s.Idx) : andi a b i = 1#1 ↔ a i = 1#1 ∧ b i = 1#1 :=
  IntOp.andi_eq_one

/-- "All of `lo ≤ x ≤ hi`" (signed, the bounds scalars laid over the column), read at row `b`. -/
theorem all_between (x : IVec S16x1 32) (lo hi : BitVec 32) (hb : S_.BroadcastsInDim S16x1 (![] : Fin 0 → Fin S16x1.rank))
    (hr : S16x1.ReducesTo [0, 1] S_) (h0 : 0 < S_.numel)
    (e : Host.reduce IntOp.andi
          (andi (cmpi .sge x (broadcastInDim S16x1 ![] hb (constantI S_ 32 lo)))
            (cmpi .sle x (broadcastInDim S16x1 ![] hb (constantI S_ 32 hi))))
          (constantI S_ 1 1#1) hr h0 ix0 = 1#1) (b : Fin 16) :
    lo.toInt ≤ (x (ix2 b 0)).toInt ∧ (x (ix2 b 0)).toInt ≤ hi.toInt := by
  have hel := Host.reduce_andi_all _ _ hr h0 ix0 e (ix2 b 0)
  have hel' : IntOp.andi (IntOp.cmpi .sge (x (ix2 b 0)) lo) (IntOp.cmpi .sle (x (ix2 b 0)) hi) = 1#1 := hel
  rw [IntOp.andi_eq_one, IntOp.cmpi_sge, IntOp.cmpi_sle] at hel'
  exact hel'

/-- "All of `lo ≤ x < hi`" (signed), read at row `b`. -/
theorem all_between_lt (x : IVec S16x1 32) (lo hi : BitVec 32) (hb : S_.BroadcastsInDim S16x1 (![] : Fin 0 → Fin S16x1.rank))
    (hr : S16x1.ReducesTo [0, 1] S_) (h0 : 0 < S_.numel)
    (e : Host.reduce IntOp.andi
          (andi (cmpi .sge x (broadcastInDim S16x1 ![] hb (constantI S_ 32 lo)))
            (cmpi .slt x (broadcastInDim S16x1 ![] hb (constantI S_ 32 hi))))
          (constantI S_ 1 1#1) hr h0 ix0 = 1#1) (b : Fin 16) :
    lo.toInt ≤ (x (ix2 b 0)).toInt ∧ (x (ix2 b 0)).toInt < hi.toInt := by
  have hel := Host.reduce_andi_all _ _ hr h0 ix0 e (ix2 b 0)
  have hel' : IntOp.andi (IntOp.cmpi .sge (x (ix2 b 0)) lo) (IntOp.cmpi .slt (x (ix2 b 0)) hi) = 1#1 := hel
  rw [IntOp.andi_eq_one, IntOp.cmpi_sge, IntOp.cmpi_slt] at hel'
  exact hel'

/-- The precondition's two integer conjuncts, element by element. -/
theorem decode [Cert.Pre_finite_inputs.Facts] (x0 x1 : IVec S16x1 32) (x2 : FVec F S16x16x16x128 .f32) (x3 : FVec F S16x16x8192x128 .f32)
    (h : Cert.Pre_finite_inputs.fn (F := F) x0 x1 x2 x3 = fun _ => 1#1) :
    (∀ b : Fin 16, 0 ≤ (x0 (ix2 b 0)).toInt ∧ (x0 (ix2 b 0)).toInt ≤ 8176)
      ∧ (∀ b : Fin 16, 0 ≤ (x1 (ix2 b 0)).toInt ∧ (x1 (ix2 b 0)).toInt < 16) := by
  have e := congrFun h ValueIdx.ix0
  dsimp only [fn, fn_part1] at e
  -- the value is ((finite₂ ∧ finite₃) ∧ range₀) ∧ range₁
  obtain ⟨h15, h21⟩ := (andi_apply_eq_one _ _ _).1 e
  obtain ⟨_, h14⟩ := (andi_apply_eq_one _ _ _).1 h15
  have z : (0#32 : BitVec 32).toInt = 0 := by decide
  have c0 : (8176#32 : BitVec 32).toInt = 8176 := by decide
  have c1 : (16#32 : BitVec 32).toInt = 16 := by decide
  refine ⟨fun b => ?_, fun b => ?_⟩
  · have r := all_between x0 0#32 8176#32 _ _ _ h14 b
    rw [z, c0] at r
    exact r
  · have r := all_between_lt x1 0#32 16#32 _ _ _ h21 b
    rw [z, c1] at r
    exact r

end Cert.PreDecode

end
-- ==== Proof.lean ====
/-
  The certificate's five claims.  The kernel program transposes `past` block by block into an intermediate
  array, copies it into the result's buffer, and then, for b = 0, …, 15 in order, copies the transposed new keys of
  batch entry b into the window of sixteen sequence rows that the (clamped) cache position and batch row of entry b
  name.  The reference scatters the same sixteen blocks into the transposed `past`, update by update in
  row-major order, so a later batch entry overwrites an earlier one exactly as in the kernel.  Under the
  precondition — every float finite, every cache position in [0, 8176] and every batch row in [0, 16) — the
  kernel's clamps are the identity and the two results are one array (`Bridge.fin1_eq_ref`).  The frames of the two
  kernel programs are the run of the two regions at either float instance; the reference's is its generated run.
-/
import proofs.«430957_j66529043415042_3_alg».proof.Defs
import proofs.«430957_j66529043415042_3_alg».proof.Proof.Gen.Kernel
import proofs.«430957_j66529043415042_3_alg».proof.Proof.Gen.KernelIdeal
import proofs.«430957_j66529043415042_3_alg».proof.Proof.Gen.ReferenceIdeal
import proofs.«430957_j66529043415042_3_alg».proof.Proof.Gen.Pre_finite_inputs
import proofs.«430957_j66529043415042_3_alg».proof.Proof.Gen.ReferenceIdeal.Run
import proofs.«430957_j66529043415042_3_alg».proof.Proof.Gen.ReferenceIdeal.Read
import proofs.«430957_j66529043415042_3_alg».proof.Proof.K_Run
import proofs.«430957_j66529043415042_3_alg».proof.Proof.KI_Run
import proofs.«430957_j66529043415042_3_alg».proof.Proof.Bridge
import proofs.«430957_j66529043415042_3_alg».proof.Proof.PreDecode
import Idealize.ShloMosaic.Adequacy
import Idealize.ShloMosaic.Init

noncomputable section

namespace Cert.Proof

open Idealize.ShloMosaic Idealize.SL.Sem

/-- The word-level program runs and leaves its arguments unchanged: the two regions' run, the result dropped. -/
theorem frame_k : Cert.frame_Kernel := fun m ρ _ =>
  (θ_run (Cert.Kernel.defs (F := Bits)) _ _).mono (fun _ h c => (h c).2) (Cert.Kernel.Hand.run_main (F := Bits) m ρ)

/-- The idealized program likewise. -/
theorem frame_ki : Cert.frame_KernelIdeal := fun m ρ _ =>
  (θ_run (Cert.KernelIdeal.defs (F := Ideal)) _ _).mono (fun _ h c => (h c).2) (Cert.KernelIdeal.Hand.run_main (F := Ideal) m ρ)

/-- The reference runs and leaves its arguments unchanged: its generated run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories agreeing on the four arguments both programs run, and both results are the array the kernel's
    second region leaves: the reference's scatter is that array under the precondition's index ranges. -/
theorem algebraic : Cert.algebraic_KernelIdeal_ReferenceIdeal := by
  intro m ρ m' ρ' hpre hagree
  refine ⟨fun c => Cert.KernelIdeal.Hand.fin1 (F := Ideal) m c, Cert.KernelIdeal.Hand.run_main (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨hc, hb⟩ := Cert.PreDecode.decode (F := Ideal) _ _ _ _ (hpre c)
  refine (Cert.ReferenceIdeal.Read.val_main_v21_eq (F := Ideal) _ _ _ _).trans ?_
  rw [(hagree c).1, (hagree c).2.1, (hagree c).2.2.1, (hagree c).2.2.2]
  exact (Cert.Bridge.fin1_eq_ref (F := Ideal) m c hc hb).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
